-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256x64 : Shape := ⟨2, ![256, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : IVec S50000 32) (main_arg3 : FVec F S256x64 .f32) (main_arg4 : FVec F S64 .f32) (main_arg5 : FVec F S64 .f32) (main_arg6 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x64 .f32 := Host.absf main_arg3
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256x64 : Shape := ⟨2, ![256, 64]⟩
abbrev S64 : Shape := ⟨1, ![64]⟩
abbrev S1x64 : Shape := ⟨2, ![1, 64]⟩
abbrev S50000x64 : Shape := ⟨2, ![50000, 64]⟩
abbrev S5000x256 : Shape := ⟨2, ![5000, 256]⟩
abbrev S5000x64 : Shape := ⟨2, ![5000, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S20000x64 : Shape := ⟨2, ![20000, 64]⟩

abbrev nBuf : Space → Nat
  | .hbm => 60
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1x64, .f32⟩
  | .hbm, ⟨8, _⟩ => ⟨S50000x64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S800000x64, .f32⟩
  | .hbm, ⟨32, _⟩ => ⟨S_, .f32⟩
  | .hbm, ⟨33, _⟩ => ⟨S800000x64, .f32⟩
  | .hbm, ⟨34, _⟩ => ⟨S800000x64, .f32⟩
  | .hbm, ⟨35, _⟩ => ⟨S1x64, .f32⟩
  | .hbm, ⟨36, _⟩ => ⟨S1x64, .f32⟩
  | .hbm, ⟨37, _⟩ => ⟨S_, .f32⟩
  | .hbm, ⟨38, _⟩ => ⟨S1x64, .f32⟩
  | .hbm, ⟨39, _⟩ => ⟨S1x64, .f32⟩
  | .hbm, ⟨40, _⟩ => ⟨S_, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S_, .f32⟩
  | .hbm, ⟨46, _⟩ => ⟨S1x64, .f32⟩
  | .hbm, ⟨47, _⟩ => ⟨S1x64, .f32⟩
  | .hbm, ⟨48, _⟩ => ⟨S1x64, .f32⟩
  | .hbm, ⟨49, _⟩ => ⟨S1x64, .f32⟩
  | .hbm, ⟨50, _⟩ => ⟨S1x64, .f32⟩
  | .hbm, ⟨51, _⟩ => ⟨S64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S64, .f32⟩
  | .hbm, ⟨57, _⟩ => ⟨S1x64, .f32⟩
  | .hbm, ⟨58, _⟩ => ⟨S1x64, .f32⟩
  | .hbm, ⟨59, _⟩ => ⟨S800000x64, .f32⟩
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S20000x64, .f32⟩
  | .local _ .vmem, ⟨7, _⟩ => ⟨S20000x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S20000x64, .f32⟩
  | .local _ .vmem, ⟨13, _⟩ => ⟨S20000x64, .f32⟩
  | .local _ .vmem, ⟨14, _⟩ => ⟨S1x64, .f32⟩
  | .local _ .vmem, ⟨15, _⟩ => ⟨S1x64, .f32⟩
  | .local _ .vmem, ⟨16, _⟩ => ⟨S20000x64, .f32⟩
  | .local _ .vmem, ⟨17, _⟩ => ⟨S20000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![40], ![false]⟩

def k1_cond2 (i : grid1.Coords) : BitVec 1 :=
  let arg0 : BitVec 32 := BitVec.ofNat 32 (i 0).val
  let c39_i32 : BitVec 32 := 39#32
  let v20 : BitVec 1 := Scalar.cmpi .eq arg0 c39_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  reduces_S20000x64_S64 : S20000x64.Reduces [0] S64
  bcast_S_S1x64 : S_.BroadcastsInDim S1x64 (![] : Fin 0 → Fin S1x64.rank)
  shapeCasts_S1x64_S64 : S1x64.ShapeCasts S64
  broadcasts_S1x64_S20000x64 : S1x64.Broadcasts S20000x64
  dot_S5000x256_S256x64_S5000x64_1_0_0_1_n_n_wf : DotDims.WF S5000x256 S256x64 S5000x64 [1] [0] [0] [1] [] []
  gather_S50000x64_S800000x1_S800000x64_1_0_n_n_0_1_164_wf : GatherDims.WF S50000x64 S800000x1 S800000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S800000x64.size a
  hwx1_0 : ∀ i : grid1.Coords, EltTy.bits .f32 = 32 ∨ (Rect.block (s := S800000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S800000x64.size a
  hwx2_0 : ∀ i : grid2.Coords, EltTy.bits .f32 = 32 ∨ (Rect.block (s := S800000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x64.size a ≤ S800000x64.size a
  hwx2_3 : ∀ i : grid2.Coords, EltTy.bits .f32 = 32 ∨ (Rect.block (s := S800000x64) S20000x64.size (cc2_transform_3 i) (hinb2_3 i)).WholeWords (EltTy.packing .f32)

variable [Facts₀]

def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v22) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S20000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256x64 : Shape := ⟨2, ![256, 64]⟩
abbrev S64 : Shape := ⟨1, ![64]⟩
abbrev S50000x64 : Shape := ⟨2, ![50000, 64]⟩
abbrev S1x64 : Shape := ⟨2, ![1, 64]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x64 : Shape := ⟨2, ![800000, 64]⟩

abbrev nBuf : Space → Nat
  | .hbm => 70
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S50000, .i32⟩
  | .hbm, ⟨3, _⟩ => ⟨S256x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S50000x64, .f32⟩
  | .hbm, ⟨8, _⟩ => ⟨S1x64, .f32⟩
  | .hbm, ⟨9, _⟩ => ⟨S50000x64, .f32⟩
  | .hbm, ⟨10, _⟩ => ⟨S50000x64, .f32⟩
  | .hbm, ⟨11, _⟩ => ⟨S_, .f32⟩
  | .hbm, ⟨12, _⟩ => ⟨S50000x64, .f32⟩
  | .hbm, ⟨13, _⟩ => ⟨S50000x64, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x64, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S800000x64, .f32⟩
  | .hbm, ⟨37, _⟩ => ⟨S_, .f32⟩
  | .hbm, ⟨38, _⟩ => ⟨S800000x64, .f32⟩
  | .hbm, ⟨39, _⟩ => ⟨S800000x64, .f32⟩
  | .hbm, ⟨40, _⟩ => ⟨S_, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S1x64, .f32⟩
  | .hbm, ⟨46, _⟩ => ⟨S800000x64, .f32⟩
  | .hbm, ⟨47, _⟩ => ⟨S800000x64, .f32⟩
  | .hbm, ⟨48, _⟩ => ⟨S800000x64, .f32⟩
  | .hbm, ⟨49, _⟩ => ⟨S_, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S1x64, .f32⟩
  | .hbm, ⟨55, _⟩ => ⟨S800000x64, .f32⟩
  | .hbm, ⟨56, _⟩ => ⟨S800000x64, .f32⟩
  | .hbm, ⟨57, _⟩ => ⟨S_, .f32⟩
  | .hbm, ⟨58, _⟩ => ⟨S64, .f32⟩
  | .hbm, ⟨59, _⟩ => ⟨S64, .f32⟩
  | .hbm, ⟨60, _⟩ => ⟨S64, .f32⟩
  | .hbm, ⟨61, _⟩ => ⟨S1x64, .f32⟩
  | .hbm, ⟨62, _⟩ => ⟨S800000x64, .f32⟩
  | .hbm, ⟨63, _⟩ => ⟨S800000x64, .f32⟩
  | .hbm, ⟨64, _⟩ => ⟨S1x64, .f32⟩
  | .hbm, ⟨65, _⟩ => ⟨S800000x64, .f32⟩
  | .hbm, ⟨66, _⟩ => ⟨S800000x64, .f32⟩
  | .hbm, ⟨67, _⟩ => ⟨S1x64, .f32⟩
  | .hbm, ⟨68, _⟩ => ⟨S800000x64, .f32⟩
  | .hbm, ⟨69, _⟩ => ⟨S800000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  reducesTo_S800000x64_S64_d0 : S800000x64.ReducesTo [0] S64
  h_S_ : 0 < S_.numel
  bcast_S_S64 : S_.BroadcastsInDim S64 (![] : Fin 0 → Fin S64.rank)
  bcast_S1x64_S800000x64_0_1 : S1x64.BroadcastsInDim S800000x64 (![0, 1] : Fin 2 → Fin S800000x64.rank)
  dot_S50000x256_S256x64_S50000x64_1_0_0_1_n_n_wf : DotDims.WF S50000x256 S256x64 S50000x64 [1] [0] [0] [1] [] []
  gather_S50000x64_S800000x1_S800000x64_1_0_n_n_0_1_164_wf : GatherDims.WF S50000x64 S800000x1 S800000x64 [1] [0] [] [0] [] 1 ![1, 64]

variable [Facts₀]

def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf

class Facts : Prop extends Facts₀ where

variable [Facts]
-- ==== Proof.Kernel.R0.lean ====
/-
  The first kernel region: rows of x in blocks of 5000, the whole weight matrix and the bias row; each grid point
  writes one block of 5000 rows of  max (x · W + b) 0.  Stated at the buffer contents `V` the region is entered from.
  What each staging buffer holds before the body, what the body leaves in the output's buffer (the one store's value over
  the three loaded blocks), the body's triple, the proof data and the body obligation at every grid point.
-/
import proofs.«136777_j53730040873189_1_alg».proof.Proof.Gen.Kernel.Launch
import proofs.«136777_j53730040873189_1_alg».proof.Proof.Gen.Kernel.Skeleton
import proofs.«136777_j53730040873189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block of its array at grid point `t`, the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched window's
    block index has not moved), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rx0 : Rect S5000x256 := Rect.unit (s := S5000x256) ![0, 0] S5000x256.size inb_S5000x256_S5000x256_0_0
abbrev rw0 : Rect S256x64 := Rect.unit (s := S256x64) ![0, 0] S256x64.size inb_S256x64_S256x64_0_0
abbrev rb0 : Rect S1x64 := Rect.unit (s := S1x64) ![0, 0] S1x64.size inb_S1x64_S1x64_0_0
abbrev ro0 : Rect S5000x64 := Rect.unit (s := S5000x64) ![0, 0] S5000x64.size inb_S5000x64_S5000x64_0_0

/-- The output's staging buffer after the body: its one store, the matrix product plus the bias row clamped at zero,
    over the three loaded blocks. -/
def out0_3 (x0 : Vec F S5000x256 .f32) (x1 : Vec F S256x64 .f32) (x2 : Vec F S1x64 .f32) : Vec F S5000x64 .f32 :=
  View.canon [⟨ro0, k0_pay1 (View.ld x0 rx0) (View.ld x1 rw0) (View.ld x2 rb0)⟩]

/-- The one store covers the buffer. -/
theorem cover0_3 (p0 : Vec F S5000x64 .f32) (y : S5000x64.Idx) :
    ∃ pc ∈ ([⟨ro0, p0⟩] : List (View.Piece (Elt F) S5000x64 .f32)), y ∈ pc.1.set :=
  View.cover_of_tiled [⟨ro0, p0⟩] S5000x64.size (by rfl) y

set_option maxHeartbeats 1000000 in
/-- The body on whole staging memrefs, the inputs' at contents `x0 x1 x2` and the output's at anything, runs to the
    continuation with the inputs as they were and the output's buffer at `out0_3` of them. -/
theorem sound_kernel0 (c : Dev nD) (E : Set ℕ) (i : grid0.Coords)
    (arg1 : Memref sig .tc .vmem S5000x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x256 .f32) (x1 : Vec F S256x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core `c`: the arrays as the region finds them; after the body each input's
    buffer at its block and the output's at `out0_3` of the three input blocks; the invariant the scoped buffers no
    window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Frame

end
-- ==== Proof.Kernel.R1.lean ====
/-
  The second kernel region: the running sums.  Forty grid points, each over one block of 20000 rows of e; two scratch rows
  [1,64] carry the column sums of e and of e*e between points: set to zero at the first point, added to at every point,
  and copied into the two result rows at the last point, the only one whose blocks are written back.
  `sumAt n` and `sqAt n` are what the two scratch rows hold after the points below `n`.
-/
import proofs.«136777_j53730040873189_1_alg».proof.Proof.Gen.Kernel.Launch
import proofs.«136777_j53730040873189_1_alg».proof.Proof.Gen.Kernel.Skeleton
import proofs.«136777_j53730040873189_1_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block of its array at grid point `t`, the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions, decided over the grid -/

/-- The first branch (reset the scratch rows) is taken exactly at the first point. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 40 = 0 :=
  (by decide +kernel : ∀ t : Fin grid1.N, cond1_0 (grid1.coords t) ↔ t.val % 40 = 0)
/-- The second branch (copy the scratch rows out) is taken exactly at the last point. -/
abbrev cond1_1 (i : grid1.Coords) : Prop := k1_cond2 i = 1#1
theorem hcond1_1 : ∀ t : Fin cfg1.N, cond1_1 (grid1.coords t) ↔ t.val % 40 = 39 :=
  (by decide +kernel : ∀ t : Fin grid1.N, cond1_1 (grid1.coords t) ↔ t.val % 40 = 39)

theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem idleAt1_2 : ∀ t : Fin cfg1.N, ¬cond1_1 (grid1.coords t) → cfg1.idle 2 (grid1.coords t) = true := by decide +kernel
theorem noFlush1_1 : ∀ t : Fin cfg1.N, ¬cond1_1 (grid1.coords t) → (cfg1.win 1).flush t = false := by decide +kernel
theorem noFlush1_2 : ∀ t : Fin cfg1.N, ¬cond1_1 (grid1.coords t) → (cfg1.win 2).flush t = false := by decide +kernel
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-! ## The body's accesses and the scratch rows -/

abbrev re1 : Rect S20000x64 := Rect.unit (s := S20000x64) ![0, 0] S20000x64.size inb_S20000x64_S20000x64_0_0
abbrev rr1 : Rect S1x64 := Rect.unit (s := S1x64) ![0, 0] S1x64.size inb_S1x64_S1x64_0_0
theorem hz_e : (![0, 0] : Fin S20000x64.rank → Nat) = fun _ => 0 := by funext a; fin_cases a <;> rfl
theorem hz_r : (![0, 0] : Fin S1x64.rank → Nat) = fun _ => 0 := by funext a; fin_cases a <;> rfl

/-- The two scratch operands: whole scoped buffers of the kernel's own. -/
abbrev scM0 : Memref sig .tc .vmem S1x64 .f32 := Memref.whole cc1_scratch0
abbrev scM1 : Memref sig .tc .vmem S1x64 .f32 := Memref.whole cc1_scratch1

/-- A list of stores into a row whose last store is through the whole-row rectangle covers the row. -/
theorem cover_r (L : List (View.Piece (Elt F) S1x64 .f32)) (p0 : Vec F S1x64 .f32) (y : S1x64.Idx) :
    ∃ pc ∈ ((⟨rr1, p0⟩ : View.Piece (Elt F) S1x64 .f32) :: L), y ∈ pc.1.set :=
  ⟨_, List.mem_cons_self, View.mem_set_unit_zero (S := S1x64) hz_r inb_S1x64_S1x64_0_0 y⟩

set_option maxHeartbeats 2000000 in
/-- THE FIRST POINT: both scratch rows are set to zero and then added to; the result rows are handed back untouched. -/
theorem sound_kernel1_A (c : Dev nD) (E : Set ℕ) (i : grid1.Coords)
    (arg1 : Memref sig .tc .vmem S20000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : cond1_0 i) (hc1 : ¬cond1_1 i)
    (x0 : Vec F S20000x64 .f32) (y1 y2 : Vec F S1x64 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k1_pay4 x0 k1_pay1) ∗ owns (c : Thread nD τ) arg5 fullShare (k1_pay5 x0 k1_pay2)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%d4, %f4, -, H4⟩, ⟨%d5, %f5, -, H5⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_words
    rw [View.read_writes_eq_canon _ _ _ (cover_r _ _), View.canon_cons_unit_zero (S := S1x64) hz_r]
    simp only [View.readAt_eq_ld, View.ld_unit_zero (S := S20000x64) hz_e, View.ld_unit_zero (S := S1x64) hz_r, View.readCov_unit_zero (S := S1x64) _ hz_r]
  iexists _; isplitr
  swap; · iexact H5
  ipureintro
  sl_unfold_words
  rw [View.read_writes_eq_canon _ _ _ (cover_r _ _), View.canon_cons_unit_zero (S := S1x64) hz_r]
  simp only [View.readAt_eq_ld, View.ld_unit_zero (S := S20000x64) hz_e, View.ld_unit_zero (S := S1x64) hz_r, View.readCov_unit_zero (S := S1x64) _ hz_r]

set_option maxHeartbeats 2000000 in
/-- A MIDDLE POINT: both scratch rows are added to; the result rows are handed back untouched. -/
theorem sound_kernel1_B (c : Dev nD) (E : Set ℕ) (i : grid1.Coords)
    (arg1 : Memref sig .tc .vmem S20000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : ¬cond1_0 i) (hc1 : ¬cond1_1 i)
    (x0 : Vec F S20000x64 .f32) (y1 y2 s0 s1 : Vec F S1x64 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (k1_pay4 x0 s0) ∗ owns (c : Thread nD τ) arg5 fullShare (k1_pay5 x0 s1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%f4, %hf4, H4⟩, ⟨%f5, %hf5, H5⟩, Hk⟩
  subst hf0; subst hf1; subst hf2; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    try sl_unfold_words
    rw [View.read_writes_eq_canon _ _ _ (cover_r _ _), View.canon_cons_unit_zero (S := S1x64) hz_r]
    simp only [View.readAt_eq_ld, View.ld_unit_zero (S := S20000x64) hz_e, View.ld_unit_zero (S := S1x64) hz_r]
  iexists _; isplitr
  swap; · iexact H5
  ipureintro
  try sl_unfold_words
  rw [View.read_writes_eq_canon _ _ _ (cover_r _ _), View.canon_cons_unit_zero (S := S1x64) hz_r]
  simp only [View.readAt_eq_ld, View.ld_unit_zero (S := S20000x64) hz_e, View.ld_unit_zero (S := S1x64) hz_r]

set_option maxHeartbeats 2000000 in
/-- THE LAST POINT: both scratch rows are added to and then copied into the two result rows. -/
theorem sound_kernel1_C (c : Dev nD) (E : Set ℕ) (i : grid1.Coords)
    (arg1 : Memref sig .tc .vmem S20000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : ¬cond1_0 i) (hc1 : cond1_1 i)
    (x0 : Vec F S20000x64 .f32) (s0 s1 : Vec F S1x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k1_pay4 x0 s0) ∗ owns (c : Thread nD τ) arg3 fullShare (k1_pay5 x0 s1)
            ∗ owns (c : Thread nD τ) arg4 fullShare (k1_pay4 x0 s0) ∗ owns (c : Thread nD τ) arg5 fullShare (k1_pay5 x0 s1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%d1, %f1, -, H1⟩, ⟨%d2, %f2, -, H2⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H1]
  · iexists _; isplitr
    swap; · iexact H1
    ipureintro
    try sl_unfold_words
    rw [View.read_writes_eq_canon _ _ _ (cover_r _ _), View.canon_cons_unit_zero (S := S1x64) hz_r]
    simp only [View.readAt_eq_ld, View.ld_unit_zero (S := S20000x64) hz_e, View.ld_unit_zero (S := S1x64) hz_r, View.readCov_unit_zero (S := S1x64) _ hz_r]
  isplitl [H2]
  · iexists _; isplitr
    swap; · iexact H2
    ipureintro
    try sl_unfold_words
    rw [View.read_writes_eq_canon _ _ _ (cover_r _ _), View.canon_cons_unit_zero (S := S1x64) hz_r]
    simp only [View.readAt_eq_ld, View.ld_unit_zero (S := S20000x64) hz_e, View.ld_unit_zero (S := S1x64) hz_r, View.readCov_unit_zero (S := S1x64) _ hz_r]
  isplitl [H4]
  · iexists _; isplitr
    swap; · iexact H4
    ipureintro
    try sl_unfold_words
    rw [View.read_writes_eq_canon _ _ _ (cover_r _ _), View.canon_cons_unit_zero (S := S1x64) hz_r]
    simp only [View.readAt_eq_ld, View.ld_unit_zero (S := S20000x64) hz_e, View.ld_unit_zero (S := S1x64) hz_r]
  iexists _; isplitr
  swap; · iexact H5
  ipureintro
  try sl_unfold_words
  rw [View.read_writes_eq_canon _ _ _ (cover_r _ _), View.canon_cons_unit_zero (S := S1x64) hz_r]
  simp only [View.readAt_eq_ld, View.ld_unit_zero (S := S20000x64) hz_e, View.ld_unit_zero (S := S1x64) hz_r]

/-! ## The running sums -/

/-- What scratch row 0 holds after the points below `n`: zero, then each block's column sums added in point order. -/
def sumAt (c : Dev nD) : ℕ → Vec F S1x64 .f32
  | 0 => k1_pay1
  | n + 1 => if h : n < cfg1.N then k1_pay4 (iblk1 V c 0 ⟨n, h⟩) (sumAt c n) else sumAt c n
/-- What scratch row 1 holds after the points below `n`: zero, then each block's column sums of squares added in point order. -/
def sqAt (c : Dev nD) : ℕ → Vec F S1x64 .f32
  | 0 => k1_pay2
  | n + 1 => if h : n < cfg1.N then k1_pay5 (iblk1 V c 0 ⟨n, h⟩) (sqAt c n) else sqAt c n

theorem sumAt_zero (c : Dev nD) : sumAt V c 0 = k1_pay1 := rfl
theorem sqAt_zero (c : Dev nD) : sqAt V c 0 = k1_pay2 := rfl
theorem sumAt_succ (c : Dev nD) (t : Fin cfg1.N) : sumAt V c (t.val + 1) = k1_pay4 (iblk1 V c 0 t) (sumAt V c t.val) := by
  show (if h : t.val < cfg1.N then k1_pay4 (iblk1 V c 0 ⟨t.val, h⟩) (sumAt V c t.val) else sumAt V c t.val) = _
  rw [dif_pos t.isLt]
theorem sqAt_succ (c : Dev nD) (t : Fin cfg1.N) : sqAt V c (t.val + 1) = k1_pay5 (iblk1 V c 0 t) (sqAt V c t.val) := by
  show (if h : t.val < cfg1.N then k1_pay5 (iblk1 V c 0 ⟨t.val, h⟩) (sqAt V c t.val) else sqAt V c t.val) = _
  rw [dif_pos t.isLt]

/-! ## The invariant between points -/

/-- A scoped buffer at some contents. -/
abbrev anyBuf (c : Dev nD) (b : Ref sig .tc) : sProp 𝕄 :=
  iprop(∃ f : Buf (Elt F) ((c : Thread nD τ).loc b), ((c : Thread nD τ).loc b) ↦{fullShare} f)

/-- The scoped buffers that are neither this region's staging buffers nor its two scratch rows: the other two regions'
    staging buffers, each at some contents. -/
def others1 (c : Dev nD) : sProp 𝕄 :=
  iprop(anyBuf c cc0_stg0_0 ∗ anyBuf c cc0_stg0_1 ∗ anyBuf c cc0_stg1_0 ∗ anyBuf c cc0_stg2_0 ∗ anyBuf c cc0_stg3_0 ∗ anyBuf c cc0_stg3_1
    ∗ anyBuf c cc2_stg0_0 ∗ anyBuf c cc2_stg0_1 ∗ anyBuf c cc2_stg1_0 ∗ anyBuf c cc2_stg2_0 ∗ anyBuf c cc2_stg3_0 ∗ anyBuf c cc2_stg3_1)

/-- The region invariant of the class (every scoped buffer no window stages at some contents, the generator register at
    some state) with the two scratch rows taken out as memrefs owned at some contents, -/
theorem PhiA1_elim (c : Dev nD) : (Pipeline.ΦA spec1 c : sProp 𝕄)
    ⊢ iprop(others1 c ∗ (∃ d, owns (c : Thread nD τ) scM0 fullShare d) ∗ (∃ d, owns (c : Thread nD τ) scM1 fullShare d) ∗ ∃ r, prngReg c r) := by
  unfold Pipeline.ΦA others1; rw [scopedRest1_eq]
  simp only [scM0, scM1, owns_whole]
  iintro ⟨⟨A1, A2, A3, A4, A5, A6, ⟨%f0, S0⟩, ⟨%f1, S1⟩, B1, B2, B3, B4, B5, B6⟩, Hp⟩
  isplitl [A1 A2 A3 A4 A5 A6 B1 B2 B3 B4 B5 B6]
  · isplitl [A1]; · iexact A1
    isplitl [A2]; · iexact A2
    isplitl [A3]; · iexact A3
    isplitl [A4]; · iexact A4
    isplitl [A5]; · iexact A5
    isplitl [A6]; · iexact A6
    isplitl [B1]; · iexact B1
    isplitl [B2]; · iexact B2
    isplitl [B3]; · iexact B3
    isplitl [B4]; · iexact B4
    isplitl [B5]; · iexact B5
    iexact B6
  isplitl [S0]
  · iexists f0; iexact S0
  isplitl [S1]
  · iexists f1; iexact S1
  iexact Hp
/-- and put back. -/
theorem PhiA1_intro (c : Dev nD) :
    iprop(others1 c ∗ (∃ d, owns (c : Thread nD τ) scM0 fullShare d) ∗ (∃ d, owns (c : Thread nD τ) scM1 fullShare d) ∗ ∃ r, prngReg c r)
      ⊢ (Pipeline.ΦA spec1 c : sProp 𝕄) := by
  unfold Pipeline.ΦA others1; rw [scopedRest1_eq]
  simp only [scM0, scM1, owns_whole]
  iintro ⟨⟨A1, A2, A3, A4, A5, A6, B1, B2, B3, B4, B5, B6⟩, ⟨%f0, S0⟩, ⟨%f1, S1⟩, Hp⟩
  isplitr [Hp]
  swap; · iexact Hp
  isplitl [A1]; · iexact A1
  isplitl [A2]; · iexact A2
  isplitl [A3]; · iexact A3
  isplitl [A4]; · iexact A4
  isplitl [A5]; · iexact A5
  isplitl [A6]; · iexact A6
  isplitl [S0]; · iexists f0; iexact S0
  isplitl [S1]; · iexists f1; iexact S1
  isplitl [B1]; · iexact B1
  isplitl [B2]; · iexact B2
  isplitl [B3]; · iexact B3
  isplitl [B4]; · iexact B4
  isplitl [B5]; · iexact B5
  iexact B6

/-- The invariant before point `n`: before the first point the class's (the scratch rows at anything); afterwards the two
    scratch rows at the running sums of the points below `n`, the other scoped buffers at anything and the generator
    register at some state. -/
def Phi1 (c : Dev nD) : ℕ → sProp 𝕄
  | 0 => Pipeline.ΦA spec1 c
  | n + 1 => iprop(others1 c ∗ owns (c : Thread nD τ) scM0 fullShare (sumAt V c (n + 1))
      ∗ owns (c : Thread nD τ) scM1 fullShare (sqAt V c (n + 1)) ∗ ∃ r, prngReg c r)

theorem Phi1_zero (c : Dev nD) : Phi1 V c 0 = Pipeline.ΦA spec1 c := rfl
theorem Phi1_pos (c : Dev nD) (n : ℕ) (hz : n ≠ 0) :
    Phi1 V c n = iprop(others1 c ∗ owns (c : Thread nD τ) scM0 fullShare (sumAt V c n)
      ∗ owns (c : Thread nD τ) scM1 fullShare (sqAt V c n) ∗ ∃ r, prngReg c r) := by
  cases n with
  | zero => exact absurd rfl hz
  | succ n => rfl

/-! ## The proof data and the body obligation -/

/-- The proof data of this pipeline on core `c`: the arrays as the region finds them; after the body the input's buffer at
    its block and, at the one point that writes them back, the two result rows at the sums over all forty blocks; the invariant
    `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => sumAt V c 40
    | ⟨2, _⟩ => sqAt V c 40
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = sumAt V c 40 := by dsimp only [dat1]
theorem after1_2 (c : Dev nD) (t : Fin cfg1.N) : (dat1 V c).after 2 t = sqAt V c 40 := by dsimp only [dat1]
theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: a result row's buffer as the body found it at the points that neither store it nor write it back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the point's case: the first, a middle one, the last. The invariant hands the body the two
    scratch rows at the sums so far (at anything before the first point) and takes them back one block further. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl,
    show (dat1 V c).Φ t.succ = Phi1 V c (t.val + 1) from rfl,
    show (dat1 V c).Φ t.castSucc = Phi1 V c t.val from rfl,
    show (dat1 V c).leavesExact 0 t = owns (c : Thread nD τ) (st1_0 t) fullShare ((dat1 V c).after 0 t) from by
      unfold Dat.leavesExact; rw [liveAt1_0 t],
    after1_0, Phi1_pos V c (t.val + 1) (Nat.succ_ne_zero _), sumAt_succ, sqAt_succ]
  have hN : t.val < 40 := lt_of_lt_of_eq t.isLt N_1
  by_cases h1 : t.val % 40 = 39
  · -- the last point
    have hc0 : ¬cond1_0 (grid1.coords t) := fun h => by have := (hcond1_0 t).mp h; omega
    have hc1 : cond1_1 (grid1.coords t) := (hcond1_1 t).mpr h1
    have hz : t.val ≠ 0 := by omega
    have h40 : 40 = t.val + 1 := by omega
    rw [show (dat1 V c).leavesExact 1 t = owns (c : Thread nD τ) (st1_1 t) fullShare ((dat1 V c).after 1 t) from by
        unfold Dat.leavesExact; rw [liveAt1_1 t hc1],
      show (dat1 V c).leavesExact 2 t = owns (c : Thread nD τ) (st1_2 t) fullShare ((dat1 V c).after 2 t) from by
        unfold Dat.leavesExact; rw [liveAt1_2 t hc1],
      after1_1, after1_2, h40, sumAt_succ, sqAt_succ, Phi1_pos V c t.val hz]
    iintro ⟨⟨HO, HS0, HS1, Hg⟩, Ho, ⟨%d0, H0⟩, ⟨%d1, H1⟩, ⟨%d2, H2⟩⟩
    iapply (sound_kernel1_C c Set.univ (grid1.coords t) _ _ _ _ _ _ _ _ _ _ hc0 hc1 (iblk1 V c 0 t) (sumAt V c t.val) (sqAt V c t.val) _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HO HS0 HS1 Hg]
    · isplitl [HO]; · iexact HO
      isplitl [HS0]; · iexact HS0
      isplitl [HS1]; · iexact HS1
      iexact Hg
    isplitl [Ho]; · iexact Ho
    isplitl [H0]; · iexact H0
    isplitl [H1]; · iexact H1
    iexact H2
  · have hc1 : ¬cond1_1 (grid1.coords t) := fun h => h1 ((hcond1_1 t).mp h)
    rw [Dat.leavesExact_idle (dat1 V c) 1 t (idleAt1_1 t hc1) (noFlush1_1 t hc1),
      Dat.leavesExact_idle (dat1 V c) 2 t (idleAt1_2 t hc1) (noFlush1_2 t hc1)]
    by_cases h0 : t.val % 40 = 0
    · -- the first point
      have hc0 : cond1_0 (grid1.coords t) := (hcond1_0 t).mpr h0
      have hz : t.val = 0 := by omega
      rw [hz, Phi1_zero, sumAt_zero, sqAt_zero]
      iintro ⟨HΦ, Ho, ⟨%d0, H0⟩, ⟨%d1, H1⟩, ⟨%d2, H2⟩⟩
      ihave HΦ' := (PhiA1_elim (F := F) c) $$ HΦ
      icases HΦ' with ⟨HO, HS0, HS1, Hg⟩
      iapply (sound_kernel1_A c Set.univ (grid1.coords t) _ _ _ _ _ _ _ _ _ _ hc0 hc1 (iblk1 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HO HS0 HS1 Hg]
      · isplitl [HO]; · iexact HO
        isplitl [HS0]; · iexact HS0
        isplitl [HS1]; · iexact HS1
        iexact Hg
      isplitl [Ho]; · iexact Ho
      isplitl [H0]; · iexact H0
      isplitl [H1]; · iexists _; iexact H1
      iexists _; iexact H2
    · -- a middle point
      have hc0 : ¬cond1_0 (grid1.coords t) := fun h => h0 ((hcond1_0 t).mp h)
      have hz : t.val ≠ 0 := by omega
      rw [Phi1_pos V c t.val hz]
      iintro ⟨⟨HO, HS0, HS1, Hg⟩, Ho, ⟨%d0, H0⟩, ⟨%d1, H1⟩, ⟨%d2, H2⟩⟩
      iapply (sound_kernel1_B c Set.univ (grid1.coords t) _ _ _ _ _ _ _ _ _ _ hc0 hc1 (iblk1 V c 0 t) _ _ (sumAt V c t.val) (sqAt V c t.val) _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HO HS0 HS1 Hg]
      · isplitl [HO]; · iexact HO
        isplitl [HS0]; · iexact HS0
        isplitl [HS1]; · iexact HS1
        iexact Hg
      isplitl [Ho]; · iexact Ho
      isplitl [H0]; · iexact H0
      isplitl [H1]; · iexists _; iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's, -/
theorem hin1 (c : Dev nD) : (Pipeline.ΦA spec1 c : sProp 𝕄) ⊢ (dat1 V c).Φ 0 := by
  rw [show (dat1 V c).Φ 0 = Phi1 V c 0 from rfl, Phi1_zero]
/-- and after the last point it gives the class's back, the scratch rows' contents forgotten. -/
theorem hout1 (c : Dev nD) : (dat1 V c).Φ (Fin.last cfg1.N) ⊢ (Pipeline.ΦA spec1 c : sProp 𝕄) := by
  rw [show (dat1 V c).Φ (Fin.last cfg1.N) = Phi1 V c cfg1.N from rfl, Phi1_pos V c cfg1.N (by rw [show cfg1.N = 40 from N_1]; decide)]
  iintro ⟨HO, HS0, HS1, Hg⟩
  iapply (PhiA1_intro (F := F) c)
  isplitl [HO]; · iexact HO
  isplitl [HS0]; · iexists _; iexact HS0
  isplitl [HS1]; · iexists _; iexact HS1
  iexact Hg

end Region1

end Cert.Kernel.Frame

end
-- ==== Proof.Kernel.R2.lean ====
/-
  The third kernel region: rows of e in blocks of 20000 with the scale row and the shift row; each grid point writes one
  block of 20000 rows of  e * scale + shift.  Stated at the buffer contents `V` the region is entered from: what each
  staging buffer holds before the body, what the body leaves in the output's buffer, the body's triple, the proof data and
  the body obligation at every grid point.
-/
import proofs.«136777_j53730040873189_1_alg».proof.Proof.Gen.Kernel.Launch
import proofs.«136777_j53730040873189_1_alg».proof.Proof.Gen.Kernel.Skeleton
import proofs.«136777_j53730040873189_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block of its array at grid point `t`, the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched window's
    block index has not moved), for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev re2 : Rect S20000x64 := Rect.unit (s := S20000x64) ![0, 0] S20000x64.size inb_S20000x64_S20000x64_0_0
abbrev rr2 : Rect S1x64 := Rect.unit (s := S1x64) ![0, 0] S1x64.size inb_S1x64_S1x64_0_0

/-- The output's staging buffer after the body: its one store, the block times the scale row plus the shift row. -/
def out2_3 (x0 : Vec F S20000x64 .f32) (x1 : Vec F S1x64 .f32) (x2 : Vec F S1x64 .f32) : Vec F S20000x64 .f32 :=
  View.canon [⟨re2, k2_pay1 (View.ld x0 re2) (View.ld x1 rr2) (View.ld x2 rr2)⟩]

/-- The one store covers the buffer. -/
theorem cover2_3 (p0 : Vec F S20000x64 .f32) (y : S20000x64.Idx) :
    ∃ pc ∈ ([⟨re2, p0⟩] : List (View.Piece (Elt F) S20000x64 .f32)), y ∈ pc.1.set :=
  View.cover_of_tiled [⟨re2, p0⟩] S20000x64.size (by rfl) y

set_option maxHeartbeats 1000000 in
/-- The body on whole staging memrefs, the inputs' at contents `x0 x1 x2` and the output's at anything, runs to the
    continuation with the inputs as they were and the output's buffer at `out2_3` of them. -/
theorem sound_kernel2 (c : Dev nD) (E : Set ℕ) (i : grid2.Coords)
    (arg1 : Memref sig .tc .vmem S20000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S20000x64 .f32) (harg4 : arg4.IsWhole)
    (x0 : Vec F S20000x64 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__normalize_kernel i arg1 harg1 arg2 harg2 arg3 harg3 arg4 harg4) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`: the arrays as the region finds them; after the body each input's
    buffer at its block and the output's at `out2_3` of the three input blocks; the invariant the scoped buffers no
    window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the kernel's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Frame

end
-- ==== Proof.Kernel.Vals.lean ====
/-
  The buffer contents at each boundary of @main, folded from the launch memory: after the first host stretch (the bias
  reshaped to a row), after the first region (its output at what the pipeline's write-backs leave), after the second
  stretch (the two row gathers, their sum halved), after the second region (the two rows of sums), after the third stretch
  (mean, variance, scale and shift) and after the third region.  Every region's proof data is taken at the contents the
  region is entered from.  No stretch and no region writes an argument.
-/
import proofs.«136777_j53730040873189_1_alg».proof.Proof.Gen.Kernel.Launch
import proofs.«136777_j53730040873189_1_alg».proof.Proof.Gen.Kernel.Skeleton
import proofs.«136777_j53730040873189_1_alg».proof.Proof.Gen.Kernel.Points
import proofs.«136777_j53730040873189_1_alg».proof.Proof.Gen.Kernel.Regions
import proofs.«136777_j53730040873189_1_alg».proof.Proof.Kernel.R0
import proofs.«136777_j53730040873189_1_alg».proof.Proof.Kernel.R1
import proofs.«136777_j53730040873189_1_alg».proof.Proof.Kernel.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev Bd0 : Dev nD → Valuation τ sig (Elt F) := fun c b => m (c, b)
/-- After the first host stretch (the first region's entry). -/
abbrev Bd1 : Dev nD → Valuation τ sig (Elt F) := fun c => StableHlo.after hostOps0 (Bd0 m c)
abbrev En1 : (c : Dev nD) → (b : Ref sig .tc) → Buf (Elt F) ((c : Thread nD τ).loc b) := fun c b => Bd1 m c b
/-- At the first region's exit: its arrays at what the pipeline leaves, every other buffer as entered. -/
def Bd2 (c : Dev nD) : Valuation τ sig (Elt F) :=
  Pipeline.withArrays spec0 c (Bd1 m c) fun w => (dat0 (En1 m) c).arrAt w cfg0.N
theorem Bd2_arr (c : Dev nD) (w : Fin cfg0.W) :
    Bd2 m c (Proc.devRef .tc (Pipeline.arrRef spec0 w)) = (dat0 (En1 m) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m c (Proc.devRef .tc b) = Bd1 m c (Proc.devRef .tc b) := by
  unfold Bd2; exact Pipeline.withArrays_of_ne spec0 c _ _ b hb
abbrev En2 : (c : Dev nD) → (b : Ref sig .tc) → Buf (Elt F) ((c : Thread nD τ).loc b) := fun c b => Bd2 m c b
theorem hF0 (c : Dev nD) (w : Fin cfg0.W) : (dat0 (En1 m) c).arrAt w cfg0.N = En2 m c (Pipeline.arrRef spec0 w) :=
  (Bd2_arr m c w).symm
theorem hrest0 (c : Dev nD) : ∀ b, b ∉ Finset.univ.image (Pipeline.arrRef spec0) → En2 m c b = En1 m c b :=
  fun b hb => Bd2_of_ne m c b fun w e => hb (Finset.mem_image.mpr ⟨w, Finset.mem_univ _, e⟩)

/-- After the second host stretch (the second region's entry). -/
abbrev Bd3 : Dev nD → Valuation τ sig (Elt F) := fun c => StableHlo.after hostOps1 (Bd2 m c)
abbrev En3 : (c : Dev nD) → (b : Ref sig .tc) → Buf (Elt F) ((c : Thread nD τ).loc b) := fun c b => Bd3 m c b
/-- At the second region's exit. -/
def Bd4 (c : Dev nD) : Valuation τ sig (Elt F) :=
  Pipeline.withArrays spec1 c (Bd3 m c) fun w => (dat1 (En3 m) c).arrAt w cfg1.N
theorem Bd4_arr (c : Dev nD) (w : Fin cfg1.W) :
    Bd4 m c (Proc.devRef .tc (Pipeline.arrRef spec1 w)) = (dat1 (En3 m) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m c (Proc.devRef .tc b) = Bd3 m c (Proc.devRef .tc b) := by
  unfold Bd4; exact Pipeline.withArrays_of_ne spec1 c _ _ b hb
abbrev En4 : (c : Dev nD) → (b : Ref sig .tc) → Buf (Elt F) ((c : Thread nD τ).loc b) := fun c b => Bd4 m c b
theorem hF1 (c : Dev nD) (w : Fin cfg1.W) : (dat1 (En3 m) c).arrAt w cfg1.N = En4 m c (Pipeline.arrRef spec1 w) :=
  (Bd4_arr m c w).symm
theorem hrest1 (c : Dev nD) : ∀ b, b ∉ Finset.univ.image (Pipeline.arrRef spec1) → En4 m c b = En3 m c b :=
  fun b hb => Bd4_of_ne m c b fun w e => hb (Finset.mem_image.mpr ⟨w, Finset.mem_univ _, e⟩)

/-- After the third host stretch (the third region's entry). -/
abbrev Bd5 : Dev nD → Valuation τ sig (Elt F) := fun c => StableHlo.after hostOps2 (Bd4 m c)
abbrev En5 : (c : Dev nD) → (b : Ref sig .tc) → Buf (Elt F) ((c : Thread nD τ).loc b) := fun c b => Bd5 m c b
/-- At the third region's exit: the end of @main. -/
def Bd6 (c : Dev nD) : Valuation τ sig (Elt F) :=
  Pipeline.withArrays spec2 c (Bd5 m c) fun w => (dat2 (En5 m) c).arrAt w cfg2.N
theorem Bd6_arr (c : Dev nD) (w : Fin cfg2.W) :
    Bd6 m c (Proc.devRef .tc (Pipeline.arrRef spec2 w)) = (dat2 (En5 m) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m c (Proc.devRef .tc b) = Bd5 m c (Proc.devRef .tc b) := by
  unfold Bd6; exact Pipeline.withArrays_of_ne spec2 c _ _ b hb
abbrev En6 : (c : Dev nD) → (b : Ref sig .tc) → Buf (Elt F) ((c : Thread nD τ).loc b) := fun c b => Bd6 m c b
theorem hF2 (c : Dev nD) (w : Fin cfg2.W) : (dat2 (En5 m) c).arrAt w cfg2.N = En6 m c (Pipeline.arrRef spec2 w) :=
  (Bd6_arr m c w).symm
theorem hrest2 (c : Dev nD) : ∀ b, b ∉ Finset.univ.image (Pipeline.arrRef spec2) → En6 m c b = En5 m c b :=
  fun b hb => Bd6_of_ne m c b fun w e => hb (Finset.mem_image.mpr ⟨w, Finset.mem_univ _, e⟩)

/-! ## What each host stretch leaves alone -/

/-- A buffer none of a stretch's operations writes is as it was (the stretches' written references are the generated lists). -/
theorem keep0 (W : Valuation τ sig (Elt F)) (b : Ref sig .tc) (hb : b ∉ hostOps0_W) :
    StableHlo.after (hostOps0 (F := F)) W (Proc.devRef .tc b) = W (Proc.devRef .tc b) :=
  StableHlo.after_of_writes_sub hostOps0 _ hostOps0_writes hb
theorem keep1 (W : Valuation τ sig (Elt F)) (b : Ref sig .tc) (hb : b ∉ hostOps1_W) :
    StableHlo.after (hostOps1 (F := F)) W (Proc.devRef .tc b) = W (Proc.devRef .tc b) :=
  StableHlo.after_of_writes_sub hostOps1 _ hostOps1_writes hb
theorem keep2 (W : Valuation τ sig (Elt F)) (b : Ref sig .tc) (hb : b ∉ hostOps2_W) :
    StableHlo.after (hostOps2 (F := F)) W (Proc.devRef .tc b) = W (Proc.devRef .tc b) :=
  StableHlo.after_of_writes_sub hostOps2 _ hostOps2_writes hb

/-- An input window's array is never written by its region. -/
theorem Bd2_in (c : Dev nD) (w : Fin cfg0.W) (hw : (cfg0.win w).isOut = false) :
    Bd2 m c (Proc.devRef .tc (Pipeline.arrRef spec0 w)) = Bd1 m c (Proc.devRef .tc (Pipeline.arrRef spec0 w)) :=
  (Bd2_arr m c w).trans (((dat0 (En1 m) c).arrAt_in w hw _).trans (A_eq0 (En1 m) c w))
theorem Bd4_in (c : Dev nD) (w : Fin cfg1.W) (hw : (cfg1.win w).isOut = false) :
    Bd4 m c (Proc.devRef .tc (Pipeline.arrRef spec1 w)) = Bd3 m c (Proc.devRef .tc (Pipeline.arrRef spec1 w)) :=
  (Bd4_arr m c w).trans (((dat1 (En3 m) c).arrAt_in w hw _).trans (A_eq1 (En3 m) c w))
theorem Bd6_in (c : Dev nD) (w : Fin cfg2.W) (hw : (cfg2.win w).isOut = false) :
    Bd6 m c (Proc.devRef .tc (Pipeline.arrRef spec2 w)) = Bd5 m c (Proc.devRef .tc (Pipeline.arrRef spec2 w)) :=
  (Bd6_arr m c w).trans (((dat2 (En5 m) c).arrAt_in w hw _).trans (A_eq2 (En5 m) c w))

/-- A buffer that no host stretch writes, that is no array of the second or third region, and that the first region leaves
    as it found it (`h2`: no array of its, or an input's) ends as launched. -/
theorem Bd6_launch (c : Dev nD) (b : Ref sig .tc) (h0 : b ∉ hostOps0_W) (h1 : b ∉ hostOps1_W) (h2 : b ∉ hostOps2_W)
    (hr0 : Bd2 m c (Proc.devRef .tc b) = Bd1 m c (Proc.devRef .tc b))
    (hr1 : ∀ w, Pipeline.arrRef spec1 w ≠ b) (hr2 : ∀ w, Pipeline.arrRef spec2 w ≠ b) :
    Bd6 m c (Proc.devRef .tc b) = m ((c : Thread nD τ).loc b) :=
  calc Bd6 m c (Proc.devRef .tc b)
    _ = Bd5 m c (Proc.devRef .tc b) := Bd6_of_ne m c b hr2
    _ = Bd4 m c (Proc.devRef .tc b) := keep2 _ b h2
    _ = Bd3 m c (Proc.devRef .tc b) := Bd4_of_ne m c b hr1
    _ = Bd2 m c (Proc.devRef .tc b) := keep1 _ b h1
    _ = Bd1 m c (Proc.devRef .tc b) := hr0
    _ = Bd0 m c (Proc.devRef .tc b) := keep0 _ b h0
    _ = m ((c : Thread nD τ).loc b) := rfl

end Cert.Kernel.Frame

end
-- ==== Proof.Kernel.Run.lean ====
/-
  The run of @main as six segments — host stretch, region, host stretch, region, host stretch, region — from the launch to
  the return.  Between two segments a core holds every unscoped buffer at the boundary's contents (`Bd0` … `Bd6`), its
  generator register at some state, and owes nothing.  The launch's post: every unscoped buffer of every core holds the
  last boundary's contents.  Read at the seven arguments this is the frame; read at the result it is the value.
-/
import proofs.«136777_j53730040873189_1_alg».proof.Proof.Gen.Kernel.Launch
import proofs.«136777_j53730040873189_1_alg».proof.Proof.Gen.Kernel.Skeleton
import proofs.«136777_j53730040873189_1_alg».proof.Proof.Gen.Kernel.Points
import proofs.«136777_j53730040873189_1_alg».proof.Proof.Kernel.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev admT : (p : Fin 3) → (pcfgs (F := F) p).Adm := fun p => (cfgs p).toPCfg_adm
/-- Every pipeline's proof data, each at the contents its region is entered from. -/
def pdats : (p : Fin 3) → (c : Dev nD) → Dat τ (Elt F) Unit ℕ (UR sig nD τ) ℕ (Pipeline.pin (pcfgs (F := F)) admT p) c
  | ⟨0, _⟩ => fun c => dat0 (En1 m) c
  | ⟨1, _⟩ => fun c => dat1 (En3 m) c
  | ⟨2, _⟩ => fun c => dat2 (En5 m) c
abbrev 𝒱r : Variants := Variants.none
/-- No core owes another anything: no level is assigned. -/
abbrev Lr : GSem nD τ sig → Finset Unit := fun _ => ∅
abbrev lvr : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)
/-- A host stretch as a segment over the unscoped references from the contents `W`. -/
abbrev hsegr (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tlast (c : Dev nD) : sProp 𝕄 := iprop(StableHlo.held (c : Thread nD τ) (Pipeline.ucRefs τ sig) (Bd6 m c) ∗ ∃ r, prngReg c r)

set_option backward.isDefEq.respectTransparency.types false in
/-- Region 0 over the thread state: entered from every unscoped buffer at `Bd1`, left at `Bd2`. Its arrays are split
    out of the unscoped buffers and put back at what the pipeline leaves; the generator register goes into the invariant and
    comes back; nothing is owed; the kernel has no semaphore of its own. -/
def reg0 : Pipeline.RegionSeg (pcfgs (F := F)) admT (pdats m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (En1 m) c).loose
  hwaits := Pipeline.hwaits_of_owed_zero _ _ _ _ Lr lvr 0 fun _ _ => rfl
  pre c := iprop(StableHlo.held (c : Thread nD τ) (Pipeline.ucRefs τ sig) (Bd1 m c) ∗ Rr c)
  post c := iprop(StableHlo.held (c : Thread nD τ) (Pipeline.ucRefs τ sig) (Bd2 m c) ∗ Rr c)
  X c := iprop(∃ r, prngReg c r)
  Y c := iprop(∃ r, prngReg c r)
  Z c := Pipeline.unscopedRest (Ix := Unit) (Name := ℕ) (U := UR sig nD τ) (Lvl := ℕ) spec0 c (En1 m c)
  hentry c := by
    rw [Pipeline.ownSems0_none]
    have hsplit := Pipeline.arrays_of_unscopedBufs (p := 0) (pcfgs (F := F)) admT (pdats m) launch0.win launch0.arr_whole c
      ((pdats m 0 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m) ((pdats m 0 c).share_full fun _ => rfl)
      (En1 m c) (En2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Bd3`, left at `Bd4`. Its arrays are split
    out of the unscoped buffers and put back at what the pipeline leaves; the generator register goes into the invariant and
    comes back; nothing is owed; the kernel has no semaphore of its own. -/
def reg1 : Pipeline.RegionSeg (pcfgs (F := F)) admT (pdats m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (En3 m) c).loose
  hwaits := Pipeline.hwaits_of_owed_zero _ _ _ _ Lr lvr 1 fun _ _ => rfl
  pre c := iprop(StableHlo.held (c : Thread nD τ) (Pipeline.ucRefs τ sig) (Bd3 m c) ∗ Rr c)
  post c := iprop(StableHlo.held (c : Thread nD τ) (Pipeline.ucRefs τ sig) (Bd4 m c) ∗ Rr c)
  X c := iprop(∃ r, prngReg c r)
  Y c := iprop(∃ r, prngReg c r)
  Z c := Pipeline.unscopedRest (Ix := Unit) (Name := ℕ) (U := UR sig nD τ) (Lvl := ℕ) spec1 c (En3 m c)
  hentry c := by
    rw [Pipeline.ownSems0_none]
    have hsplit := Pipeline.arrays_of_unscopedBufs (p := 1) (pcfgs (F := F)) admT (pdats m) launch1.win launch1.arr_whole c
      ((pdats m 1 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]; refine (show (pdats m 1 c).Φ (Fin.last _) ⊢ (Pipeline.ΦA spec1 c : sProp 𝕄) from hout1 (En3 m) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m) ((pdats m 1 c).share_full fun _ => rfl)
      (En3 m c) (En4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Bd5`, left at `Bd6`. Its arrays are split
    out of the unscoped buffers and put back at what the pipeline leaves; the generator register goes into the invariant and
    comes back; nothing is owed; the kernel has no semaphore of its own. -/
def reg2 : Pipeline.RegionSeg (pcfgs (F := F)) admT (pdats m) () defs₀ 𝒱r Lr lvr 2 where
  win := launch2.win.to₀
  block_pos := launch2.block_pos
  stage_whole := launch2.stage_whole
  K := PEmpty
  osem k := k.elim
  ho := Pipeline.OwnSemFacts.none _
  hbody c := (body_obligation2 (En5 m) c).loose
  hwaits := Pipeline.hwaits_of_owed_zero _ _ _ _ Lr lvr 2 fun _ _ => rfl
  pre c := iprop(StableHlo.held (c : Thread nD τ) (Pipeline.ucRefs τ sig) (Bd5 m c) ∗ Rr c)
  post c := iprop(StableHlo.held (c : Thread nD τ) (Pipeline.ucRefs τ sig) (Bd6 m c) ∗ Rr c)
  X c := iprop(∃ r, prngReg c r)
  Y c := iprop(∃ r, prngReg c r)
  Z c := Pipeline.unscopedRest (Ix := Unit) (Name := ℕ) (U := UR sig nD τ) (Lvl := ℕ) spec2 c (En5 m c)
  hentry c := by
    rw [Pipeline.ownSems0_none]
    have hsplit := Pipeline.arrays_of_unscopedBufs (p := 2) (pcfgs (F := F)) admT (pdats m) launch2.win launch2.arr_whole c
      ((pdats m 2 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admT (Ix := Unit) (Name := ℕ) (U := UR sig nD τ) (Lvl := ℕ)
      launch2.win launch2.arr_whole c (pdats m) ((pdats m 2 c).share_full fun _ => rfl)
      (En5 m c) (En6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's six segments in order. -/
abbrev segsr : List (Pipeline.Seg (pcfgs (F := F)) admT (pdats m) () defs₀ 𝒱r Lr lvr) :=
  [ .host (hsegr hostOps0 hostOps0_sub hostOps0_fresh (Bd0 m)),
    .region (reg0 m),
    .host (hsegr hostOps1 hostOps1_sub hostOps1_fresh (Bd2 m)),
    .region (reg1 m),
    .host (hsegr hostOps2 hostOps2_sub hostOps2_fresh (Bd4 m)),
    .region (reg2 m) ]
/-- @main is the run of the segments. -/
theorem main_run (c : Dev nD) : main (F := F) c = Pipeline.Seg.run (segsr m) := (main_chain c).trans (by chain_rfl)

set_option backward.isDefEq.respectTransparency.types false in
/-- THE RUN: from any memory with zero counters every weakly fair execution of @main terminates, nothing faulting, and in
    every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd6 m c b) :=
  Pipeline.θ_run_regions_kit (pcfgs (F := F)) admT (pdats m) () cellOf_inj emb₁ defs₀ 𝒱r Lr lvr m ρ main (segsr m)
    (fun c Q => by rw [main_run m c])
    (by simp only [segsr, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ Rr c)) (Tₙ := Tlast m)
    (hch := ⟨fun _ => .rfl, fun _ => .rfl, fun _ => .rfl, fun _ => .rfl, fun _ => .rfl, fun _ => .rfl, fun c => by
      show iprop(StableHlo.held (c : Thread nD τ) (Pipeline.ucRefs τ sig) (Bd6 m c) ∗ Rr c)
        ⊢ iprop(Tlast m c ∗ ∃ W, owes (c.tc : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach Lr lvr fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd6 m c b)
    (hfin := fun c s' => by
      iintro ⟨⟨Hh, -⟩, HSI⟩
      unfold StableHlo.held
      imodintro
      iapply (pointsTo_read_all (Pipeline.ucRefs τ sig) (fun b => (((c : Thread nD τ)).1, b)) (Bd6 m c) s')
      isplitl [Hh] <;> iassumption)
    (hQ := fun s h c => h c)

/-! ## The frame: no stretch and no region writes an argument -/

theorem Bd6_main_arg0 (c : Dev nD) : Bd6 m c (Proc.devRef .tc main_arg0) = m ((c : Thread nD τ).loc main_arg0) :=
  Bd6_launch m c main_arg0 (by decide) (by decide) (by decide) (Bd2_in m c 0 rfl) (by decide) (by decide)
theorem Bd6_main_arg1 (c : Dev nD) : Bd6 m c (Proc.devRef .tc main_arg1) = m ((c : Thread nD τ).loc main_arg1) :=
  Bd6_launch m c main_arg1 (by decide) (by decide) (by decide) (Bd2_of_ne m c main_arg1 (by decide)) (by decide) (by decide)
theorem Bd6_main_arg2 (c : Dev nD) : Bd6 m c (Proc.devRef .tc main_arg2) = m ((c : Thread nD τ).loc main_arg2) :=
  Bd6_launch m c main_arg2 (by decide) (by decide) (by decide) (Bd2_of_ne m c main_arg2 (by decide)) (by decide) (by decide)
theorem Bd6_main_arg3 (c : Dev nD) : Bd6 m c (Proc.devRef .tc main_arg3) = m ((c : Thread nD τ).loc main_arg3) :=
  Bd6_launch m c main_arg3 (by decide) (by decide) (by decide) (Bd2_in m c 1 rfl) (by decide) (by decide)
theorem Bd6_main_arg4 (c : Dev nD) : Bd6 m c (Proc.devRef .tc main_arg4) = m ((c : Thread nD τ).loc main_arg4) :=
  Bd6_launch m c main_arg4 (by decide) (by decide) (by decide) (Bd2_of_ne m c main_arg4 (by decide)) (by decide) (by decide)
theorem Bd6_main_arg5 (c : Dev nD) : Bd6 m c (Proc.devRef .tc main_arg5) = m ((c : Thread nD τ).loc main_arg5) :=
  Bd6_launch m c main_arg5 (by decide) (by decide) (by decide) (Bd2_of_ne m c main_arg5 (by decide)) (by decide) (by decide)
theorem Bd6_main_arg6 (c : Dev nD) : Bd6 m c (Proc.devRef .tc main_arg6) = m ((c : Thread nD τ).loc main_arg6) :=
  Bd6_launch m c main_arg6 (by decide) (by decide) (by decide) (Bd2_of_ne m c main_arg6 (by decide)) (by decide) (by decide)

/-- THE RUN read at the result and at the arguments: the result's buffer ends at the third region's array after its forty
    write-backs, and each argument ends as launched. -/
theorem run_value : θ_run defs (onTc (τ := τ) (main (F := F))) ⟨m, fun _ => 0, ρ⟩ (fun r => ∀ c : Dev nD,
      r.2.mem ((c.tc : Thread nD τ).loc main_v43) = (dat2 (En5 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_v43 (by decide))).trans (Bd6_arr m c 3),
    (h c _ (mem_uc main_arg0 (by decide))).trans (Bd6_main_arg0 m c),
    (h c _ (mem_uc main_arg1 (by decide))).trans (Bd6_main_arg1 m c),
    (h c _ (mem_uc main_arg2 (by decide))).trans (Bd6_main_arg2 m c),
    (h c _ (mem_uc main_arg3 (by decide))).trans (Bd6_main_arg3 m c),
    (h c _ (mem_uc main_arg4 (by decide))).trans (Bd6_main_arg4 m c),
    (h c _ (mem_uc main_arg5 (by decide))).trans (Bd6_main_arg5 m c),
    (h c _ (mem_uc main_arg6 (by decide))).trans (Bd6_main_arg6 m c)⟩) (run_all m ρ)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_value m ρ)

end Cert.Kernel.Frame

end
-- ==== Proof.KernelIdeal.R0.lean ====
/-
  The first kernel region: rows of x in blocks of 5000, the whole weight matrix and the bias row; each grid point
  writes one block of 5000 rows of  max (x · W + b) 0.  Stated at the buffer contents `V` the region is entered from.
  What each staging buffer holds before the body, what the body leaves in the output's buffer (the one store's value over
  the three loaded blocks), the body's triple, the proof data and the body obligation at every grid point.
-/
import proofs.«136777_j53730040873189_1_alg».proof.Proof.Gen.KernelIdeal.Launch
import proofs.«136777_j53730040873189_1_alg».proof.Proof.Gen.KernelIdeal.Skeleton
import proofs.«136777_j53730040873189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block of its array at grid point `t`, the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (an unfetched window's
    block index has not moved), for any proof data over these arrays whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rx0 : Rect S5000x256 := Rect.unit (s := S5000x256) ![0, 0] S5000x256.size inb_S5000x256_S5000x256_0_0
abbrev rw0 : Rect S256x64 := Rect.unit (s := S256x64) ![0, 0] S256x64.size inb_S256x64_S256x64_0_0
abbrev rb0 : Rect S1x64 := Rect.unit (s := S1x64) ![0, 0] S1x64.size inb_S1x64_S1x64_0_0
abbrev ro0 : Rect S5000x64 := Rect.unit (s := S5000x64) ![0, 0] S5000x64.size inb_S5000x64_S5000x64_0_0

/-- The output's staging buffer after the body: its one store, the matrix product plus the bias row clamped at zero,
    over the three loaded blocks. -/
def out0_3 (x0 : Vec F S5000x256 .f32) (x1 : Vec F S256x64 .f32) (x2 : Vec F S1x64 .f32) : Vec F S5000x64 .f32 :=
  View.canon [⟨ro0, k0_pay1 (View.ld x0 rx0) (View.ld x1 rw0) (View.ld x2 rb0)⟩]

/-- The one store covers the buffer. -/
theorem cover0_3 (p0 : Vec F S5000x64 .f32) (y : S5000x64.Idx) :
    ∃ pc ∈ ([⟨ro0, p0⟩] : List (View.Piece (Elt F) S5000x64 .f32)), y ∈ pc.1.set :=
  View.cover_of_tiled [⟨ro0, p0⟩] S5000x64.size (by rfl) y

set_option maxHeartbeats 1000000 in
/-- The body on whole staging memrefs, the inputs' at contents `x0 x1 x2` and the output's at anything, runs to the
    continuation with the inputs as they were and the output's buffer at `out0_3` of them. -/
theorem sound_kernel0 (c : Dev nD) (E : Set ℕ) (i : grid0.Coords)
    (arg1 : Memref sig .tc .vmem S5000x256 .f32) (harg1 : arg1.IsWhole) (arg2 : Memref sig .tc .vmem S256x64 .f32) (harg2 : arg2.IsWhole)
    (arg3 : Memref sig .tc .vmem S1x64 .f32) (harg3 : arg3.IsWhole) (arg4 : Memref sig .tc .vmem S5000x64 .f32) (harg4 : arg4.IsWhole)
    (x0 : Vec F S5000x256 .f32) (x1 : Vec F S256x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_relu_kernel i arg1 harg1 arg2 harg2 arg3 harg3 arg4 harg4) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this pipeline on core `c`: the arrays as the region finds them; after the body each input's
    buffer at its block and the output's at `out0_3` of the three input blocks; the invariant the scoped buffers no
    window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the kernel's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Frame

end
-- ==== Proof.KernelIdeal.R1.lean ====
/-
  The second kernel region: the running sums.  Forty grid points, each over one block of 20000 rows of e; two scratch rows
  [1,64] carry the column sums of e and of e*e between points: set to zero at the first point, added to at every point,
  and copied into the two result rows at the last point, the only one whose blocks are written back.
  `sumAt n` and `sqAt n` are what the two scratch rows hold after the points below `n`.
-/
import proofs.«136777_j53730040873189_1_alg».proof.Proof.Gen.KernelIdeal.Launch
import proofs.«136777_j53730040873189_1_alg».proof.Proof.Gen.KernelIdeal.Skeleton
import proofs.«136777_j53730040873189_1_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block of its array at grid point `t`, the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions, decided over the grid -/

/-- The first branch (reset the scratch rows) is taken exactly at the first point. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 40 = 0 :=
  (by decide +kernel : ∀ t : Fin grid1.N, cond1_0 (grid1.coords t) ↔ t.val % 40 = 0)
/-- The second branch (copy the scratch rows out) is taken exactly at the last point. -/
abbrev cond1_1 (i : grid1.Coords) : Prop := k1_cond2 i = 1#1
theorem hcond1_1 : ∀ t : Fin cfg1.N, cond1_1 (grid1.coords t) ↔ t.val % 40 = 39 :=
  (by decide +kernel : ∀ t : Fin grid1.N, cond1_1 (grid1.coords t) ↔ t.val % 40 = 39)

theorem liveAt1_0 : ∀ t : Fin cfg1.N, cfg1.idle 0 (grid1.coords t) = false := by decide +kernel
theorem idleAt1_1 : ∀ t : Fin cfg1.N, ¬cond1_1 (grid1.coords t) → cfg1.idle 1 (grid1.coords t) = true := by decide +kernel
theorem idleAt1_2 : ∀ t : Fin cfg1.N, ¬cond1_1 (grid1.coords t) → cfg1.idle 2 (grid1.coords t) = true := by decide +kernel
theorem noFlush1_1 : ∀ t : Fin cfg1.N, ¬cond1_1 (grid1.coords t) → (cfg1.win 1).flush t = false := by decide +kernel
theorem noFlush1_2 : ∀ t : Fin cfg1.N, ¬cond1_1 (grid1.coords t) → (cfg1.win 2).flush t = false := by decide +kernel
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-! ## The body's accesses and the scratch rows -/

abbrev re1 : Rect S20000x64 := Rect.unit (s := S20000x64) ![0, 0] S20000x64.size inb_S20000x64_S20000x64_0_0
abbrev rr1 : Rect S1x64 := Rect.unit (s := S1x64) ![0, 0] S1x64.size inb_S1x64_S1x64_0_0
theorem hz_e : (![0, 0] : Fin S20000x64.rank → Nat) = fun _ => 0 := by funext a; fin_cases a <;> rfl
theorem hz_r : (![0, 0] : Fin S1x64.rank → Nat) = fun _ => 0 := by funext a; fin_cases a <;> rfl

/-- The two scratch operands: whole scoped buffers of the kernel's own. -/
abbrev scM0 : Memref sig .tc .vmem S1x64 .f32 := Memref.whole cc1_scratch0
abbrev scM1 : Memref sig .tc .vmem S1x64 .f32 := Memref.whole cc1_scratch1

/-- A list of stores into a row whose last store is through the whole-row rectangle covers the row. -/
theorem cover_r (L : List (View.Piece (Elt F) S1x64 .f32)) (p0 : Vec F S1x64 .f32) (y : S1x64.Idx) :
    ∃ pc ∈ ((⟨rr1, p0⟩ : View.Piece (Elt F) S1x64 .f32) :: L), y ∈ pc.1.set :=
  ⟨_, List.mem_cons_self, View.mem_set_unit_zero (S := S1x64) hz_r inb_S1x64_S1x64_0_0 y⟩

set_option maxHeartbeats 2000000 in
/-- THE FIRST POINT: both scratch rows are set to zero and then added to; the result rows are handed back untouched. -/
theorem sound_kernel1_A (c : Dev nD) (E : Set ℕ) (i : grid1.Coords)
    (arg1 : Memref sig .tc .vmem S20000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : cond1_0 i) (hc1 : ¬cond1_1 i)
    (x0 : Vec F S20000x64 .f32) (y1 y2 : Vec F S1x64 .f32) (K : PUnit → sProp 𝕄) :
    iprop(owns (c : Thread nD τ) arg1 fullShare x0 ∗ owns (c : Thread nD τ) arg2 fullShare y1 ∗ owns (c : Thread nD τ) arg3 fullShare y2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare y1 ∗ owns (c : Thread nD τ) arg3 fullShare y2
            ∗ owns (c : Thread nD τ) arg4 fullShare (k1_pay4 x0 k1_pay1) ∗ owns (c : Thread nD τ) arg5 fullShare (k1_pay5 x0 k1_pay2)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%d4, %f4, -, H4⟩, ⟨%d5, %f5, -, H5⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    sl_unfold_words
    rw [View.read_writes_eq_canon _ _ _ (cover_r _ _), View.canon_cons_unit_zero (S := S1x64) hz_r]
    simp only [View.readAt_eq_ld, View.ld_unit_zero (S := S20000x64) hz_e, View.ld_unit_zero (S := S1x64) hz_r, View.readCov_unit_zero (S := S1x64) _ hz_r]
  iexists _; isplitr
  swap; · iexact H5
  ipureintro
  sl_unfold_words
  rw [View.read_writes_eq_canon _ _ _ (cover_r _ _), View.canon_cons_unit_zero (S := S1x64) hz_r]
  simp only [View.readAt_eq_ld, View.ld_unit_zero (S := S20000x64) hz_e, View.ld_unit_zero (S := S1x64) hz_r, View.readCov_unit_zero (S := S1x64) _ hz_r]

set_option maxHeartbeats 2000000 in
/-- A MIDDLE POINT: both scratch rows are added to; the result rows are handed back untouched. -/
theorem sound_kernel1_B (c : Dev nD) (E : Set ℕ) (i : grid1.Coords)
    (arg1 : Memref sig .tc .vmem S20000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : ¬cond1_0 i) (hc1 : ¬cond1_1 i)
    (x0 : Vec F S20000x64 .f32) (y1 y2 s0 s1 : Vec F S1x64 .f32) (K : PUnit → sProp 𝕄) :
    iprop(owns (c : Thread nD τ) arg1 fullShare x0 ∗ owns (c : Thread nD τ) arg2 fullShare y1 ∗ owns (c : Thread nD τ) arg3 fullShare y2
        ∗ owns (c : Thread nD τ) arg4 fullShare s0 ∗ owns (c : Thread nD τ) arg5 fullShare s1
        ∗ (iprop(owns (c : Thread nD τ) arg1 fullShare x0 ∗ owns (c : Thread nD τ) arg2 fullShare y1 ∗ owns (c : Thread nD τ) arg3 fullShare y2
            ∗ owns (c : Thread nD τ) arg4 fullShare (k1_pay4 x0 s0) ∗ owns (c : Thread nD τ) arg5 fullShare (k1_pay5 x0 s1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%f4, %hf4, H4⟩, ⟨%f5, %hf5, H5⟩, Hk⟩
  subst hf0; subst hf1; subst hf2; subst hf4; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H4]
  · iexists _; isplitr
    swap; · iexact H4
    ipureintro
    try sl_unfold_words
    rw [View.read_writes_eq_canon _ _ _ (cover_r _ _), View.canon_cons_unit_zero (S := S1x64) hz_r]
    simp only [View.readAt_eq_ld, View.ld_unit_zero (S := S20000x64) hz_e, View.ld_unit_zero (S := S1x64) hz_r]
  iexists _; isplitr
  swap; · iexact H5
  ipureintro
  try sl_unfold_words
  rw [View.read_writes_eq_canon _ _ _ (cover_r _ _), View.canon_cons_unit_zero (S := S1x64) hz_r]
  simp only [View.readAt_eq_ld, View.ld_unit_zero (S := S20000x64) hz_e, View.ld_unit_zero (S := S1x64) hz_r]

set_option maxHeartbeats 2000000 in
/-- THE LAST POINT: both scratch rows are added to and then copied into the two result rows. -/
theorem sound_kernel1_C (c : Dev nD) (E : Set ℕ) (i : grid1.Coords)
    (arg1 : Memref sig .tc .vmem S20000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (hc0 : ¬cond1_0 i) (hc1 : cond1_1 i)
    (x0 : Vec F S20000x64 .f32) (s0 s1 : Vec F S1x64 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare s0 ∗ owns (c : Thread nD τ) arg5 fullShare s1
        ∗ (iprop(owns (c : Thread nD τ) arg1 fullShare x0 ∗ owns (c : Thread nD τ) arg2 fullShare (k1_pay4 x0 s0) ∗ owns (c : Thread nD τ) arg3 fullShare (k1_pay5 x0 s1)
            ∗ owns (c : Thread nD τ) arg4 fullShare (k1_pay4 x0 s0) ∗ owns (c : Thread nD τ) arg5 fullShare (k1_pay5 x0 s1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%d1, %f1, -, H1⟩, ⟨%d2, %f2, -, H2⟩, ⟨%f4, %hf4, H4⟩, ⟨%f5, %hf5, H5⟩, Hk⟩
  subst hf0; subst hf4; subst hf5
  sl_exec (disch := first | exact hc0 | exact hc1)
  sl_step
  iapply Hk
  isplitl [H0]
  · iexists f0; isplitr; · ipureintro; rfl
    iexact H0
  isplitl [H1]
  · iexists _; isplitr
    swap; · iexact H1
    ipureintro
    try sl_unfold_words
    rw [View.read_writes_eq_canon _ _ _ (cover_r _ _), View.canon_cons_unit_zero (S := S1x64) hz_r]
    simp only [View.readAt_eq_ld, View.ld_unit_zero (S := S20000x64) hz_e, View.ld_unit_zero (S := S1x64) hz_r, View.readCov_unit_zero (S := S1x64) _ hz_r]
  isplitl [H2]
  · iexists _; isplitr
    swap; · iexact H2
    ipureintro
    try sl_unfold_words
    rw [View.read_writes_eq_canon _ _ _ (cover_r _ _), View.canon_cons_unit_zero (S := S1x64) hz_r]
    simp only [View.readAt_eq_ld, View.ld_unit_zero (S := S20000x64) hz_e, View.ld_unit_zero (S := S1x64) hz_r, View.readCov_unit_zero (S := S1x64) _ hz_r]
  isplitl [H4]
  · iexists _; isplitr
    swap; · iexact H4
    ipureintro
    try sl_unfold_words
    rw [View.read_writes_eq_canon _ _ _ (cover_r _ _), View.canon_cons_unit_zero (S := S1x64) hz_r]
    simp only [View.readAt_eq_ld, View.ld_unit_zero (S := S20000x64) hz_e, View.ld_unit_zero (S := S1x64) hz_r]
  iexists _; isplitr
  swap; · iexact H5
  ipureintro
  try sl_unfold_words
  rw [View.read_writes_eq_canon _ _ _ (cover_r _ _), View.canon_cons_unit_zero (S := S1x64) hz_r]
  simp only [View.readAt_eq_ld, View.ld_unit_zero (S := S20000x64) hz_e, View.ld_unit_zero (S := S1x64) hz_r]

/-! ## The running sums -/

/-- What scratch row 0 holds after the points below `n`: zero, then each block's column sums added in point order. -/
def sumAt (c : Dev nD) : ℕ → Vec F S1x64 .f32
  | 0 => k1_pay1
  | n + 1 => if h : n < cfg1.N then k1_pay4 (iblk1 V c 0 ⟨n, h⟩) (sumAt c n) else sumAt c n
/-- What scratch row 1 holds after the points below `n`: zero, then each block's column sums of squares added in point order. -/
def sqAt (c : Dev nD) : ℕ → Vec F S1x64 .f32
  | 0 => k1_pay2
  | n + 1 => if h : n < cfg1.N then k1_pay5 (iblk1 V c 0 ⟨n, h⟩) (sqAt c n) else sqAt c n

theorem sumAt_zero (c : Dev nD) : sumAt V c 0 = k1_pay1 := rfl
theorem sqAt_zero (c : Dev nD) : sqAt V c 0 = k1_pay2 := rfl
theorem sumAt_succ (c : Dev nD) (t : Fin cfg1.N) : sumAt V c (t.val + 1) = k1_pay4 (iblk1 V c 0 t) (sumAt V c t.val) := by
  show (if h : t.val < cfg1.N then k1_pay4 (iblk1 V c 0 ⟨t.val, h⟩) (sumAt V c t.val) else sumAt V c t.val) = _
  rw [dif_pos t.isLt]
theorem sqAt_succ (c : Dev nD) (t : Fin cfg1.N) : sqAt V c (t.val + 1) = k1_pay5 (iblk1 V c 0 t) (sqAt V c t.val) := by
  show (if h : t.val < cfg1.N then k1_pay5 (iblk1 V c 0 ⟨t.val, h⟩) (sqAt V c t.val) else sqAt V c t.val) = _
  rw [dif_pos t.isLt]

/-! ## The invariant between points -/

/-- A scoped buffer at some contents. -/
abbrev anyBuf (c : Dev nD) (b : Ref sig .tc) : sProp 𝕄 :=
  iprop(∃ f : Buf (Elt F) ((c : Thread nD τ).loc b), ((c : Thread nD τ).loc b) ↦{fullShare} f)

/-- The scoped buffers that are neither this region's staging buffers nor its two scratch rows: the other two regions'
    staging buffers, each at some contents. -/
def others1 (c : Dev nD) : sProp 𝕄 :=
  iprop(anyBuf c cc0_stg0_0 ∗ anyBuf c cc0_stg0_1 ∗ anyBuf c cc0_stg1_0 ∗ anyBuf c cc0_stg2_0 ∗ anyBuf c cc0_stg3_0 ∗ anyBuf c cc0_stg3_1
    ∗ anyBuf c cc2_stg0_0 ∗ anyBuf c cc2_stg0_1 ∗ anyBuf c cc2_stg1_0 ∗ anyBuf c cc2_stg2_0 ∗ anyBuf c cc2_stg3_0 ∗ anyBuf c cc2_stg3_1)

/-- The region invariant of the class (every scoped buffer no window stages at some contents, the generator register at
    some state) with the two scratch rows taken out as memrefs owned at some contents, -/
theorem PhiA1_elim (c : Dev nD) : (Pipeline.ΦA spec1 c : sProp 𝕄)
    ⊢ iprop(others1 c ∗ (∃ d, owns (c : Thread nD τ) scM0 fullShare d) ∗ (∃ d, owns (c : Thread nD τ) scM1 fullShare d) ∗ ∃ r, prngReg c r) := by
  unfold Pipeline.ΦA others1; rw [scopedRest1_eq]
  simp only [scM0, scM1, owns_whole]
  iintro ⟨⟨A1, A2, A3, A4, A5, A6, ⟨%f0, S0⟩, ⟨%f1, S1⟩, B1, B2, B3, B4, B5, B6⟩, Hp⟩
  isplitl [A1 A2 A3 A4 A5 A6 B1 B2 B3 B4 B5 B6]
  · isplitl [A1]; · iexact A1
    isplitl [A2]; · iexact A2
    isplitl [A3]; · iexact A3
    isplitl [A4]; · iexact A4
    isplitl [A5]; · iexact A5
    isplitl [A6]; · iexact A6
    isplitl [B1]; · iexact B1
    isplitl [B2]; · iexact B2
    isplitl [B3]; · iexact B3
    isplitl [B4]; · iexact B4
    isplitl [B5]; · iexact B5
    iexact B6
  isplitl [S0]
  · iexists f0; iexact S0
  isplitl [S1]
  · iexists f1; iexact S1
  iexact Hp
/-- and put back. -/
theorem PhiA1_intro (c : Dev nD) :
    iprop(others1 c ∗ (∃ d, owns (c : Thread nD τ) scM0 fullShare d) ∗ (∃ d, owns (c : Thread nD τ) scM1 fullShare d) ∗ ∃ r, prngReg c r)
      ⊢ (Pipeline.ΦA spec1 c : sProp 𝕄) := by
  unfold Pipeline.ΦA others1; rw [scopedRest1_eq]
  simp only [scM0, scM1, owns_whole]
  iintro ⟨⟨A1, A2, A3, A4, A5, A6, B1, B2, B3, B4, B5, B6⟩, ⟨%f0, S0⟩, ⟨%f1, S1⟩, Hp⟩
  isplitr [Hp]
  swap; · iexact Hp
  isplitl [A1]; · iexact A1
  isplitl [A2]; · iexact A2
  isplitl [A3]; · iexact A3
  isplitl [A4]; · iexact A4
  isplitl [A5]; · iexact A5
  isplitl [A6]; · iexact A6
  isplitl [S0]; · iexists f0; iexact S0
  isplitl [S1]; · iexists f1; iexact S1
  isplitl [B1]; · iexact B1
  isplitl [B2]; · iexact B2
  isplitl [B3]; · iexact B3
  isplitl [B4]; · iexact B4
  isplitl [B5]; · iexact B5
  iexact B6

/-- The invariant before point `n`: before the first point the class's (the scratch rows at anything); afterwards the two
    scratch rows at the running sums of the points below `n`, the other scoped buffers at anything and the generator
    register at some state. -/
def Phi1 (c : Dev nD) : ℕ → sProp 𝕄
  | 0 => Pipeline.ΦA spec1 c
  | n + 1 => iprop(others1 c ∗ owns (c : Thread nD τ) scM0 fullShare (sumAt V c (n + 1))
      ∗ owns (c : Thread nD τ) scM1 fullShare (sqAt V c (n + 1)) ∗ ∃ r, prngReg c r)

theorem Phi1_zero (c : Dev nD) : Phi1 V c 0 = Pipeline.ΦA spec1 c := rfl
theorem Phi1_pos (c : Dev nD) (n : ℕ) (hz : n ≠ 0) :
    Phi1 V c n = iprop(others1 c ∗ owns (c : Thread nD τ) scM0 fullShare (sumAt V c n)
      ∗ owns (c : Thread nD τ) scM1 fullShare (sqAt V c n) ∗ ∃ r, prngReg c r) := by
  cases n with
  | zero => exact absurd rfl hz
  | succ n => rfl

/-! ## The proof data and the body obligation -/

/-- The proof data of this pipeline on core `c`: the arrays as the region finds them; after the body the input's buffer at
    its block and, at the one point that writes them back, the two result rows at the sums over all forty blocks; the invariant
    `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => sumAt V c 40
    | ⟨2, _⟩ => sqAt V c 40
  Φ t := Phi1 V c t.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = sumAt V c 40 := by dsimp only [dat1]
theorem after1_2 (c : Dev nD) (t : Fin cfg1.N) : (dat1 V c).after 2 t = sqAt V c 40 := by dsimp only [dat1]
theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: a result row's buffer as the body found it at the points that neither store it nor write it back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point, by the point's case: the first, a middle one, the last. The invariant hands the body the two
    scratch rows at the sums so far (at anything before the first point) and takes them back one block further. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl,
    show (dat1 V c).Φ t.succ = Phi1 V c (t.val + 1) from rfl,
    show (dat1 V c).Φ t.castSucc = Phi1 V c t.val from rfl,
    show (dat1 V c).leavesExact 0 t = owns (c : Thread nD τ) (st1_0 t) fullShare ((dat1 V c).after 0 t) from by
      unfold Dat.leavesExact; rw [liveAt1_0 t],
    after1_0, Phi1_pos V c (t.val + 1) (Nat.succ_ne_zero _), sumAt_succ, sqAt_succ]
  have hN : t.val < 40 := lt_of_lt_of_eq t.isLt N_1
  by_cases h1 : t.val % 40 = 39
  · -- the last point
    have hc0 : ¬cond1_0 (grid1.coords t) := fun h => by have := (hcond1_0 t).mp h; omega
    have hc1 : cond1_1 (grid1.coords t) := (hcond1_1 t).mpr h1
    have hz : t.val ≠ 0 := by omega
    have h40 : 40 = t.val + 1 := by omega
    rw [show (dat1 V c).leavesExact 1 t = owns (c : Thread nD τ) (st1_1 t) fullShare ((dat1 V c).after 1 t) from by
        unfold Dat.leavesExact; rw [liveAt1_1 t hc1],
      show (dat1 V c).leavesExact 2 t = owns (c : Thread nD τ) (st1_2 t) fullShare ((dat1 V c).after 2 t) from by
        unfold Dat.leavesExact; rw [liveAt1_2 t hc1],
      after1_1, after1_2, h40, sumAt_succ, sqAt_succ, Phi1_pos V c t.val hz]
    iintro ⟨⟨HO, HS0, HS1, Hg⟩, Ho, ⟨%d0, H0⟩, ⟨%d1, H1⟩, ⟨%d2, H2⟩⟩
    iapply (sound_kernel1_C c Set.univ (grid1.coords t) _ _ _ _ _ _ _ _ _ _ hc0 hc1 (iblk1 V c 0 t) (sumAt V c t.val) (sqAt V c t.val) _)
    isplitl [H0]; · iexact H0
    isplitl [H1]; · iexists _; iexact H1
    isplitl [H2]; · iexists _; iexact H2
    isplitl [HS0]; · iexact HS0
    isplitl [HS1]; · iexact HS1
    iintro ⟨H0, H1, H2, HS0, HS1⟩
    isplitl [HO HS0 HS1 Hg]
    · isplitl [HO]; · iexact HO
      isplitl [HS0]; · iexact HS0
      isplitl [HS1]; · iexact HS1
      iexact Hg
    isplitl [Ho]; · iexact Ho
    isplitl [H0]; · iexact H0
    isplitl [H1]; · iexact H1
    iexact H2
  · have hc1 : ¬cond1_1 (grid1.coords t) := fun h => h1 ((hcond1_1 t).mp h)
    rw [Dat.leavesExact_idle (dat1 V c) 1 t (idleAt1_1 t hc1) (noFlush1_1 t hc1),
      Dat.leavesExact_idle (dat1 V c) 2 t (idleAt1_2 t hc1) (noFlush1_2 t hc1)]
    by_cases h0 : t.val % 40 = 0
    · -- the first point
      have hc0 : cond1_0 (grid1.coords t) := (hcond1_0 t).mpr h0
      have hz : t.val = 0 := by omega
      rw [hz, Phi1_zero, sumAt_zero, sqAt_zero]
      iintro ⟨HΦ, Ho, ⟨%d0, H0⟩, ⟨%d1, H1⟩, ⟨%d2, H2⟩⟩
      ihave HΦ' := (PhiA1_elim (F := F) c) $$ HΦ
      icases HΦ' with ⟨HO, HS0, HS1, Hg⟩
      iapply (sound_kernel1_A c Set.univ (grid1.coords t) _ _ _ _ _ _ _ _ _ _ hc0 hc1 (iblk1 V c 0 t) _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HO HS0 HS1 Hg]
      · isplitl [HO]; · iexact HO
        isplitl [HS0]; · iexact HS0
        isplitl [HS1]; · iexact HS1
        iexact Hg
      isplitl [Ho]; · iexact Ho
      isplitl [H0]; · iexact H0
      isplitl [H1]; · iexists _; iexact H1
      iexists _; iexact H2
    · -- a middle point
      have hc0 : ¬cond1_0 (grid1.coords t) := fun h => h0 ((hcond1_0 t).mp h)
      have hz : t.val ≠ 0 := by omega
      rw [Phi1_pos V c t.val hz]
      iintro ⟨⟨HO, HS0, HS1, Hg⟩, Ho, ⟨%d0, H0⟩, ⟨%d1, H1⟩, ⟨%d2, H2⟩⟩
      iapply (sound_kernel1_B c Set.univ (grid1.coords t) _ _ _ _ _ _ _ _ _ _ hc0 hc1 (iblk1 V c 0 t) _ _ (sumAt V c t.val) (sqAt V c t.val) _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HO HS0 HS1 Hg]
      · isplitl [HO]; · iexact HO
        isplitl [HS0]; · iexact HS0
        isplitl [HS1]; · iexact HS1
        iexact Hg
      isplitl [Ho]; · iexact Ho
      isplitl [H0]; · iexact H0
      isplitl [H1]; · iexists _; iexact H1
      iexists _; iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

/-- Before the first point the invariant is the class's, -/
theorem hin1 (c : Dev nD) : (Pipeline.ΦA spec1 c : sProp 𝕄) ⊢ (dat1 V c).Φ 0 := by
  rw [show (dat1 V c).Φ 0 = Phi1 V c 0 from rfl, Phi1_zero]
/-- and after the last point it gives the class's back, the scratch rows' contents forgotten. -/
theorem hout1 (c : Dev nD) : (dat1 V c).Φ (Fin.last cfg1.N) ⊢ (Pipeline.ΦA spec1 c : sProp 𝕄) := by
  rw [show (dat1 V c).Φ (Fin.last cfg1.N) = Phi1 V c cfg1.N from rfl, Phi1_pos V c cfg1.N (by rw [show cfg1.N = 40 from N_1]; decide)]
  iintro ⟨HO, HS0, HS1, Hg⟩
  iapply (PhiA1_intro (F := F) c)
  isplitl [HO]; · iexact HO
  isplitl [HS0]; · iexists _; iexact HS0
  isplitl [HS1]; · iexists _; iexact HS1
  iexact Hg

end Region1

end Cert.KernelIdeal.Frame

end
-- ==== Proof.KernelIdeal.R2.lean ====
/-
  The third kernel region: rows of e in blocks of 20000 with the scale row and the shift row; each grid point writes one
  block of 20000 rows of  e * scale + shift.  Stated at the buffer contents `V` the region is entered from: what each
  staging buffer holds before the body, what the body leaves in the output's buffer, the body's triple, the proof data and
  the body obligation at every grid point.
-/
import proofs.«136777_j53730040873189_1_alg».proof.Proof.Gen.KernelIdeal.Launch
import proofs.«136777_j53730040873189_1_alg».proof.Proof.Gen.KernelIdeal.Skeleton
import proofs.«136777_j53730040873189_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-- Window `w`'s block of its array at grid point `t`, the array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not (an unfetched window's
    block index has not moved), for any proof data over these arrays whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev re2 : Rect S20000x64 := Rect.unit (s := S20000x64) ![0, 0] S20000x64.size inb_S20000x64_S20000x64_0_0
abbrev rr2 : Rect S1x64 := Rect.unit (s := S1x64) ![0, 0] S1x64.size inb_S1x64_S1x64_0_0

/-- The output's staging buffer after the body: its one store, the block times the scale row plus the shift row. -/
def out2_3 (x0 : Vec F S20000x64 .f32) (x1 : Vec F S1x64 .f32) (x2 : Vec F S1x64 .f32) : Vec F S20000x64 .f32 :=
  View.canon [⟨re2, k2_pay1 (View.ld x0 re2) (View.ld x1 rr2) (View.ld x2 rr2)⟩]

/-- The one store covers the buffer. -/
theorem cover2_3 (p0 : Vec F S20000x64 .f32) (y : S20000x64.Idx) :
    ∃ pc ∈ ([⟨re2, p0⟩] : List (View.Piece (Elt F) S20000x64 .f32)), y ∈ pc.1.set :=
  View.cover_of_tiled [⟨re2, p0⟩] S20000x64.size (by rfl) y

set_option maxHeartbeats 1000000 in
/-- The body on whole staging memrefs, the inputs' at contents `x0 x1 x2` and the output's at anything, runs to the
    continuation with the inputs as they were and the output's buffer at `out2_3` of them. -/
theorem sound_kernel2 (c : Dev nD) (E : Set ℕ) (i : grid2.Coords)
    (arg1 : Memref sig .tc .vmem S20000x64 .f32) (harg1 : arg1.IsWhole) (arg2 : Memref sig .tc .vmem S1x64 .f32) (harg2 : arg2.IsWhole)
    (arg3 : Memref sig .tc .vmem S1x64 .f32) (harg3 : arg3.IsWhole) (arg4 : Memref sig .tc .vmem S20000x64 .f32) (harg4 : arg4.IsWhole)
    (x0 : Vec F S20000x64 .f32) (x1 : Vec F S1x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__normalize_kernel i arg1 harg1 arg2 harg2 arg3 harg3 arg4 harg4) K := by
  simp only [cc2__normalize_kernel_eq_skeleton]; unfold cc2__normalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`: the arrays as the region finds them; after the body each input's
    buffer at its block and the output's at `out2_3` of the three input blocks; the invariant the scoped buffers no
    window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the kernel's triple applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Frame

end
-- ==== Proof.KernelIdeal.Vals.lean ====
/-
  The buffer contents at each boundary of @main, folded from the launch memory: after the first host stretch (the bias
  reshaped to a row), after the first region (its output at what the pipeline's write-backs leave), after the second
  stretch (the two row gathers, their sum halved), after the second region (the two rows of sums), after the third stretch
  (mean, variance, scale and shift) and after the third region.  Every region's proof data is taken at the contents the
  region is entered from.  No stretch and no region writes an argument.
-/
import proofs.«136777_j53730040873189_1_alg».proof.Proof.Gen.KernelIdeal.Launch
import proofs.«136777_j53730040873189_1_alg».proof.Proof.Gen.KernelIdeal.Skeleton
import proofs.«136777_j53730040873189_1_alg».proof.Proof.Gen.KernelIdeal.Points
import proofs.«136777_j53730040873189_1_alg».proof.Proof.Gen.KernelIdeal.Regions
import proofs.«136777_j53730040873189_1_alg».proof.Proof.KernelIdeal.R0
import proofs.«136777_j53730040873189_1_alg».proof.Proof.KernelIdeal.R1
import proofs.«136777_j53730040873189_1_alg».proof.Proof.KernelIdeal.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev Bd0 : Dev nD → Valuation τ sig (Elt F) := fun c b => m (c, b)
/-- After the first host stretch (the first region's entry). -/
abbrev Bd1 : Dev nD → Valuation τ sig (Elt F) := fun c => StableHlo.after hostOps0 (Bd0 m c)
abbrev En1 : (c : Dev nD) → (b : Ref sig .tc) → Buf (Elt F) ((c : Thread nD τ).loc b) := fun c b => Bd1 m c b
/-- At the first region's exit: its arrays at what the pipeline leaves, every other buffer as entered. -/
def Bd2 (c : Dev nD) : Valuation τ sig (Elt F) :=
  Pipeline.withArrays spec0 c (Bd1 m c) fun w => (dat0 (En1 m) c).arrAt w cfg0.N
theorem Bd2_arr (c : Dev nD) (w : Fin cfg0.W) :
    Bd2 m c (Proc.devRef .tc (Pipeline.arrRef spec0 w)) = (dat0 (En1 m) c).arrAt w cfg0.N := by
  unfold Bd2; exact Pipeline.withArrays_arr spec0 launch0.win.arr_inj c _ _ w
theorem Bd2_of_ne (c : Dev nD) (b : Ref sig .tc) (hb : ∀ w, Pipeline.arrRef spec0 w ≠ b) :
    Bd2 m c (Proc.devRef .tc b) = Bd1 m c (Proc.devRef .tc b) := by
  unfold Bd2; exact Pipeline.withArrays_of_ne spec0 c _ _ b hb
abbrev En2 : (c : Dev nD) → (b : Ref sig .tc) → Buf (Elt F) ((c : Thread nD τ).loc b) := fun c b => Bd2 m c b
theorem hF0 (c : Dev nD) (w : Fin cfg0.W) : (dat0 (En1 m) c).arrAt w cfg0.N = En2 m c (Pipeline.arrRef spec0 w) :=
  (Bd2_arr m c w).symm
theorem hrest0 (c : Dev nD) : ∀ b, b ∉ Finset.univ.image (Pipeline.arrRef spec0) → En2 m c b = En1 m c b :=
  fun b hb => Bd2_of_ne m c b fun w e => hb (Finset.mem_image.mpr ⟨w, Finset.mem_univ _, e⟩)

/-- After the second host stretch (the second region's entry). -/
abbrev Bd3 : Dev nD → Valuation τ sig (Elt F) := fun c => StableHlo.after hostOps1 (Bd2 m c)
abbrev En3 : (c : Dev nD) → (b : Ref sig .tc) → Buf (Elt F) ((c : Thread nD τ).loc b) := fun c b => Bd3 m c b
/-- At the second region's exit. -/
def Bd4 (c : Dev nD) : Valuation τ sig (Elt F) :=
  Pipeline.withArrays spec1 c (Bd3 m c) fun w => (dat1 (En3 m) c).arrAt w cfg1.N
theorem Bd4_arr (c : Dev nD) (w : Fin cfg1.W) :
    Bd4 m c (Proc.devRef .tc (Pipeline.arrRef spec1 w)) = (dat1 (En3 m) c).arrAt w cfg1.N := by
  unfold Bd4; exact Pipeline.withArrays_arr spec1 launch1.win.arr_inj c _ _ w
theorem Bd4_of_ne (c : Dev nD) (b : Ref sig .tc) (hb : ∀ w, Pipeline.arrRef spec1 w ≠ b) :
    Bd4 m c (Proc.devRef .tc b) = Bd3 m c (Proc.devRef .tc b) := by
  unfold Bd4; exact Pipeline.withArrays_of_ne spec1 c _ _ b hb
abbrev En4 : (c : Dev nD) → (b : Ref sig .tc) → Buf (Elt F) ((c : Thread nD τ).loc b) := fun c b => Bd4 m c b
theorem hF1 (c : Dev nD) (w : Fin cfg1.W) : (dat1 (En3 m) c).arrAt w cfg1.N = En4 m c (Pipeline.arrRef spec1 w) :=
  (Bd4_arr m c w).symm
theorem hrest1 (c : Dev nD) : ∀ b, b ∉ Finset.univ.image (Pipeline.arrRef spec1) → En4 m c b = En3 m c b :=
  fun b hb => Bd4_of_ne m c b fun w e => hb (Finset.mem_image.mpr ⟨w, Finset.mem_univ _, e⟩)

/-- After the third host stretch (the third region's entry). -/
abbrev Bd5 : Dev nD → Valuation τ sig (Elt F) := fun c => StableHlo.after hostOps2 (Bd4 m c)
abbrev En5 : (c : Dev nD) → (b : Ref sig .tc) → Buf (Elt F) ((c : Thread nD τ).loc b) := fun c b => Bd5 m c b
/-- At the third region's exit: the end of @main. -/
def Bd6 (c : Dev nD) : Valuation τ sig (Elt F) :=
  Pipeline.withArrays spec2 c (Bd5 m c) fun w => (dat2 (En5 m) c).arrAt w cfg2.N
theorem Bd6_arr (c : Dev nD) (w : Fin cfg2.W) :
    Bd6 m c (Proc.devRef .tc (Pipeline.arrRef spec2 w)) = (dat2 (En5 m) c).arrAt w cfg2.N := by
  unfold Bd6; exact Pipeline.withArrays_arr spec2 launch2.win.arr_inj c _ _ w
theorem Bd6_of_ne (c : Dev nD) (b : Ref sig .tc) (hb : ∀ w, Pipeline.arrRef spec2 w ≠ b) :
    Bd6 m c (Proc.devRef .tc b) = Bd5 m c (Proc.devRef .tc b) := by
  unfold Bd6; exact Pipeline.withArrays_of_ne spec2 c _ _ b hb
abbrev En6 : (c : Dev nD) → (b : Ref sig .tc) → Buf (Elt F) ((c : Thread nD τ).loc b) := fun c b => Bd6 m c b
theorem hF2 (c : Dev nD) (w : Fin cfg2.W) : (dat2 (En5 m) c).arrAt w cfg2.N = En6 m c (Pipeline.arrRef spec2 w) :=
  (Bd6_arr m c w).symm
theorem hrest2 (c : Dev nD) : ∀ b, b ∉ Finset.univ.image (Pipeline.arrRef spec2) → En6 m c b = En5 m c b :=
  fun b hb => Bd6_of_ne m c b fun w e => hb (Finset.mem_image.mpr ⟨w, Finset.mem_univ _, e⟩)

/-! ## What each host stretch leaves alone -/

/-- A buffer none of a stretch's operations writes is as it was (the stretches' written references are the generated lists). -/
theorem keep0 (W : Valuation τ sig (Elt F)) (b : Ref sig .tc) (hb : b ∉ hostOps0_W) :
    StableHlo.after (hostOps0 (F := F)) W (Proc.devRef .tc b) = W (Proc.devRef .tc b) :=
  StableHlo.after_of_writes_sub hostOps0 _ hostOps0_writes hb
theorem keep1 (W : Valuation τ sig (Elt F)) (b : Ref sig .tc) (hb : b ∉ hostOps1_W) :
    StableHlo.after (hostOps1 (F := F)) W (Proc.devRef .tc b) = W (Proc.devRef .tc b) :=
  StableHlo.after_of_writes_sub hostOps1 _ hostOps1_writes hb
theorem keep2 (W : Valuation τ sig (Elt F)) (b : Ref sig .tc) (hb : b ∉ hostOps2_W) :
    StableHlo.after (hostOps2 (F := F)) W (Proc.devRef .tc b) = W (Proc.devRef .tc b) :=
  StableHlo.after_of_writes_sub hostOps2 _ hostOps2_writes hb

/-- An input window's array is never written by its region. -/
theorem Bd2_in (c : Dev nD) (w : Fin cfg0.W) (hw : (cfg0.win w).isOut = false) :
    Bd2 m c (Proc.devRef .tc (Pipeline.arrRef spec0 w)) = Bd1 m c (Proc.devRef .tc (Pipeline.arrRef spec0 w)) :=
  (Bd2_arr m c w).trans (((dat0 (En1 m) c).arrAt_in w hw _).trans (A_eq0 (En1 m) c w))
theorem Bd4_in (c : Dev nD) (w : Fin cfg1.W) (hw : (cfg1.win w).isOut = false) :
    Bd4 m c (Proc.devRef .tc (Pipeline.arrRef spec1 w)) = Bd3 m c (Proc.devRef .tc (Pipeline.arrRef spec1 w)) :=
  (Bd4_arr m c w).trans (((dat1 (En3 m) c).arrAt_in w hw _).trans (A_eq1 (En3 m) c w))
theorem Bd6_in (c : Dev nD) (w : Fin cfg2.W) (hw : (cfg2.win w).isOut = false) :
    Bd6 m c (Proc.devRef .tc (Pipeline.arrRef spec2 w)) = Bd5 m c (Proc.devRef .tc (Pipeline.arrRef spec2 w)) :=
  (Bd6_arr m c w).trans (((dat2 (En5 m) c).arrAt_in w hw _).trans (A_eq2 (En5 m) c w))

/-- A buffer that no host stretch writes, that is no array of the second or third region, and that the first region leaves
    as it found it (`h2`: no array of its, or an input's) ends as launched. -/
theorem Bd6_launch (c : Dev nD) (b : Ref sig .tc) (h0 : b ∉ hostOps0_W) (h1 : b ∉ hostOps1_W) (h2 : b ∉ hostOps2_W)
    (hr0 : Bd2 m c (Proc.devRef .tc b) = Bd1 m c (Proc.devRef .tc b))
    (hr1 : ∀ w, Pipeline.arrRef spec1 w ≠ b) (hr2 : ∀ w, Pipeline.arrRef spec2 w ≠ b) :
    Bd6 m c (Proc.devRef .tc b) = m ((c : Thread nD τ).loc b) :=
  calc Bd6 m c (Proc.devRef .tc b)
    _ = Bd5 m c (Proc.devRef .tc b) := Bd6_of_ne m c b hr2
    _ = Bd4 m c (Proc.devRef .tc b) := keep2 _ b h2
    _ = Bd3 m c (Proc.devRef .tc b) := Bd4_of_ne m c b hr1
    _ = Bd2 m c (Proc.devRef .tc b) := keep1 _ b h1
    _ = Bd1 m c (Proc.devRef .tc b) := hr0
    _ = Bd0 m c (Proc.devRef .tc b) := keep0 _ b h0
    _ = m ((c : Thread nD τ).loc b) := rfl

end Cert.KernelIdeal.Frame

end
-- ==== Proof.KernelIdeal.Run.lean ====
/-
  The run of @main as six segments — host stretch, region, host stretch, region, host stretch, region — from the launch to
  the return.  Between two segments a core holds every unscoped buffer at the boundary's contents (`Bd0` … `Bd6`), its
  generator register at some state, and owes nothing.  The launch's post: every unscoped buffer of every core holds the
  last boundary's contents.  Read at the seven arguments this is the frame; read at the result it is the value.
-/
import proofs.«136777_j53730040873189_1_alg».proof.Proof.Gen.KernelIdeal.Launch
import proofs.«136777_j53730040873189_1_alg».proof.Proof.Gen.KernelIdeal.Skeleton
import proofs.«136777_j53730040873189_1_alg».proof.Proof.Gen.KernelIdeal.Points
import proofs.«136777_j53730040873189_1_alg».proof.Proof.KernelIdeal.Vals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev admT : (p : Fin 3) → (pcfgs (F := F) p).Adm := fun p => (cfgs p).toPCfg_adm
/-- Every pipeline's proof data, each at the contents its region is entered from. -/
def pdats : (p : Fin 3) → (c : Dev nD) → Dat τ (Elt F) Unit ℕ (UR sig nD τ) ℕ (Pipeline.pin (pcfgs (F := F)) admT p) c
  | ⟨0, _⟩ => fun c => dat0 (En1 m) c
  | ⟨1, _⟩ => fun c => dat1 (En3 m) c
  | ⟨2, _⟩ => fun c => dat2 (En5 m) c
abbrev 𝒱r : Variants := Variants.none
/-- No core owes another anything: no level is assigned. -/
abbrev Lr : GSem nD τ sig → Finset Unit := fun _ => ∅
abbrev lvr : GSem nD τ sig → Unit → ℕ := fun _ _ => 0
/-- What rides beside the buffers through every segment: the generator register at some state, nothing owed. -/
abbrev Rr (c : Dev nD) : sProp 𝕄 := iprop((∃ r, prngReg c r) ∗ ∃ W, owes (c : Thread nD τ) (0 : CellTallies nD τ sig Unit) W)
/-- A host stretch as a segment over the unscoped references from the contents `W`. -/
abbrev hsegr (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱r Lr lvr :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes. -/
abbrev Tlast (c : Dev nD) : sProp 𝕄 := iprop(StableHlo.held (c : Thread nD τ) (Pipeline.ucRefs τ sig) (Bd6 m c) ∗ ∃ r, prngReg c r)

set_option backward.isDefEq.respectTransparency.types false in
/-- Region 0 over the thread state: entered from every unscoped buffer at `Bd1`, left at `Bd2`. Its arrays are split
    out of the unscoped buffers and put back at what the pipeline leaves; the generator register goes into the invariant and
    comes back; nothing is owed; the kernel has no semaphore of its own. -/
def reg0 : Pipeline.RegionSeg (pcfgs (F := F)) admT (pdats m) () defs₀ 𝒱r Lr lvr 0 where
  win := launch0.win.to₀
  block_pos := launch0.block_pos
  stage_whole := launch0.stage_whole
  K := PEmpty
  osem k := k.elim
  ho := Pipeline.OwnSemFacts.none _
  hbody c := (body_obligation0 (En1 m) c).loose
  hwaits := Pipeline.hwaits_of_owed_zero _ _ _ _ Lr lvr 0 fun _ _ => rfl
  pre c := iprop(StableHlo.held (c : Thread nD τ) (Pipeline.ucRefs τ sig) (Bd1 m c) ∗ Rr c)
  post c := iprop(StableHlo.held (c : Thread nD τ) (Pipeline.ucRefs τ sig) (Bd2 m c) ∗ Rr c)
  X c := iprop(∃ r, prngReg c r)
  Y c := iprop(∃ r, prngReg c r)
  Z c := Pipeline.unscopedRest (Ix := Unit) (Name := ℕ) (U := UR sig nD τ) (Lvl := ℕ) spec0 c (En1 m c)
  hentry c := by
    rw [Pipeline.ownSems0_none]
    have hsplit := Pipeline.arrays_of_unscopedBufs (p := 0) (pcfgs (F := F)) admT (pdats m) launch0.win launch0.arr_whole c
      ((pdats m 0 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdats m) ((pdats m 0 c).share_full fun _ => rfl)
      (En1 m c) (En2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `Bd3`, left at `Bd4`. Its arrays are split
    out of the unscoped buffers and put back at what the pipeline leaves; the generator register goes into the invariant and
    comes back; nothing is owed; the kernel has no semaphore of its own. -/
def reg1 : Pipeline.RegionSeg (pcfgs (F := F)) admT (pdats m) () defs₀ 𝒱r Lr lvr 1 where
  win := launch1.win.to₀
  block_pos := launch1.block_pos
  stage_whole := launch1.stage_whole
  K := PEmpty
  osem k := k.elim
  ho := Pipeline.OwnSemFacts.none _
  hbody c := (body_obligation1 (En3 m) c).loose
  hwaits := Pipeline.hwaits_of_owed_zero _ _ _ _ Lr lvr 1 fun _ _ => rfl
  pre c := iprop(StableHlo.held (c : Thread nD τ) (Pipeline.ucRefs τ sig) (Bd3 m c) ∗ Rr c)
  post c := iprop(StableHlo.held (c : Thread nD τ) (Pipeline.ucRefs τ sig) (Bd4 m c) ∗ Rr c)
  X c := iprop(∃ r, prngReg c r)
  Y c := iprop(∃ r, prngReg c r)
  Z c := Pipeline.unscopedRest (Ix := Unit) (Name := ℕ) (U := UR sig nD τ) (Lvl := ℕ) spec1 c (En3 m c)
  hentry c := by
    rw [Pipeline.ownSems0_none]
    have hsplit := Pipeline.arrays_of_unscopedBufs (p := 1) (pcfgs (F := F)) admT (pdats m) launch1.win launch1.arr_whole c
      ((pdats m 1 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]; refine (show (pdats m 1 c).Φ (Fin.last _) ⊢ (Pipeline.ΦA spec1 c : sProp 𝕄) from hout1 (En3 m) c).trans ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdats m) ((pdats m 1 c).share_full fun _ => rfl)
      (En3 m c) (En4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `Bd5`, left at `Bd6`. Its arrays are split
    out of the unscoped buffers and put back at what the pipeline leaves; the generator register goes into the invariant and
    comes back; nothing is owed; the kernel has no semaphore of its own. -/
def reg2 : Pipeline.RegionSeg (pcfgs (F := F)) admT (pdats m) () defs₀ 𝒱r Lr lvr 2 where
  win := launch2.win.to₀
  block_pos := launch2.block_pos
  stage_whole := launch2.stage_whole
  K := PEmpty
  osem k := k.elim
  ho := Pipeline.OwnSemFacts.none _
  hbody c := (body_obligation2 (En5 m) c).loose
  hwaits := Pipeline.hwaits_of_owed_zero _ _ _ _ Lr lvr 2 fun _ _ => rfl
  pre c := iprop(StableHlo.held (c : Thread nD τ) (Pipeline.ucRefs τ sig) (Bd5 m c) ∗ Rr c)
  post c := iprop(StableHlo.held (c : Thread nD τ) (Pipeline.ucRefs τ sig) (Bd6 m c) ∗ Rr c)
  X c := iprop(∃ r, prngReg c r)
  Y c := iprop(∃ r, prngReg c r)
  Z c := Pipeline.unscopedRest (Ix := Unit) (Name := ℕ) (U := UR sig nD τ) (Lvl := ℕ) spec2 c (En5 m c)
  hentry c := by
    rw [Pipeline.ownSems0_none]
    have hsplit := Pipeline.arrays_of_unscopedBufs (p := 2) (pcfgs (F := F)) admT (pdats m) launch2.win launch2.arr_whole c
      ((pdats m 2 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admT (Ix := Unit) (Name := ℕ) (U := UR sig nD τ) (Lvl := ℕ)
      launch2.win launch2.arr_whole c (pdats m) ((pdats m 2 c).share_full fun _ => rfl)
      (En5 m c) (En6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's six segments in order. -/
abbrev segsr : List (Pipeline.Seg (pcfgs (F := F)) admT (pdats m) () defs₀ 𝒱r Lr lvr) :=
  [ .host (hsegr hostOps0 hostOps0_sub hostOps0_fresh (Bd0 m)),
    .region (reg0 m),
    .host (hsegr hostOps1 hostOps1_sub hostOps1_fresh (Bd2 m)),
    .region (reg1 m),
    .host (hsegr hostOps2 hostOps2_sub hostOps2_fresh (Bd4 m)),
    .region (reg2 m) ]
/-- @main is the run of the segments. -/
theorem main_run (c : Dev nD) : main (F := F) c = Pipeline.Seg.run (segsr m) := (main_chain c).trans (by chain_rfl)

set_option backward.isDefEq.respectTransparency.types false in
/-- THE RUN: from any memory with zero counters every weakly fair execution of @main terminates, nothing faulting, and in
    every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Bd6 m c b) :=
  Pipeline.θ_run_regions_kit (pcfgs (F := F)) admT (pdats m) () cellOf_inj emb₁ defs₀ 𝒱r Lr lvr m ρ main (segsr m)
    (fun c Q => by rw [main_run m c])
    (by simp only [segsr, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Bd0 m c) ∗ Rr c)) (Tₙ := Tlast m)
    (hch := ⟨fun _ => .rfl, fun _ => .rfl, fun _ => .rfl, fun _ => .rfl, fun _ => .rfl, fun _ => .rfl, fun c => by
      show iprop(StableHlo.held (c : Thread nD τ) (Pipeline.ucRefs τ sig) (Bd6 m c) ∗ Rr c)
        ⊢ iprop(Tlast m c ∗ ∃ W, owes (c.tc : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach Lr lvr fun c => ?_
      rw [show unscopedBufs c (fun b => m ((c : Thread nD τ).loc b)) = StableHlo.held (c : Thread nD τ) (Pipeline.ucRefs τ sig) (Bd0 m c)
        from Pipeline.unscopedBufs_held c (Bd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Bd6 m c b)
    (hfin := fun c s' => by
      iintro ⟨⟨Hh, -⟩, HSI⟩
      unfold StableHlo.held
      imodintro
      iapply (pointsTo_read_all (Pipeline.ucRefs τ sig) (fun b => (((c : Thread nD τ)).1, b)) (Bd6 m c) s')
      isplitl [Hh] <;> iassumption)
    (hQ := fun s h c => h c)

/-! ## The frame: no stretch and no region writes an argument -/

theorem Bd6_main_arg0 (c : Dev nD) : Bd6 m c (Proc.devRef .tc main_arg0) = m ((c : Thread nD τ).loc main_arg0) :=
  Bd6_launch m c main_arg0 (by decide) (by decide) (by decide) (Bd2_in m c 0 rfl) (by decide) (by decide)
theorem Bd6_main_arg1 (c : Dev nD) : Bd6 m c (Proc.devRef .tc main_arg1) = m ((c : Thread nD τ).loc main_arg1) :=
  Bd6_launch m c main_arg1 (by decide) (by decide) (by decide) (Bd2_of_ne m c main_arg1 (by decide)) (by decide) (by decide)
theorem Bd6_main_arg2 (c : Dev nD) : Bd6 m c (Proc.devRef .tc main_arg2) = m ((c : Thread nD τ).loc main_arg2) :=
  Bd6_launch m c main_arg2 (by decide) (by decide) (by decide) (Bd2_of_ne m c main_arg2 (by decide)) (by decide) (by decide)
theorem Bd6_main_arg3 (c : Dev nD) : Bd6 m c (Proc.devRef .tc main_arg3) = m ((c : Thread nD τ).loc main_arg3) :=
  Bd6_launch m c main_arg3 (by decide) (by decide) (by decide) (Bd2_in m c 1 rfl) (by decide) (by decide)
theorem Bd6_main_arg4 (c : Dev nD) : Bd6 m c (Proc.devRef .tc main_arg4) = m ((c : Thread nD τ).loc main_arg4) :=
  Bd6_launch m c main_arg4 (by decide) (by decide) (by decide) (Bd2_of_ne m c main_arg4 (by decide)) (by decide) (by decide)
theorem Bd6_main_arg5 (c : Dev nD) : Bd6 m c (Proc.devRef .tc main_arg5) = m ((c : Thread nD τ).loc main_arg5) :=
  Bd6_launch m c main_arg5 (by decide) (by decide) (by decide) (Bd2_of_ne m c main_arg5 (by decide)) (by decide) (by decide)
theorem Bd6_main_arg6 (c : Dev nD) : Bd6 m c (Proc.devRef .tc main_arg6) = m ((c : Thread nD τ).loc main_arg6) :=
  Bd6_launch m c main_arg6 (by decide) (by decide) (by decide) (Bd2_of_ne m c main_arg6 (by decide)) (by decide) (by decide)

/-- THE RUN read at the result and at the arguments: the result's buffer ends at the third region's array after its forty
    write-backs, and each argument ends as launched. -/
theorem run_value : θ_run defs (onTc (τ := τ) (main (F := F))) ⟨m, fun _ => 0, ρ⟩ (fun r => ∀ c : Dev nD,
      r.2.mem ((c.tc : Thread nD τ).loc main_v43) = (dat2 (En5 m) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
    (h c _ (mem_uc main_v43 (by decide))).trans (Bd6_arr m c 3),
    (h c _ (mem_uc main_arg0 (by decide))).trans (Bd6_main_arg0 m c),
    (h c _ (mem_uc main_arg1 (by decide))).trans (Bd6_main_arg1 m c),
    (h c _ (mem_uc main_arg2 (by decide))).trans (Bd6_main_arg2 m c),
    (h c _ (mem_uc main_arg3 (by decide))).trans (Bd6_main_arg3 m c),
    (h c _ (mem_uc main_arg4 (by decide))).trans (Bd6_main_arg4 m c),
    (h c _ (mem_uc main_arg5 (by decide))).trans (Bd6_main_arg5 m c),
    (h c _ (mem_uc main_arg6 (by decide))).trans (Bd6_main_arg6 m c)⟩) (run_all m ρ)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_value m ρ)

end Cert.KernelIdeal.Frame

end
-- ==== Proof.KernelIdeal.Glue.lean ====
/-
  What the three host stretches of the kernel's @main leave, read at an entry.  Each is stated for ANY contents `W` of the
  buffers before the stretch, the operands named through hypotheses of literal type:
  the bias reshaped to a row; the second stretch's result (the two row gathers of h at the two index rows, added and
  halved) is the reference's e when h is the reference's h; the third stretch's scale row γ·rsqrt(Q/N − (S/N)² + ε)
  and shift row β − (S/N)·scale from the two rows of sums S and Q.
-/
import proofs.«136777_j53730040873189_1_alg».proof.Proof.Gen.KernelIdeal.Launch
import proofs.«136777_j53730040873189_1_alg».proof.Proof.Gen.ReferenceIdeal.Read
import Idealize.ShloMosaic.Lib.StableHlo.Run
import Idealize.ShloMosaic.Lib.Pipeline.Value
import Idealize.ShloMosaic.Lib.ValueIdx
import Idealize.ShloMosaic.PureOps.Ideal

noncomputable section

namespace Cert.KernelIdeal.Glue

open Cert.KernelIdeal Cert.KernelIdeal.Gen
open Idealize.ShloMosaic Idealize.ShloMosaic.TcCoe Idealize.SL.Sem Idealize.ShloMosaic.StableHlo Idealize.ShloMosaic.ValueIdx

/-- A vector [64] cast to the row [1,64], read at `(0, q)`. -/
theorem row_of_vec {α : Type} (y : S64.Idx → α) (h : S64.ShapeCasts S1x64) (q : Fin 64) :
    shapeCast S1x64 y h (ix2 (0 : Fin 1) q) = y (ix1 q) :=
  shapeCast_apply y h (ix2 (0 : Fin 1) q) (ix1 q)
    (by rewrite [Shape.rowMajor_val_two, Shape.rowMajor_val_one]; show q.val = 0 * 64 + q.val; omega)
/-- A row [1,64] cast to the vector [64], read at `q`. -/
theorem vec_of_row {α : Type} (y : S1x64.Idx → α) (h : S1x64.ShapeCasts S64) (q : Fin 64) :
    shapeCast S64 y h (ix1 q) = y (ix2 (0 : Fin 1) q) :=
  shapeCast_apply y h (ix1 q) (ix2 (0 : Fin 1) q)
    (by rewrite [Shape.rowMajor_val_two, Shape.rowMajor_val_one]; show 0 * 64 + q.val = q.val; omega)

/-! ## The first stretch: the bias as a row -/

theorem v0_eq {F : FTy → Type} [FloatOps F] (W : Valuation τ sig (Elt F)) :
    after (hostOps0 (F := F)) W (main_v0 : DevRef τ sig) = shapeCast S1x64 (W (main_arg4 : DevRef τ sig)) shapeCasts_S64_S1x64 := by
  after_results
  rfl

theorem v0_apply (W : Valuation τ sig (Elt Ideal)) (b : S64.Idx → EReal) (hb : W (main_arg4 : DevRef τ sig) = b)
    (X : S1x64.Idx → EReal) (hX : after (hostOps0 (F := Ideal)) W (main_v0 : DevRef τ sig) = X) (q : Fin 64) :
    X (ix2 (0 : Fin 1) q) = b (ix1 q) := by
  rw [← hX, v0_eq, hb]
  exact row_of_vec b _ q

/-! ## The second stretch: e -/

set_option maxHeartbeats 4000000 in
/-- The second stretch's result when h is the reference's h and the index rows are the reference's: the reference's e. -/
theorem e_eq (W : Valuation τ sig (Elt Ideal)) (x0 : (⟨Cert.ReferenceIdeal.S50000x256, .f32⟩ : BufTy).Contents (Elt Ideal))
    (x1 : (⟨Cert.ReferenceIdeal.S2x800000, .i32⟩ : BufTy).Contents (Elt Ideal)) (x3 : (⟨Cert.ReferenceIdeal.S256x64, .f32⟩ : BufTy).Contents (Elt Ideal))
    (x4 : (⟨Cert.ReferenceIdeal.S64, .f32⟩ : BufTy).Contents (Elt Ideal))
    (hh : W (main_v1 : DevRef τ sig) = Cert.ReferenceIdeal.Read.val_main_v4 (F := Ideal) x0 x3 x4)
    (hi : W (main_arg1 : DevRef τ sig) = x1) :
    after (hostOps1 (F := Ideal)) W (main_v22 : DevRef τ sig) = Cert.ReferenceIdeal.Read.val_main_v25 (F := Ideal) x0 x1 x3 x4 := by
  after_results_simp
  rw [hh, hi]
  rfl

/-! ## The third stretch: scale and shift -/

set_option maxHeartbeats 4000000 in
/-- The scale row as the stretch computes it from the two rows of sums and γ. -/
theorem v41_eq (W : Valuation τ sig (Elt Ideal)) (g : S64.Idx → EReal) (S Q : S1x64.Idx → EReal)
    (hg : W (main_arg5 : DevRef τ sig) = g) (hS : W (main_v23_0 : DevRef τ sig) = S) (hQ : W (main_v23_1 : DevRef τ sig) = Q) :
    after (hostOps2 (F := Ideal)) W (main_v41 : DevRef τ sig)
      = shapeCast S1x64 (shapeCast S64 (mulf (shapeCast S1x64 g shapeCasts_S64_S1x64) (Host.rsqrt (F := Ideal) (addf (subf (Host.divf Q (broadcastInDim S1x64 ![] bcast_S_S1x64 (constant (F := Ideal) S_ .f32 0x49435000#32))) (mulf (Host.divf S (broadcastInDim S1x64 ![] bcast_S_S1x64 (constant (F := Ideal) S_ .f32 0x49435000#32))) (Host.divf S (broadcastInDim S1x64 ![] bcast_S_S1x64 (constant (F := Ideal) S_ .f32 0x49435000#32))))) (broadcastInDim S1x64 ![] bcast_S_S1x64 (constant (F := Ideal) S_ .f32 0x3727C5AC#32))))) shapeCasts_S1x64_S64) shapeCasts_S64_S1x64 := by
  after_results_simp
  rw [hg, hS, hQ]
  rfl

set_option maxHeartbeats 4000000 in
/-- The shift row as the stretch computes it from the two rows of sums, γ and β. -/
theorem v42_eq (W : Valuation τ sig (Elt Ideal)) (g b : S64.Idx → EReal) (S Q : S1x64.Idx → EReal)
    (hg : W (main_arg5 : DevRef τ sig) = g) (hb : W (main_arg6 : DevRef τ sig) = b)
    (hS : W (main_v23_0 : DevRef τ sig) = S) (hQ : W (main_v23_1 : DevRef τ sig) = Q) :
    after (hostOps2 (F := Ideal)) W (main_v42 : DevRef τ sig)
      = shapeCast S1x64 (shapeCast S64 (subf (shapeCast S1x64 b shapeCasts_S64_S1x64)
          (mulf (Host.divf S (broadcastInDim S1x64 ![] bcast_S_S1x64 (constant (F := Ideal) S_ .f32 0x49435000#32))) (shapeCast S1x64 (shapeCast S64 (mulf (shapeCast S1x64 g shapeCasts_S64_S1x64) (Host.rsqrt (F := Ideal) (addf (subf (Host.divf Q (broadcastInDim S1x64 ![] bcast_S_S1x64 (constant (F := Ideal) S_ .f32 0x49435000#32))) (mulf (Host.divf S (broadcastInDim S1x64 ![] bcast_S_S1x64 (constant (F := Ideal) S_ .f32 0x49435000#32))) (Host.divf S (broadcastInDim S1x64 ![] bcast_S_S1x64 (constant (F := Ideal) S_ .f32 0x49435000#32))))) (broadcastInDim S1x64 ![] bcast_S_S1x64 (constant (F := Ideal) S_ .f32 0x3727C5AC#32))))) shapeCasts_S1x64_S64) shapeCasts_S64_S1x64))) shapeCasts_S1x64_S64) shapeCasts_S64_S1x64 := by
  after_results_simp
  rw [hg, hb, hS, hQ]
  rfl

/-- The scale row at `(0, q)`: γ · rsqrt (Q/N − (S/N)·(S/N) + ε). -/
theorem scale_apply (W : Valuation τ sig (Elt Ideal)) (g : S64.Idx → EReal) (S Q : S1x64.Idx → EReal)
    (hg : W (main_arg5 : DevRef τ sig) = g) (hS : W (main_v23_0 : DevRef τ sig) = S) (hQ : W (main_v23_1 : DevRef τ sig) = Q)
    (X : S1x64.Idx → EReal) (hX : after (hostOps2 (F := Ideal)) W (main_v41 : DevRef τ sig) = X) (q : Fin 64) :
    X (ix2 (0 : Fin 1) q) = g (ix1 q) * Ideal.rsqrt ((Ideal.div (Q (ix2 (0 : Fin 1) q)) (Ideal.ofBits .f32 0x49435000#32) - Ideal.div (S (ix2 (0 : Fin 1) q)) (Ideal.ofBits .f32 0x49435000#32) * Ideal.div (S (ix2 (0 : Fin 1) q)) (Ideal.ofBits .f32 0x49435000#32)) + Ideal.ofBits .f32 0x3727C5AC#32) := by
  rw [← hX, v41_eq W g S Q hg hS hQ]
  simp only [row_of_vec, vec_of_row, mulf, addf, subf, Host.rsqrt, Host.divf, broadcastInDim, constant, Ideal.mulf_def, Ideal.addf_def, Ideal.subf_def, Ideal.hostUnary_rsqrt_def, Ideal.hostDivf_def, Ideal.ofBits_def]

/-- The shift row at `(0, q)`: β − (S/N) · scale. -/
theorem shift_apply (W : Valuation τ sig (Elt Ideal)) (g b : S64.Idx → EReal) (S Q : S1x64.Idx → EReal)
    (hg : W (main_arg5 : DevRef τ sig) = g) (hb : W (main_arg6 : DevRef τ sig) = b)
    (hS : W (main_v23_0 : DevRef τ sig) = S) (hQ : W (main_v23_1 : DevRef τ sig) = Q)
    (X : S1x64.Idx → EReal) (hX : after (hostOps2 (F := Ideal)) W (main_v42 : DevRef τ sig) = X) (q : Fin 64) :
    X (ix2 (0 : Fin 1) q) = b (ix1 q) - Ideal.div (S (ix2 (0 : Fin 1) q)) (Ideal.ofBits .f32 0x49435000#32) * (g (ix1 q) * Ideal.rsqrt ((Ideal.div (Q (ix2 (0 : Fin 1) q)) (Ideal.ofBits .f32 0x49435000#32) - Ideal.div (S (ix2 (0 : Fin 1) q)) (Ideal.ofBits .f32 0x49435000#32) * Ideal.div (S (ix2 (0 : Fin 1) q)) (Ideal.ofBits .f32 0x49435000#32)) + Ideal.ofBits .f32 0x3727C5AC#32)) := by
  rw [← hX, v42_eq W g b S Q hg hb hS hQ]
  simp only [row_of_vec, vec_of_row, mulf, addf, subf, Host.rsqrt, Host.divf, broadcastInDim, constant, Ideal.mulf_def, Ideal.addf_def, Ideal.subf_def, Ideal.hostUnary_rsqrt_def, Ideal.hostDivf_def, Ideal.ofBits_def]

end Cert.KernelIdeal.Glue

end
-- ==== Proof.KernelIdeal.KVal0.lean ====
/-
  The first region's output array, entry by entry.  Each of the ten grid points takes 5000 rows of x, the whole weight
  matrix W and the bias row b, and writes the block  max (x · W + b) 0  of 5000 rows; the blocks tile the 50000 rows, so
  the array ends at  h[p, q] = max (Σ_k x[p, k] · W[k, q] + b[0, q]) 0  for every row p and column q.  At the ideal values
  the narrowing to bf16 before the product is the identity and the product into the zero accumulator is the plain sum
  over the contracted axis.
-/
import proofs.«136777_j53730040873189_1_alg».proof.Proof.KernelIdeal.R0
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx Cert.KernelIdeal Cert.KernelIdeal.Gen Cert.KernelIdeal.Frame
open Idealize.ShloMosaic.TcCoe Idealize.SL.Sem
open Idealize.ShloMosaic.Pipeline (Dat)

/-! ## One block: the body's store at an index -/

/-- The product's left operand is read at the output's row … -/
theorem mmL_0 (i : S5000x64.Idx) (q : dot_S5000x256_S256x64_S5000x64_1_0_0_1_n_n.contr.Idx) :
    (dot_S5000x256_S256x64_S5000x64_1_0_0_1_n_n.lhsIdx i q 0).val = (i 0).val := by
  unfold DotDims.lhsIdx
  rw [dif_neg (show ¬(0 : Fin S5000x256.rank) ∈ dot_S5000x256_S256x64_S5000x64_1_0_0_1_n_n.lhsBatch by decide), dif_pos (show (0 : Fin S5000x256.rank) ∈ dot_S5000x256_S256x64_S5000x64_1_0_0_1_n_n.lhsNonContracting by decide)]
  rfl
/-- … and at the contracted coordinate in its column; -/
theorem mmL_1 (i : S5000x64.Idx) (q : dot_S5000x256_S256x64_S5000x64_1_0_0_1_n_n.contr.Idx) :
    (dot_S5000x256_S256x64_S5000x64_1_0_0_1_n_n.lhsIdx i q 1).val = (q ⟨0, by decide⟩).val :=
  dot_S5000x256_S256x64_S5000x64_1_0_0_1_n_n.lhsIdx_val_of_single rfl i q
/-- the right operand at the contracted coordinate in its row … -/
theorem mmR_0 (i : S5000x64.Idx) (q : dot_S5000x256_S256x64_S5000x64_1_0_0_1_n_n.contr.Idx) :
    (dot_S5000x256_S256x64_S5000x64_1_0_0_1_n_n.rhsIdx i q 0).val = (q ⟨0, by decide⟩).val :=
  dot_S5000x256_S256x64_S5000x64_1_0_0_1_n_n.rhsIdx_val_of_single rfl i q
/-- … and at the output's column. -/
theorem mmR_1 (i : S5000x64.Idx) (q : dot_S5000x256_S256x64_S5000x64_1_0_0_1_n_n.contr.Idx) :
    (dot_S5000x256_S256x64_S5000x64_1_0_0_1_n_n.rhsIdx i q 1).val = (i 1).val := by
  unfold DotDims.rhsIdx
  rw [dif_neg (show ¬(1 : Fin S256x64.rank) ∈ dot_S5000x256_S256x64_S5000x64_1_0_0_1_n_n.rhsBatch by decide), dif_pos (show (1 : Fin S256x64.rank) ∈ dot_S5000x256_S256x64_S5000x64_1_0_0_1_n_n.rhsNonContracting by decide)]
  rfl

/-- The [5000,256] × [256,64] product into the zero accumulator, at row `p` and column `q`: the sum over the 256
    contracted coordinates of the operands' products. -/
theorem mm_zero_apply (a : FVec Ideal S5000x256 .bf16) (b : FVec Ideal S256x64 .bf16) (p : Fin 5000) (q : Fin 64) :
    (matmul dot_S5000x256_S256x64_S5000x64_1_0_0_1_n_n none a b (constant (F := Ideal) S5000x64 .f32 0x00000000#32) : S5000x64.Idx → EReal) (ix2 p q)
      = ∑ k : Fin 256, (a : S5000x256.Idx → EReal) (ix2 p k) * (b : S256x64.Idx → EReal) (ix2 k q) := by
  simp only [matmul]
  rw [Ideal.matmul_constant_zero_apply, ← Equiv.sum_comp (contrEquiv1 dot_S5000x256_S256x64_S5000x64_1_0_0_1_n_n 256 rfl rfl).symm]
  refine Finset.sum_congr rfl fun k _ => ?_
  have hk := contrEquiv1_symm_val dot_S5000x256_S256x64_S5000x64_1_0_0_1_n_n 256 rfl rfl k
  have el : dot_S5000x256_S256x64_S5000x64_1_0_0_1_n_n.lhsIdx (ix2 p q) ((contrEquiv1 dot_S5000x256_S256x64_S5000x64_1_0_0_1_n_n 256 rfl rfl).symm k) = ix2 p k := funext fun d => Fin.ext (by
    match d with
    | ⟨0, _⟩ => exact mmL_0 _ _
    | ⟨1, _⟩ => exact (mmL_1 _ _).trans hk)
  have er : dot_S5000x256_S256x64_S5000x64_1_0_0_1_n_n.rhsIdx (ix2 p q) ((contrEquiv1 dot_S5000x256_S256x64_S5000x64_1_0_0_1_n_n 256 rfl rfl).symm k) = ix2 k q := funext fun d => Fin.ext (by
    match d with
    | ⟨0, _⟩ => exact (mmR_0 _ _).trans hk
    | ⟨1, _⟩ => exact mmR_1 _ _)
  rw [el, er]

/-- The bias row repeated down the 5000 rows: every row reads the one row of the operand. -/
theorem bias_row_apply (x2 : Vec Ideal S1x64 .f32) (p : Fin 5000) (q : Fin 64) :
    (broadcastTo S5000x64 x2 broadcasts_S1x64_S5000x64 : S5000x64.Idx → EReal) (ix2 p q) = (x2 : S1x64.Idx → EReal) (ix2 (0 : Fin 1) q) := by
  refine broadcastTo_apply _ broadcasts_S1x64_S5000x64 (ix2 p q) (ix2 (0 : Fin 1) q) (fun d => ?_)
  match d with
  | ⟨0, _⟩ => show (0 : Nat) = if (1 : Nat) = 1 then 0 else _; rw [if_pos rfl]
  | ⟨1, _⟩ => show q.val = if (64 : Nat) = 1 then 0 else q.val; rw [if_neg (by decide)]

/-- What the body stores, at row `p` and column `q` of the block: the row of `x0` against the column of `x1`, plus
    the bias at that column, clamped below at zero. -/
theorem pay0_apply (x0 : Vec Ideal S5000x256 .f32) (x1 : Vec Ideal S256x64 .f32) (x2 : Vec Ideal S1x64 .f32) (p : Fin 5000) (q : Fin 64) :
    (k0_pay1 (F := Ideal) x0 x1 x2 : S5000x64.Idx → EReal) (ix2 p q)
      = max ((∑ k : Fin 256, (x0 : S5000x256.Idx → EReal) (ix2 p k) * (x1 : S256x64.Idx → EReal) (ix2 k q)) + (x2 : S1x64.Idx → EReal) (ix2 (0 : Fin 1) q)) 0 := by
  unfold k0_pay1
  rw [maximumf_apply, addf_apply, broadcast_apply, mm_zero_apply, shapeCast_self, bias_row_apply]
  show max _ (Ideal.ofBits .f32 0x00000000#32) = _
  rw [Ideal.ofBits_zero_f32]
  rfl

/-! ## From the blocks to the array -/

section Array
variable (V : (c : Dev nD) → (b : Ref sig .tc) → Buf (Elt Ideal) ((c : Thread nD τ).loc b))

theorem zeros2 : (![0, 0] : Fin 2 → Nat) = fun _ => 0 := funext fun a => by fin_cases a <;> rfl

/-- The clamped affine map of a [50000,256] array `A`, a [256,64] matrix `W` and a [1,64] row `b`, entry by entry. -/
def reluAffine (A : S50000x256.Idx → EReal) (W : S256x64.Idx → EReal) (b : S1x64.Idx → EReal) : S50000x64.Idx → EReal :=
  fun i => max ((∑ k : Fin 256, A (ix2 (n0 := 50000) (i 0) k) * W (ix2 (n1 := 64) k (i 1))) + b (ix2 (n1 := 64) (0 : Fin 1) (i 1))) 0

theorem reluAffine_apply (A : S50000x256.Idx → EReal) (W : S256x64.Idx → EReal) (b : S1x64.Idx → EReal) (p : Fin 50000) (q : Fin 64) :
    reluAffine A W b (ix2 p q) = max ((∑ k : Fin 256, A (ix2 p k) * W (ix2 k q)) + b (ix2 (0 : Fin 1) q)) 0 := rfl

/-- The block indices over the grid: at point `t` the rows of x and of the output are block `t`; the matrix and the
    bias row are always their one block. -/
theorem blockIdx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the block of x at point `t` is row `5000 t + p` of x. -/
theorem xblk_apply (c : Dev nD) (t : Fin cfg0.N) (p : Fin 5000) (k : Fin 256) (r : Fin 50000) (hr : r.val = 5000 * t.val + p.val) :
    (iblk0 V c 0 t : S5000x256.Idx → EReal) (ix2 p k) = (V c main_arg0 : S50000x256.Idx → EReal) (ix2 r k) := by
  obtain ⟨e0, e1, -⟩ := blockIdx0 t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- The matrix's block at any point is the matrix. -/
theorem wblk_apply (c : Dev nD) (t : Fin cfg0.N) (k : Fin 256) (q : Fin 64) :
    (iblk0 V c 1 t : S256x64.Idx → EReal) (ix2 k q) = (V c main_arg3 : S256x64.Idx → EReal) (ix2 k q) := by
  obtain ⟨-, -, e0, e1, -⟩ := blockIdx0 t
  unfold iblk0
  rw [View.read_apply]
  show V c main_arg3 _ = V c main_arg3 _
  congr 1
  funext a
  apply Fin.ext
  match a with
  | ⟨0, _⟩ => show win0_1.index t (0 : Fin 2) * 256 + 1 * k.val = k.val; rw [e0]; omega
  | ⟨1, _⟩ => show win0_1.index t (1 : Fin 2) * 64 + 1 * q.val = q.val; rw [e1]; omega

/-- The bias row's block at any point is the bias row. -/
theorem bblk_apply (c : Dev nD) (t : Fin cfg0.N) (z : Fin 1) (q : Fin 64) :
    (iblk0 V c 2 t : S1x64.Idx → EReal) (ix2 z q) = (V c main_v0 : S1x64.Idx → EReal) (ix2 z q) := by
  obtain ⟨-, -, -, -, e0, e1, -⟩ := blockIdx0 t
  unfold iblk0
  rw [View.read_apply]
  show V c main_v0 _ = V c main_v0 _
  congr 1
  funext a
  apply Fin.ext
  match a with
  | ⟨0, _⟩ => show win0_2.index t (0 : Fin 2) * 1 + 1 * z.val = z.val; rw [e0]; omega
  | ⟨1, _⟩ => show win0_2.index t (1 : Fin 2) * 64 + 1 * q.val = q.val; rw [e1]; omega

/-- What point `t` writes back is block `t` of the clamped affine map of the arrays the region is entered from. -/
theorem flushed0_3_eq (c : Dev nD) (t : Fin cfg0.N) :
    (dat0 (F := Ideal) V c).flushed 3 t
      = ((cfg0.win 3).blk t).view.read (Elt Ideal) (reluAffine (V c main_arg0) (V c main_arg3) (V c main_v0)) := by
  show (cfg0.win 3).cut (grid0.coords t) ((dat0 V c).after 3 t) = _
  rw [after0_3]
  unfold out0_3
  rw [View.canon_unit_zero zeros2]
  simp only [View.ld_unit_zero (S := S5000x256) zeros2, View.ld_unit_zero (S := S256x64) zeros2, View.ld_unit_zero (S := S1x64) zeros2]
  funext j
  obtain ⟨p, q, rfl⟩ : ∃ (p : Fin 5000) (q : Fin 64), j = ix2 p q := ⟨j 0, j 1, eq_ix2 j⟩
  obtain ⟨-, -, -, -, -, -, e0, e1⟩ := blockIdx0 t
  rw [View.read_apply]
  show (k0_pay1 (F := Ideal) (iblk0 V c 0 t) (iblk0 V c 1 t) (iblk0 V c 2 t) : S5000x64.Idx → EReal) (ix2 p q)
    = reluAffine (V c main_arg0) (V c main_arg3) (V c main_v0) (((cfg0.win 3).blk t).view.emb (ix2 p q))
  have h0 : ((((cfg0.win 3).blk t).view.emb (ix2 p q)) 0).val = 5000 * t.val + p.val := by
    show win0_3.index t (0 : Fin 2) * 5000 + 1 * p.val = _
    rw [e0]; omega
  have h1 : (((cfg0.win 3).blk t).view.emb (ix2 p q)) 1 = q := Fin.ext (by
    show win0_3.index t (1 : Fin 2) * 64 + 1 * q.val = q.val
    rw [e1]; omega)
  rw [pay0_apply]
  unfold reluAffine
  rw [h1]
  congr 1
  congr 1
  · refine Finset.sum_congr rfl fun k _ => ?_
    rw [xblk_apply V c t p k _ h0, wblk_apply]
  · rw [bblk_apply]

/-- An index of the output array lies in point `t`'s block iff each coordinate lies in the block's range on its axis. -/
theorem mem_oblk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v1).slice (win0_3.rect t)).set ↔ _
  rw [View.set_slice_whole, Rect.mem_set_unit]
  exact Iff.rfl

/-- Row `r` is written back by point `r / 5000`: the ten blocks tile the array. -/
theorem rows_covered (i : S50000x64.Idx) : ∃ t : Fin cfg0.N, (cfg0.win 3).flush t = true ∧ i ∈ ((cfg0.win 3).blk t).view.set := by
  have h0 : (i 0).val < 50000 := (i 0).isLt
  have h1 : (i 1).val < 64 := (i 1).isLt
  have hN : cfg0.N = 10 := N_0
  refine ⟨⟨(i 0).val / 5000, by rw [hN]; omega⟩, flush0_3 _, ?_⟩
  rw [mem_oblk]
  obtain ⟨-, -, -, -, -, -, e0, e1⟩ := blockIdx0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 64 ≤ (i 1).val ∧ (i 1).val < win0_3.index _ (1 : Fin 2) * 64 + 64
    rw [e1]; omega

/-- The output array after the region: the clamped affine map of the arrays the region is entered from. -/
theorem arr0_eq (c : Dev nD) :
    (dat0 (F := Ideal) V c).arrAt 3 cfg0.N = reluAffine (V c main_arg0) (V c main_arg3) (V c main_v0) :=
  (dat0 (F := Ideal) V c).arrAt_eq_of_cover 3 (reluAffine (V c main_arg0) (V c main_arg3) (V c main_v0))
    (fun t _ => flushed0_3_eq V c t) rows_covered

/-- The same at row `p` and column `q`:  max (Σ_k x[p, k] · W[k, q] + b[0, q]) 0. -/
theorem arr0_apply (c : Dev nD) (p : Fin 50000) (q : Fin 64) :
    ((dat0 (F := Ideal) V c).arrAt 3 cfg0.N : S50000x64.Idx → EReal) (ix2 p q)
      = max (@HAdd.hAdd EReal EReal EReal _
              (∑ k : Fin 256, @HMul.hMul EReal EReal EReal _ (V c main_arg0 (ix2 p k)) (V c main_arg3 (ix2 k q)))
              (V c main_v0 (ix2 (0 : Fin 1) q))) 0 := by
  rw [arr0_eq]
  rfl

end Array

end Cert.KernelIdeal.Val

end
-- ==== Proof.KernelIdeal.KVal1.lean ====
/-
  What the second region leaves: its two result rows are the column sums of the array it is entered from and of that
  array's entrywise square.
-/
import proofs.«136777_j53730040873189_1_alg».proof.Proof.KernelIdeal.R1
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws
import Mathlib.Algebra.BigOperators.Fin
import Mathlib.Algebra.BigOperators.Intervals

set_option maxRecDepth 16384

noncomputable section

namespace Cert.KernelIdeal.Val

open Idealize.ShloMosaic Idealize.ShloMosaic.ValueIdx Cert.KernelIdeal Cert.KernelIdeal.Gen Cert.KernelIdeal.Frame
open Idealize.ShloMosaic.TcCoe
open Idealize.ShloMosaic.Pipeline (Dat)

/-! ## One grid point's arithmetic, at a column -/

/-- Summing over the rows: the reduced index with the row put back. -/
theorem lift_eq (j : Fin 64) (k : Fin 20000) : reduces_S20000x64_S64.lift (ix1 j) k = ix2 k j := by
  funext a; match a with | ⟨0, _⟩ => rfl | ⟨1, _⟩ => rfl

/-- One step of the first scratch row, at a column: what it held plus the block's column sum. -/
theorem pay4_apply (x : Vec Ideal S20000x64 .f32) (s : Vec Ideal S1x64 .f32) (q : Fin 64) :
    (k1_pay4 x s : S1x64.Idx → EReal) (ix2 (0 : Fin 1) q)
      = (s : S1x64.Idx → EReal) (ix2 (0 : Fin 1) q) + ∑ p : Fin 20000, (x : S20000x64.Idx → EReal) (ix2 p q) := by
  unfold k1_pay4 k1_pay3
  refine (congrFun (shapeCast_self _ _) _).trans ?_
  refine (addf_apply _ _ _).trans ?_
  refine congrArg (fun z => (s : S1x64.Idx → EReal) (ix2 (0 : Fin 1) q) + z) ?_
  refine (shapeCast_a_1a_apply _ _ 0 q).trans ?_
  refine (Ideal.multiReduction_add_single _ _ _ _ _ (ix1 q)).trans ?_
  exact Finset.sum_congr rfl fun p _ => (congrFun (shapeCast_self x _) _).trans (congrArg x (lift_eq q p))

/-- One step of the second scratch row, at a column: what it held plus the block's column sum of squares. -/
theorem pay5_apply (x : Vec Ideal S20000x64 .f32) (s : Vec Ideal S1x64 .f32) (q : Fin 64) :
    (k1_pay5 x s : S1x64.Idx → EReal) (ix2 (0 : Fin 1) q)
      = (s : S1x64.Idx → EReal) (ix2 (0 : Fin 1) q)
        + ∑ p : Fin 20000, (x : S20000x64.Idx → EReal) (ix2 p q) * (x : S20000x64.Idx → EReal) (ix2 p q) := by
  unfold k1_pay5 k1_pay3
  refine (congrFun (shapeCast_self _ _) _).trans ?_
  refine (addf_apply _ _ _).trans ?_
  refine congrArg (fun z => (s : S1x64.Idx → EReal) (ix2 (0 : Fin 1) q) + z) ?_
  refine (shapeCast_a_1a_apply _ _ 0 q).trans ?_
  refine (Ideal.multiReduction_add_single _ _ _ _ _ (ix1 q)).trans ?_
  refine Finset.sum_congr rfl fun p _ => ?_
  refine (mulf_apply _ _ _).trans ?_
  have e : (shapeCast S20000x64 x shapeCasts_S20000x64_S20000x64 : S20000x64.Idx → EReal) (reduces_S20000x64_S64.lift (ix1 q) p)
      = (x : S20000x64.Idx → EReal) (ix2 p q) :=
    (congrFun (shapeCast_self x _) _).trans (congrArg x (lift_eq q p))
  exact congrArg₂ (· * ·) e e

/-- The rows the first point stores are zero. -/
theorem pay1_apply (q : Fin 64) : (k1_pay1 (F := Ideal) : S1x64.Idx → EReal) (ix2 (0 : Fin 1) q) = 0 := by
  unfold k1_pay1
  refine (congrFun (shapeCast_self _ _) _).trans ?_
  exact Ideal.ofBits_zero_f32
theorem pay2_apply (q : Fin 64) : (k1_pay2 (F := Ideal) : S1x64.Idx → EReal) (ix2 (0 : Fin 1) q) = 0 := by
  unfold k1_pay2
  refine (congrFun (shapeCast_self _ _) _).trans ?_
  exact Ideal.ofBits_zero_f32

section Region1
variable (V : (c : Dev nD) → (b : Ref sig .tc) → Buf (Elt Ideal) ((c : Thread nD τ).loc b))

/-- The array the region is entered from, and the two result rows it leaves, as functions on their literal index types. -/
abbrev arrIn (c : Dev nD) : S800000x64.Idx → EReal := V c main_v22
abbrev sumOut (c : Dev nD) : S1x64.Idx → EReal := (dat1 (F := Ideal) V c).arrAt 1 cfg1.N
abbrev sqOut (c : Dev nD) : S1x64.Idx → EReal := (dat1 (F := Ideal) V c).arrAt 2 cfg1.N

/-! ## The result rows are the scratch rows after the fortieth point -/

/-- The last grid point, the only one that writes the result rows back. -/
abbrev tLast : Fin cfg1.N := ⟨39, by rw [show cfg1.N = 40 from N_1]; decide⟩

/-- What the last point writes back into the first result row is the first scratch row after all forty points:
    the row's one block is the whole row. -/
theorem flushed1_eq (c : Dev nD) (t : Fin cfg1.N) (hf : (cfg1.win 1).flush t = true) :
    (dat1 (F := Ideal) V c).flushed 1 t = ((cfg1.win 1).blk t).view.read (Elt Ideal) (sumAt V c 40) := by
  have hN : cfg1.N = 40 := N_1
  have h3 : t.val = 39 := by have := (flush1_1 t).mp hf; have := t.isLt; omega
  obtain rfl : t = tLast := Fin.ext h3
  show (cfg1.win 1).cut (grid1.coords tLast) ((dat1 (F := Ideal) V c).after 1 tLast) = _
  rw [after1_1]
  have hz' : (fun a => win1_1.index tLast a * main_v23_0.ty.shape.size a) = fun _ => 0 := funext fun a => by fin_cases a <;> decide
  exact (Memref.read_access_unit_zero (Elt Ideal) main_v23_0 hz' (fun a => by rw [congrFun hz' a]; simp) (sumAt V c 40)).symm

/-- The same for the second result row. -/
theorem flushed2_eq (c : Dev nD) (t : Fin cfg1.N) (hf : (cfg1.win 2).flush t = true) :
    (dat1 (F := Ideal) V c).flushed 2 t = ((cfg1.win 2).blk t).view.read (Elt Ideal) (sqAt V c 40) := by
  have hN : cfg1.N = 40 := N_1
  have h3 : t.val = 39 := by have := (flush1_2 t).mp hf; have := t.isLt; omega
  obtain rfl : t = tLast := Fin.ext h3
  show (cfg1.win 2).cut (grid1.coords tLast) ((dat1 (F := Ideal) V c).after 2 tLast) = _
  rw [after1_2]
  have hz' : (fun a => win1_2.index tLast a * main_v23_1.ty.shape.size a) = fun _ => 0 := funext fun a => by fin_cases a <;> decide
  exact (Memref.read_access_unit_zero (Elt Ideal) main_v23_1 hz' (fun a => by rw [congrFun hz' a]; simp) (sqAt V c 40)).symm

/-- So the first result row ends holding the first scratch row after the fortieth point: the last point's block covers it. -/
theorem final1 (c : Dev nD) : (dat1 (F := Ideal) V c).arrAt 1 cfg1.N = sumAt V c 40 :=
  (dat1 (F := Ideal) V c).arrAt_eq_of_cover 1 (sumAt V c 40) (flushed1_eq V c) fun i =>
    ⟨tLast, (flush1_1 tLast).mpr rfl, by
      show i ∈ ((View.whole main_v23_0).slice (win1_1.rect tLast)).set
      rw [View.set_slice_whole, Rect.mem_set_unit]
      intro a
      have h0 : (i 0 : Nat) < 1 := (i 0).isLt
      have h1 : (i 1 : Nat) < 64 := (i 1).isLt
      match a with
      | ⟨0, _⟩ => show win1_1.index tLast 0 * win1_1.size 0 ≤ (i 0 : Nat) ∧ (i 0 : Nat) < win1_1.index tLast 0 * win1_1.size 0 + win1_1.xsize (grid1.coords tLast) 0
                  rw [show win1_1.index tLast 0 * win1_1.size 0 = 0 from by decide +kernel, show win1_1.xsize (grid1.coords tLast) 0 = 1 from by decide +kernel]; omega
      | ⟨1, _⟩ => show win1_1.index tLast 1 * win1_1.size 1 ≤ (i 1 : Nat) ∧ (i 1 : Nat) < win1_1.index tLast 1 * win1_1.size 1 + win1_1.xsize (grid1.coords tLast) 1
                  rw [show win1_1.index tLast 1 * win1_1.size 1 = 0 from by decide +kernel, show win1_1.xsize (grid1.coords tLast) 1 = 64 from by decide +kernel]; omega⟩

/-- and the second the second scratch row. -/
theorem final2 (c : Dev nD) : (dat1 (F := Ideal) V c).arrAt 2 cfg1.N = sqAt V c 40 :=
  (dat1 (F := Ideal) V c).arrAt_eq_of_cover 2 (sqAt V c 40) (flushed2_eq V c) fun i =>
    ⟨tLast, (flush1_2 tLast).mpr rfl, by
      show i ∈ ((View.whole main_v23_1).slice (win1_2.rect tLast)).set
      rw [View.set_slice_whole, Rect.mem_set_unit]
      intro a
      have h0 : (i 0 : Nat) < 1 := (i 0).isLt
      have h1 : (i 1 : Nat) < 64 := (i 1).isLt
      match a with
      | ⟨0, _⟩ => show win1_2.index tLast 0 * win1_2.size 0 ≤ (i 0 : Nat) ∧ (i 0 : Nat) < win1_2.index tLast 0 * win1_2.size 0 + win1_2.xsize (grid1.coords tLast) 0
                  rw [show win1_2.index tLast 0 * win1_2.size 0 = 0 from by decide +kernel, show win1_2.xsize (grid1.coords tLast) 0 = 1 from by decide +kernel]; omega
      | ⟨1, _⟩ => show win1_2.index tLast 1 * win1_2.size 1 ≤ (i 1 : Nat) ∧ (i 1 : Nat) < win1_2.index tLast 1 * win1_2.size 1 + win1_2.xsize (grid1.coords tLast) 1
                  rw [show win1_2.index tLast 1 * win1_2.size 1 = 0 from by decide +kernel, show win1_2.xsize (grid1.coords tLast) 1 = 64 from by decide +kernel]; omega⟩

/-! ## A block of the entry array, at an entry -/

/-- Block `t` of the input window starts at row block `t`, column block 0. -/
theorem idx_facts : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- Row `p` of block `t` is row `20000 t + p` of the array. -/
theorem blk_apply (c : Dev nD) (t : Fin cfg1.N) (p : Fin 20000) (q : Fin 64) (h : 20000 * t.val + p.val < 800000) :
    (iblk1 V c 0 t : S20000x64.Idx → EReal) (ix2 p q)
      = arrIn V c (ix2 (⟨20000 * t.val + p.val, h⟩ : Fin 800000) q) := by
  unfold iblk1
  rw [View.read_apply]
  show V c main_v22 _ = V c main_v22 _
  congr 1
  funext a
  apply Fin.ext
  match a with
  | ⟨0, _⟩ => show win1_0.index t 0 * 20000 + 1 * p.val = 20000 * t.val + p.val; rw [(idx_facts t).1]; omega
  | ⟨1, _⟩ => show win1_0.index t 1 * 64 + 1 * q.val = q.val; rw [(idx_facts t).2]; omega

/-! ## The running sums are partial column sums -/

/-- Column `q` of the entry array at a natural row: zero past the last row. -/
def rowAt (c : Dev nD) (q : Fin 64) (r : ℕ) : EReal :=
  if h : r < 800000 then arrIn V c (ix2 (⟨r, h⟩ : Fin 800000) q) else 0

/-- After the points below `n` the first scratch row holds, at column `q`, the sum of that column over the first
    `20000 n` rows: by induction on the point, one block's column sum added at a time. -/
theorem sumAt_apply (c : Dev nD) (q : Fin 64) : ∀ n : ℕ, n ≤ 40 →
    (sumAt V c n : S1x64.Idx → EReal) (ix2 (0 : Fin 1) q) = ∑ r ∈ Finset.range (20000 * n), rowAt V c q r
  | 0, _ => by
    rw [Nat.mul_zero, Finset.range_zero, Finset.sum_empty]
    exact pay1_apply q
  | n + 1, hn => by
    have hN : n < cfg1.N := by rw [show cfg1.N = 40 from N_1]; omega
    refine (congrFun (sumAt_succ V c ⟨n, hN⟩ : sumAt V c (n + 1) = k1_pay4 (iblk1 V c 0 ⟨n, hN⟩) (sumAt V c n)) (ix2 (0 : Fin 1) q)).trans ?_
    refine (pay4_apply (iblk1 V c 0 ⟨n, hN⟩) (sumAt V c n) q).trans ?_
    rw [sumAt_apply c q n (by omega), show 20000 * (n + 1) = 20000 * n + 20000 from by omega, Finset.sum_range_add]
    refine congrArg (fun z => (∑ r ∈ Finset.range (20000 * n), rowAt V c q r) + z) ?_
    rw [← Fin.sum_univ_eq_sum_range (fun x => rowAt V c q (20000 * n + x)) 20000]
    refine Finset.sum_congr rfl fun p _ => ?_
    have hp : 20000 * n + p.val < 800000 := by have := p.isLt; omega
    rw [blk_apply V c ⟨n, hN⟩ p q hp]
    unfold rowAt
    rw [dif_pos hp]

/-- Likewise the second scratch row holds the sum of the column's squares. -/
theorem sqAt_apply (c : Dev nD) (q : Fin 64) : ∀ n : ℕ, n ≤ 40 →
    (sqAt V c n : S1x64.Idx → EReal) (ix2 (0 : Fin 1) q) = ∑ r ∈ Finset.range (20000 * n), rowAt V c q r * rowAt V c q r
  | 0, _ => by
    rw [Nat.mul_zero, Finset.range_zero, Finset.sum_empty]
    exact pay2_apply q
  | n + 1, hn => by
    have hN : n < cfg1.N := by rw [show cfg1.N = 40 from N_1]; omega
    refine (congrFun (sqAt_succ V c ⟨n, hN⟩ : sqAt V c (n + 1) = k1_pay5 (iblk1 V c 0 ⟨n, hN⟩) (sqAt V c n)) (ix2 (0 : Fin 1) q)).trans ?_
    refine (pay5_apply (iblk1 V c 0 ⟨n, hN⟩) (sqAt V c n) q).trans ?_
    rw [sqAt_apply c q n (by omega), show 20000 * (n + 1) = 20000 * n + 20000 from by omega, Finset.sum_range_add]
    refine congrArg (fun z => (∑ r ∈ Finset.range (20000 * n), rowAt V c q r * rowAt V c q r) + z) ?_
    rw [← Fin.sum_univ_eq_sum_range (fun x => rowAt V c q (20000 * n + x) * rowAt V c q (20000 * n + x)) 20000]
    refine Finset.sum_congr rfl fun p _ => ?_
    have hp : 20000 * n + p.val < 800000 := by have := p.isLt; omega
    rw [blk_apply V c ⟨n, hN⟩ p q hp]
    unfold rowAt
    rw [dif_pos hp]

/-! ## The two result rows -/

/-- The first result row is the column sums of the entry array. -/
theorem sum_apply (c : Dev nD) (q : Fin 64) :
    sumOut V c (ix2 (0 : Fin 1) q) = ∑ r : Fin 800000, arrIn V c (ix2 r q) := by
  refine (congrFun (final1 V c) (ix2 (0 : Fin 1) q)).trans ?_
  refine (sumAt_apply V c q 40 le_rfl).trans ?_
  rw [show 20000 * 40 = 800000 from by norm_num, ← Fin.sum_univ_eq_sum_range (fun r => rowAt V c q r) 800000]
  refine Finset.sum_congr rfl fun r _ => ?_
  unfold rowAt
  rw [dif_pos r.isLt]

/-- The second result row is the column sums of its entrywise square. -/
theorem sq_apply (c : Dev nD) (q : Fin 64) :
    sqOut V c (ix2 (0 : Fin 1) q) = ∑ r : Fin 800000, arrIn V c (ix2 r q) * arrIn V c (ix2 r q) := by
  refine (congrFun (final2 V c) (ix2 (0 : Fin 1) q)).trans ?_
  refine (sqAt_apply V c q 40 le_rfl).trans ?_
  rw [show 20000 * 40 = 800000 from by norm_num, ← Fin.sum_univ_eq_sum_range (fun r => rowAt V c q r * rowAt V c q r) 800000]
  refine Finset.sum_congr rfl fun r _ => ?_
  unfold rowAt
  rw [dif_pos r.isLt]

end Region1

end Cert.KernelIdeal.Val

end
-- ==== Proof.KernelIdeal.KVal2.lean ====
/-
  The third kernel region's result array, entry by entry.  Each grid point stores, over its block of 20000 rows, the
  block's entries times the scale row plus the shift row; the forty blocks tile the 800000 rows, so the array ends holding
  e * scale + shift at every entry, with e, scale and shift as the region is entered.
-/
import proofs.«136777_j53730040873189_1_alg».proof.Proof.KernelIdeal.R2
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Val

open Idealize.ShloMosaic Idealize.ShloMosaic.ValueIdx Idealize.ShloMosaic.TcCoe
open Cert.KernelIdeal Cert.KernelIdeal.Gen Cert.KernelIdeal.Frame
open Idealize.ShloMosaic.Pipeline (Dat)

/-- The zero offsets of a whole-buffer rectangle, as the constant function. -/
theorem zero_offsets : (![0, 0] : Fin 2 → Nat) = fun _ => 0 := funext fun a => by fin_cases a <;> rfl

/-- The stored vector at row p, column q: the block's entry there times the scale row's entry in column q plus the
    shift row's entry in column q (the two rows are broadcast along the rows). -/
theorem affine_apply (x0 : Vec Ideal S20000x64 .f32) (x1 x2 : Vec Ideal S1x64 .f32) (p : Fin 20000) (q : Fin 64) :
    (k2_pay1 x0 x1 x2 : S20000x64.Idx → EReal) (ix2 p q)
      = (x0 : S20000x64.Idx → EReal) (ix2 p q) * (x1 : S1x64.Idx → EReal) (ix2 (0 : Fin 1) q)
        + (x2 : S1x64.Idx → EReal) (ix2 (0 : Fin 1) q) := by
  unfold k2_pay1
  simp only [shapeCast_self]
  rw [addf_apply, mulf_apply]
  have hrow : ∀ a : Fin S1x64.rank, ((ix2 (0 : Fin 1) q : S1x64.Idx) a).val
      = if S1x64.size a = 1 then 0
        else ((ix2 p q : S20000x64.Idx) ⟨a.val + (S20000x64.rank - S1x64.rank), by have := a.isLt; omega⟩).val := by
    intro a
    match a with
    | ⟨0, _⟩ => rfl
    | ⟨1, _⟩ => rfl
  rw [broadcastTo_apply x1 broadcasts_S1x64_S20000x64 (ix2 p q) (ix2 (0 : Fin 1) q) hrow,
    broadcastTo_apply x2 broadcasts_S1x64_S20000x64 (ix2 p q) (ix2 (0 : Fin 1) q) hrow]

/-- Rows times a scale row plus a shift row, entry by entry. -/
def affineOf (e : S800000x64.Idx → EReal) (s b : S1x64.Idx → EReal) : S800000x64.Idx → EReal := fun i =>
  e i * s (ix2 (0 : Fin 1) (i 1)) + b (ix2 (0 : Fin 1) (i 1))

/-- That function at row r, column q. -/
theorem affineOf_apply (e : S800000x64.Idx → EReal) (s b : S1x64.Idx → EReal) (r : Fin 800000) (q : Fin 64) :
    affineOf e s b (ix2 r q) = e (ix2 r q) * s (ix2 (0 : Fin 1) q) + b (ix2 (0 : Fin 1) q) := rfl

section Array
variable (V : (c : Dev nD) → (b : Ref sig .tc) → Buf (Elt Ideal) ((c : Thread nD τ).loc b))

/-- The whole-array function the result holds: every entry of e times its column's scale plus its column's shift. -/
abbrev affine (c : Dev nD) : S800000x64.Idx → EReal := affineOf (V c main_v22) (V c main_v41) (V c main_v42)

/-- The printed index maps over the grid: at point t the block of e and the block of the result are both block row t,
    column block 0; the scale row and the shift row stay at block (0, 0). -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Forty points. -/
theorem point_lt (t : Fin cfg2.N) : t.val < 40 := lt_of_lt_of_eq t.isLt N_2

/-- The block of e at point t holds rows 20000 t … 20000 t + 19999 of e. -/
theorem e_block (c : Dev nD) (t : Fin cfg2.N) (p : Fin 20000) (q : Fin 64) (r : Fin 800000) (hr : r.val = 20000 * t.val + p.val) :
    (iblk2 V c 0 t : S20000x64.Idx → EReal) (ix2 p q) = (V c main_v22 : S800000x64.Idx → EReal) (ix2 r q) := by
  obtain ⟨e0, e1, -⟩ := block_indices t
  unfold iblk2
  rw [View.read_apply]
  show V c main_v22 _ = V c main_v22 _
  congr 1
  funext a; apply Fin.ext
  match a with
  | ⟨0, _⟩ => show win2_0.index t (0 : Fin 2) * 20000 + 1 * p.val = r.val; rw [e0, hr]; omega
  | ⟨1, _⟩ => show win2_0.index t (1 : Fin 2) * 64 + 1 * q.val = q.val; rw [e1]; omega

/-- The scale row's block is the scale row at every point. -/
theorem scale_block (c : Dev nD) (t : Fin cfg2.N) (q : Fin 64) :
    (iblk2 V c 1 t : S1x64.Idx → EReal) (ix2 (0 : Fin 1) q) = (V c main_v41 : S1x64.Idx → EReal) (ix2 (0 : Fin 1) q) := by
  obtain ⟨-, -, s0, s1, -⟩ := block_indices t
  unfold iblk2
  rw [View.read_apply]
  show V c main_v41 _ = V c main_v41 _
  congr 1
  funext a; apply Fin.ext
  match a with
  | ⟨0, _⟩ => show win2_1.index t (0 : Fin 2) * 1 + 1 * 0 = 0; rw [s0]
  | ⟨1, _⟩ => show win2_1.index t (1 : Fin 2) * 64 + 1 * q.val = q.val; rw [s1]; omega

/-- The shift row's block is the shift row at every point. -/
theorem shift_block (c : Dev nD) (t : Fin cfg2.N) (q : Fin 64) :
    (iblk2 V c 2 t : S1x64.Idx → EReal) (ix2 (0 : Fin 1) q) = (V c main_v42 : S1x64.Idx → EReal) (ix2 (0 : Fin 1) q) := by
  obtain ⟨-, -, -, -, b0, b1, -⟩ := block_indices t
  unfold iblk2
  rw [View.read_apply]
  show V c main_v42 _ = V c main_v42 _
  congr 1
  funext a; apply Fin.ext
  match a with
  | ⟨0, _⟩ => show win2_2.index t (0 : Fin 2) * 1 + 1 * 0 = 0; rw [b0]
  | ⟨1, _⟩ => show win2_2.index t (1 : Fin 2) * 64 + 1 * q.val = q.val; rw [b1]; omega

/-- Entry (p, q) of the result's block at point t is entry (20000 t + p, q) of the result. -/
theorem result_emb (t : Fin cfg2.N) (p : Fin 20000) (q : Fin 64) (r : Fin 800000) (hr : r.val = 20000 * t.val + p.val) :
    (((cfg2.win 3).blk t).view.emb (ix2 p q) : S800000x64.Idx) = ix2 r q := by
  obtain ⟨-, -, -, -, -, -, o0, o1⟩ := block_indices t
  funext a; apply Fin.ext
  match a with
  | ⟨0, _⟩ => show win2_3.index t (0 : Fin 2) * 20000 + 1 * p.val = r.val; rw [o0, hr]; omega
  | ⟨1, _⟩ => show win2_3.index t (1 : Fin 2) * 64 + 1 * q.val = q.val; rw [o1]; omega

/-- What point t writes back is block t of that function. -/
theorem flushed_eq (c : Dev nD) (t : Fin cfg2.N) :
    (dat2 (F := Ideal) V c).flushed 3 t = ((cfg2.win 3).blk t).view.read (Elt Ideal) (affine V c) := by
  show (cfg2.win 3).cut (grid2.coords t) ((dat2 (F := Ideal) V c).after 3 t) = _
  rw [after2_3]
  unfold out2_3
  rw [View.canon_unit_zero zero_offsets]
  simp only [View.ld_unit_zero (S := S20000x64) zero_offsets, View.ld_unit_zero (S := S1x64) zero_offsets]
  funext j
  obtain ⟨p, q, rfl⟩ : ∃ (p : Fin 20000) (q : Fin 64), j = ix2 p q := ⟨j 0, j 1, eq_ix2 j⟩
  show (k2_pay1 (iblk2 V c 0 t) (iblk2 V c 1 t) (iblk2 V c 2 t) : S20000x64.Idx → EReal) (ix2 p q)
    = affine V c (((cfg2.win 3).blk t).view.emb (ix2 p q))
  have hr : 20000 * t.val + p.val < 800000 := by have := point_lt t; have := p.isLt; omega
  rw [affine_apply, e_block V c t p q ⟨20000 * t.val + p.val, hr⟩ rfl, scale_block, shift_block,
    result_emb t p q ⟨20000 * t.val + p.val, hr⟩ rfl]
  exact (affineOf_apply _ _ _ _ _).symm

/-- An entry of the result is in point t's block iff its row is among the block's 20000 rows. -/
theorem mem_result_block (t : Fin cfg2.N) (i : S800000x64.Idx) :
    i ∈ ((cfg2.win 3).blk t).view.set
      ↔ ∀ a : Fin 2, win2_3.index t a * S20000x64.size a ≤ (i a).val ∧ (i a).val < win2_3.index t a * S20000x64.size a + S20000x64.size a := by
  show i ∈ ((View.whole main_v43).slice (win2_3.rect t)).set ↔ _
  rw [View.set_slice_whole, Rect.mem_set_unit]
  exact Iff.rfl

/-- Every entry of the result lies in the block of the point its row divided by 20000 names. -/
theorem covered (i : S800000x64.Idx) : ∃ t : Fin cfg2.N, (cfg2.win 3).flush t = true ∧ i ∈ ((cfg2.win 3).blk t).view.set := by
  have hi0 : (i 0).val < 800000 := (i 0).isLt
  have hi1 : (i 1).val < 64 := (i 1).isLt
  have hN : cfg2.N = 40 := N_2
  refine ⟨⟨(i 0).val / 20000, by rw [hN]; omega⟩, flush2_3 _, ?_⟩
  rw [mem_result_block]
  obtain ⟨-, -, -, -, -, -, o0, o1⟩ := block_indices ⟨(i 0).val / 20000, by rw [hN]; omega⟩
  intro a
  match a with
  | ⟨0, _⟩ =>
    show win2_3.index _ (0 : Fin 2) * 20000 ≤ (i 0).val ∧ (i 0).val < win2_3.index _ (0 : Fin 2) * 20000 + 20000
    rw [o0]; show (i 0).val / 20000 * 20000 ≤ (i 0).val ∧ (i 0).val < (i 0).val / 20000 * 20000 + 20000; omega
  | ⟨1, _⟩ =>
    show win2_3.index _ (1 : Fin 2) * 64 ≤ (i 1).val ∧ (i 1).val < win2_3.index _ (1 : Fin 2) * 64 + 64
    rw [o1]; omega

/-- The result array after the region: the affine function of e, the scale row and the shift row. -/
theorem arr2_eq (c : Dev nD) : (dat2 (F := Ideal) V c).arrAt 3 cfg2.N = affine V c :=
  (dat2 (F := Ideal) V c).arrAt_eq_of_cover 3 (affine V c) (fun t _ => flushed_eq V c t) covered

/-- The result array at row r, column q: e there times the scale of column q plus the shift of column q, the operations
    the extended reals' (spelt at that type: the arrays' element types only unfold to it). -/
theorem arr2_apply (c : Dev nD) (r : Fin 800000) (q : Fin 64) :
    ((dat2 (F := Ideal) V c).arrAt 3 cfg2.N : S800000x64.Idx → EReal) (ix2 r q)
      = HAdd.hAdd (α := EReal) (β := EReal)
          (HMul.hMul (α := EReal) (β := EReal) ((V c main_v22 : S800000x64.Idx → EReal) (ix2 r q))
            ((V c main_v41 : S1x64.Idx → EReal) (ix2 (0 : Fin 1) q)))
          ((V c main_v42 : S1x64.Idx → EReal) (ix2 (0 : Fin 1) q)) := by
  rw [arr2_eq]
  rfl

end Array

end Cert.KernelIdeal.Val

end
-- ==== Proof.RefRead.lean ====
/-
  The reference's stages read at an entry, at the ideal (extended-real) values, as closed formulas:
  the hidden layer h = max (x·W + b) 0, and the batch-normalised output
  ((e − μ) · rsqrt (σ² + ε)) · γ + β with μ = (0 + ∑ e) / N and σ² = (0 + ∑ (e − μ)²) / N taken down each column,
  where e (the averaged gathered rows) is left as a named term.
-/
import proofs.«136777_j53730040873189_1_alg».proof.Proof.Gen.ReferenceIdeal.Read
import Idealize.ShloMosaic.Lib.ValueIdx
import Idealize.ShloMosaic.PureOps.Ideal
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Read

/-- The hidden layer at row p, column q: the row of x against the column of W, plus the bias, clipped below at 0. -/
theorem h_apply (x0 : (⟨S50000x256, .f32⟩ : BufTy).Contents (Elt Ideal)) (x3 : (⟨S256x64, .f32⟩ : BufTy).Contents (Elt Ideal))
    (x4 : (⟨S64, .f32⟩ : BufTy).Contents (Elt Ideal)) (p : Fin 50000) (q : Fin 64) :
    val_main_v4 (F := Ideal) x0 x3 x4 (ix2 p q) = max ((∑ k : Fin 256, x0 (ix2 p k) * x3 (ix2 k q)) + x4 (ix1 q)) 0 := by
  rw [val_main_v4_apply, val_main_v3_apply, val_main_v0_apply, val_main_v2_apply, val_main_v1_apply,
    val_main_call0_v0_apply, val_main_call0_cst_apply]
  -- the row index of the left factor and the column index of the right factor are those of the entry
  have el : ∀ k : Fin 256, lidx_main_v0 (ix2 p q) k = ix2 p k := fun k =>
    funext fun a => Fin.ext (by match a with | ⟨0, _⟩ => rfl | ⟨1, _⟩ => rfl)
  have er : ∀ k : Fin 256, ridx_main_v0 (ix2 p q) k = ix2 k q := fun k =>
    funext fun a => Fin.ext (by match a with | ⟨0, _⟩ => rfl | ⟨1, _⟩ => rfl)
  -- the bias is broadcast along the rows: only the column survives
  have eb : idx_main_v1 (idx_main_v2 (ix2 p q)) = ix1 q :=
    funext fun a => Fin.ext (by match a with | ⟨0, _⟩ => rfl)
  simp only [el, er, eb, Ideal.maximumf_def, Ideal.addf_def, Ideal.ofBits_def, Ideal.ofBits_zero_f32]

/-- The output at row r, column q: the entry of e, centred by the column mean, scaled by the reciprocal root of the
    column's (biased) variance plus ε, then by γ, and shifted by β. -/
theorem out_apply (x0 : (⟨S50000x256, .f32⟩ : BufTy).Contents (Elt Ideal)) (x1 : (⟨S2x800000, .i32⟩ : BufTy).Contents (Elt Ideal))
    (x3 : (⟨S256x64, .f32⟩ : BufTy).Contents (Elt Ideal)) (x4 x5 x6 : (⟨S64, .f32⟩ : BufTy).Contents (Elt Ideal))
    (r : Fin 800000) (q : Fin 64) :
    val_main_v50 (F := Ideal) x0 x1 x3 x4 x5 x6 (ix2 r q)
      = ((val_main_v25 (F := Ideal) x0 x1 x3 x4 (ix2 r q) - Ideal.div (Ideal.ofBits .f32 0x00000000#32 + ∑ k' : Fin 800000, val_main_v25 (F := Ideal) x0 x1 x3 x4 (ix2 k' q)) (Ideal.ofBits .f32 0x49435000#32))
            * Ideal.rsqrt (Ideal.div (Ideal.ofBits .f32 0x00000000#32 + ∑ k : Fin 800000,
                  (val_main_v25 (F := Ideal) x0 x1 x3 x4 (ix2 k q) - Ideal.div (Ideal.ofBits .f32 0x00000000#32 + ∑ k' : Fin 800000, val_main_v25 (F := Ideal) x0 x1 x3 x4 (ix2 k' q)) (Ideal.ofBits .f32 0x49435000#32))
                    * (val_main_v25 (F := Ideal) x0 x1 x3 x4 (ix2 k q) - Ideal.div (Ideal.ofBits .f32 0x00000000#32 + ∑ k' : Fin 800000, val_main_v25 (F := Ideal) x0 x1 x3 x4 (ix2 k' q)) (Ideal.ofBits .f32 0x49435000#32))) (Ideal.ofBits .f32 0x49435000#32)
                + Ideal.ofBits .f32 0x3727C5AC#32))
          * x5 (ix1 q) + x6 (ix1 q) := by
  -- the mean, the reciprocal root, γ and β are rows broadcast down the rows: only the column survives
  have e37 : idx_main_v36 (idx_main_v37 (ix2 r q)) = ix1 q :=
    funext fun a => Fin.ext (by match a with | ⟨0, _⟩ => rfl)
  have e43 : idx_main_v42 (idx_main_v43 (ix2 r q)) = ix1 q :=
    funext fun a => Fin.ext (by match a with | ⟨0, _⟩ => rfl)
  have e46 : idx_main_v45 (idx_main_v46 (ix2 r q)) = ix1 q :=
    funext fun a => Fin.ext (by match a with | ⟨0, _⟩ => rfl)
  have e49 : idx_main_v48 (idx_main_v49 (ix2 r q)) = ix1 q :=
    funext fun a => Fin.ext (by match a with | ⟨0, _⟩ => rfl)
  have e30 : ∀ k : Fin 800000, idx_main_v29 (idx_main_v30 (ix2 k q)) = ix1 q := fun k =>
    funext fun a => Fin.ext (by match a with | ⟨0, _⟩ => rfl)
  -- a column sum runs over the entries (k, q) of column q
  have e26 : ∀ k : Fin 800000, idx_main_v26 (ix1 q) k = ix2 k q := fun k =>
    funext fun a => Fin.ext (by match a with | ⟨0, _⟩ => rfl | ⟨1, _⟩ => rfl)
  have e33 : ∀ k : Fin 800000, idx_main_v33 (ix1 q) k = ix2 k q := fun k =>
    funext fun a => Fin.ext (by match a with | ⟨0, _⟩ => rfl | ⟨1, _⟩ => rfl)
  rw [val_main_v50_apply, val_main_v47_apply, val_main_v44_apply, val_main_v38_apply, val_main_v37_apply,
    val_main_v36_apply, val_main_v43_apply, val_main_v42_apply, val_main_v41_apply, val_main_v40_apply,
    val_main_v35_apply, val_main_v33_apply, val_main_v46_apply, val_main_v45_apply, val_main_v49_apply,
    val_main_v48_apply, e37, e43, e46, e49]
  simp only [e33, val_main_v32_apply, val_main_v31_apply, val_main_v30_apply, val_main_v29_apply, e30,
    val_main_v28_apply, val_main_v26_apply, e26, val_main_v27_apply, val_main_v34_apply, val_main_v39_apply,
    val_main_cst_3_apply, val_main_cst_4_apply, val_main_cst_5_apply, val_main_cst_6_apply, val_main_cst_7_apply,
    Ideal.addf_def, Ideal.subf_def, Ideal.mulf_def, Ideal.hostDivf_def, Ideal.hostUnary_rsqrt_def, Ideal.ofBits_def]

end Cert.ReferenceIdeal.RefValue

end
-- ==== Proof.LibRowTake.lean ====
/-
  A table's row selected by an index column, read two ways.

  (1) THE ROW GATHER. jnp's `T[idx]` for a matrix `T : [K, C]` and a column of start indices `[n, 1]` is a
      `stablehlo.gather` whose axis 0 is collapsed and start-indexed, whose axis 1 is the one offset axis, with no
      batching axes and the index vector on axis 1. Its entry `(r, c)` is `T (k, c)`, where `k` is row `r`'s start
      index read signed and clamped into `[0, K - 1]` (`gather_rows`); when the word is the word of some `k₀ < K`
      that row is `k₀` itself (`gather_rows_of_word`).
  (2) THE ONE-HOT PRODUCT. Over the extended reals `∑ k, e k * T k = T k₀` when `e k₀ = 1` and `e k = 0` for
      `k ≠ k₀` (`sum_onehot_mul`): `0 * a = 0` and `a + 0 = a` hold for every extended real, the infinities included,
      so no finiteness is asked of `T`. The row `e` a kernel builds from a 32-bit word `w` — compare `w` with the word
      of each `k`, widen the bit to 32 bits, convert to a float — is that `e` when `w` is the word of `k₀`
      (`onehotWord`, `sum_onehotWord_mul`).
  So a matrix product with that one-hot row and the row gather read the same entry of the table.
-/
import Idealize.ShloMosaic.PureOps.Ideal
import Idealize.ShloMosaic.Lib.ValueIdx

noncomputable section

open scoped BigOperators

namespace Cert.RowTake

open Idealize.ShloMosaic Idealize.ShloMosaic.ValueIdx

/-! ## The row gather -/

/-- Entry `(r, c)` of the row gather is the table at `(k, c)`, `k` the start index of row `r` read signed and clamped
    into `[0, K - 1]`. The hypotheses are the printed dimension numbers, each by `rfl`. -/
theorem gather_rows {α : Type} {K C n w : Nat} (hK : 0 < K)
    (d : GatherDims ⟨2, ![K, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![K, C]⟩ : Shape).Idx → α) (idx : IVec ⟨2, ![n, 1]⟩ w) (r : Fin n) (c : Fin C) :
    Host.gather d x idx (ix2 r c)
      = x (ix2 (⟨min (idx (ix2 r (0 : Fin 1))).toInt.toNat (K - 1), by omega⟩ : Fin K) c) := by
  unfold Host.gather
  congr 1
  funext a
  apply Fin.ext
  have hb : ∀ a : Fin 2, a ∉ d.operandBatchingDims := fun a => by rw [hob]; exact List.not_mem_nil
  -- every offset axis of the result is axis 1, every batch axis is axis 0
  have hall1 : ∀ a ∈ d.offsetDims, a = (1 : Fin 2) := by
    rw [hoff]; intro a ha; exact List.mem_singleton.mp ha
  have hall0 : ∀ a ∈ d.batchDims, a = (0 : Fin 2) := by
    intro a ha
    have hne : a ∉ d.offsetDims := by
      have := (List.mem_filter.mp ha).2
      simpa using this
    rw [hoff, List.mem_singleton] at hne
    match a, hne with
    | ⟨0, _⟩, _ => rfl
    | ⟨1, _⟩, hne => exact absurd rfl hne
  match a with
  | ⟨0, _⟩ =>
    -- the collapsed, start-indexed axis: the clamped start index, nothing added
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r c) idx 0 + d.batchCoord (ix2 r c) 0 + d.offCoord (ix2 r c) 0 = _
    rw [GatherDims.batchCoord_eq_zero _ _ _ (hb 0), GatherDims.offCoord_eq_zero _ _ _ hk]
    simp only [Nat.add_zero]
    unfold GatherDims.start
    rw [dif_pos hm]
    show min (idx _).toInt.toNat (K - d.sliceSizes 0) = min (idx (ix2 r (0 : Fin 1))).toInt.toNat (K - 1)
    rw [hsl]
    congr 3
    congr 1
    funext b
    match b with
    | ⟨0, _⟩ =>
      -- the start indices' row is the result's batch coordinate, its row
      unfold GatherDims.siIdx
      rw [dif_neg (by rw [hivd]; simp)]
      unfold GatherDims.siCoord
      apply Fin.ext
      simp only [Fin.val_cast]
      have e : ∀ X : Fin 2, X = 0 → ((ix2 r c : (⟨2, ![n, C]⟩ : Shape).Idx) X).val = r.val := fun X hX => by
        subst hX; rfl
      exact e _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- the offset axis: no start, the result's column
    have hm : (1 : Fin 2) ∉ d.startIndexMap := by rw [hsim]; simp
    have hk : (1 : Fin 2) ∈ d.sKept := by rw [GatherDims.mem_sKept, hcoll]; exact ⟨by simp, hb 1⟩
    show d.start (ix2 r c) idx 1 + d.batchCoord (ix2 r c) 1 + d.offCoord (ix2 r c) 1 = c.val
    rw [GatherDims.batchCoord_eq_zero _ _ _ (hb 1)]
    unfold GatherDims.start GatherDims.offCoord
    rw [dif_neg hm, dif_pos hk]
    simp only [Nat.add_zero, Nat.zero_add]
    have e : ∀ X : Fin 2, X = 1 → ((ix2 r c : (⟨2, ![n, C]⟩ : Shape).Idx) X).val = c.val := fun X hX => by
      subst hX; rfl
    exact e _ (hall1 _ (List.getElem_mem _))

/-- A 32-bit word that is the word of `k < 2 ^ 31`, read signed, is `k`. -/
theorem toInt_toNat_ofNat (k : Nat) (hk : k < 2147483648) : (BitVec.ofNat 32 k).toInt.toNat = k := by
  have h1 : (BitVec.ofNat 32 k).toNat = k := by
    rw [BitVec.toNat_ofNat]; exact Nat.mod_eq_of_lt (by omega)
  rw [BitVec.toInt_eq_toNat_cond, h1]
  have : 2 * k < 2 ^ 32 := by omega
  rw [if_pos this]
  simp

/-- The row gather at a start index that is the word of `k₀ < K`: row `k₀`, no clamp. -/
theorem gather_rows_of_word {α : Type} {K C n : Nat} (hK32 : K ≤ 2147483648)
    (d : GatherDims ⟨2, ![K, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![K, C]⟩ : Shape).Idx → α) (idx : IVec ⟨2, ![n, 1]⟩ 32) (r : Fin n) (c : Fin C) (k₀ : Fin K)
    (hw : idx (ix2 r (0 : Fin 1)) = BitVec.ofNat 32 k₀.val) :
    Host.gather d x idx (ix2 r c) = x (ix2 k₀ c) := by
  have hk0 := k₀.isLt
  rw [gather_rows (by omega) d hoff hcoll hob hsim hivd]
  congr 2
  apply Fin.ext
  show min (idx (ix2 r (0 : Fin 1))).toInt.toNat (K - 1) = k₀.val
  rw [hw, toInt_toNat_ofNat _ (by omega)]
  omega

/-! ## The one-hot product -/

/-- A sum of products with a one-hot row is the entry it selects, on the extended reals. -/
theorem sum_onehot_mul {K : Nat} (e T : Fin K → EReal) (k₀ : Fin K) (h1 : e k₀ = 1) (h0 : ∀ k, k ≠ k₀ → e k = 0) :
    ∑ k : Fin K, e k * T k = T k₀ := by
  rw [Finset.sum_eq_single k₀ (fun k _ hk => by rw [h0 k hk, zero_mul])
    (fun h => absurd (Finset.mem_univ _) h), h1, one_mul]

/-- The float a kernel makes of "word `w` is `k`": the comparison's bit, widened to 32 bits, converted signed. -/
def onehotWord (w : BitVec 32) (k : Nat) : EReal :=
  ((((IntOp.cmpi .eq w (BitVec.ofNat 32 k)).setWidth 32).toInt : ℝ) : EReal)

theorem onehotWord_self (k : Nat) : onehotWord (BitVec.ofNat 32 k) k = 1 := by
  unfold onehotWord IntOp.cmpi
  simp

theorem onehotWord_ne (k₀ k : Nat) (h0 : k₀ < 4294967296) (hk : k < 4294967296) (hne : k ≠ k₀) :
    onehotWord (BitVec.ofNat 32 k₀) k = 0 := by
  unfold onehotWord IntOp.cmpi
  have hneq : (BitVec.ofNat 32 k₀ == BitVec.ofNat 32 k) = false := by
    rw [beq_eq_false_iff_ne]
    intro h
    have := congrArg BitVec.toNat h
    rw [BitVec.toNat_ofNat, BitVec.toNat_ofNat, Nat.mod_eq_of_lt (by omega), Nat.mod_eq_of_lt (by omega)] at this
    exact hne this.symm
  simp [hneq]

/-- The product of the one-hot row of word `w` with a table's column is the table at the row `w` names. -/
theorem sum_onehotWord_mul {K : Nat} (hK : K ≤ 4294967296) (w : BitVec 32) (T : Fin K → EReal) (k₀ : Fin K)
    (hw : w = BitVec.ofNat 32 k₀.val) :
    ∑ k : Fin K, onehotWord w k.val * T k = T k₀ := by
  subst hw
  have h0 := k₀.isLt
  exact sum_onehot_mul _ T k₀ (onehotWord_self _)
    (fun k hk => onehotWord_ne _ _ (by omega) (by have := k.isLt; omega) (fun h => hk (Fin.ext h)))

end Cert.RowTake

end
-- ==== Proof.Finite.lean ====
/-
  Finiteness. The precondition says of each of the five float inputs that every entry has absolute value
  below +∞; on the extended reals that makes every entry a real. A real input gives a real hidden layer
  h = max (x · W + b) 0: a finite sum of products of reals is a real, and so are a sum and a maximum of reals.
  Each row gather reads some row of h (the start index clamped into the table), so whatever the integer
  indices are, e = (h[row] + h[col]) · ½ is a real as well.
-/
import proofs.«136777_j53730040873189_1_alg».proof.Defs
import proofs.«136777_j53730040873189_1_alg».proof.Proof.Gen.ReferenceIdeal.Read
import proofs.«136777_j53730040873189_1_alg».proof.Proof.LibRowTake
import Idealize.ShloMosaic.Lib.ReduceAll

noncomputable section

open scoped BigOperators

namespace Cert.Fin

open Idealize.ShloMosaic Idealize.ShloMosaic.ValueIdx Cert.ReferenceIdeal Cert.ReferenceIdeal.Read

/-! ## Reals among the extended reals -/

/-- An extended real whose absolute value max x (-x) is below +∞ is a real. -/
theorem real_of_abs_lt_top (x : EReal) (h : max x (-x) < ⊤) : ∃ a : ℝ, x = (a : EReal) := by
  induction x using EReal.rec with
  | bot => simp at h
  | coe a => exact ⟨a, rfl⟩
  | top => simp at h

/-- The pattern 0x7F800000 denotes +∞. -/
theorem ofBits_inf : Ideal.ofBits .f32 0x7F800000#32 = (⊤ : EReal) := by
  simp [Ideal.ofBits, Ideal.ieee]

/-- The element test of the precondition, |x| < +∞ as a one-bit word, read back. -/
theorem real_of_test (x : EReal)
    (h : FloatOps.cmpf (F := Ideal) (φ := .f32) .olt (FloatOps.hostAbsf (F := Ideal) (φ := .f32) x)
      (FloatOps.ofBits (F := Ideal) .f32 0x7F800000#32) = 1#1) : ∃ a : ℝ, x = (a : EReal) := by
  apply real_of_abs_lt_top
  have h' : BitVec.ofBool (decide (max x (-x) < Ideal.ofBits .f32 0x7F800000#32)) = 1#1 := h
  rw [ofBits_inf] at h'
  by_contra hn
  rw [decide_eq_false hn] at h'
  exact absurd h' (by decide)

/-- A finite sum of reals is a real. -/
theorem sum_real {ι : Type} (s : Finset ι) (f : ι → EReal) (hf : ∀ i ∈ s, ∃ a : ℝ, f i = (a : EReal)) :
    ∃ a : ℝ, ∑ i ∈ s, f i = (a : EReal) := by
  refine Finset.sum_induction f (fun y => ∃ a : ℝ, y = (a : EReal)) ?_ ⟨0, rfl⟩ hf
  rintro _ _ ⟨a, rfl⟩ ⟨b, rfl⟩
  exact ⟨a + b, (EReal.coe_add a b).symm⟩

/-! ## The precondition read back -/

instance : Subsingleton Cert.Pre_finite_inputs.S_.Idx := ⟨fun a b => funext fun d => d.elim0⟩

/-- One conjunct of the precondition: all entries of an array pass the test, so all are reals. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (h : Host.reduce IntOp.andi
        (cmpf .olt (Host.absf x) (broadcastInDim s ![] hb (constant (F := Ideal) Cert.Pre_finite_inputs.S_ .f32 0x7F800000#32)))
        init hr hu ix0 = 1#1) :
    ∀ j, ∃ a : ℝ, x j = (a : EReal) := fun j =>
  real_of_test (x j) (Host.reduce_andi_all _ init hr hu ix0 h j)

/-- Under the precondition every entry of the five float inputs is a real. -/
theorem inputs_real [hPre_finite_inputs : Cert.Pre_finite_inputs.Facts]
    (x0 : (⟨S50000x256, .f32⟩ : BufTy).Contents (Elt Ideal)) (x1 : (⟨S2x800000, .i32⟩ : BufTy).Contents (Elt Ideal))
    (x2 : (⟨S50000, .i32⟩ : BufTy).Contents (Elt Ideal)) (x3 : (⟨S256x64, .f32⟩ : BufTy).Contents (Elt Ideal))
    (x4 x5 x6 : (⟨S64, .f32⟩ : BufTy).Contents (Elt Ideal))
    (h : Cert.Pre_finite_inputs.fn (F := Ideal) x0 x1 x2 x3 x4 x5 x6 = fun _ => 1#1) :
    (∀ j, ∃ a : ℝ, x0 j = (a : EReal)) ∧ (∀ j, ∃ a : ℝ, x3 j = (a : EReal)) ∧ (∀ j, ∃ a : ℝ, x4 j = (a : EReal))
      ∧ (∀ j, ∃ a : ℝ, x5 j = (a : EReal)) ∧ (∀ j, ∃ a : ℝ, x6 j = (a : EReal)) := by
  have h0 := congrFun h ValueIdx.ix0
  dsimp only [Cert.Pre_finite_inputs.fn, Cert.Pre_finite_inputs.fn_part1] at h0
  obtain ⟨h1234, e6⟩ := IntOp.andi_eq_one.1 h0
  obtain ⟨h123, e5⟩ := IntOp.andi_eq_one.1 h1234
  obtain ⟨h12, e4⟩ := IntOp.andi_eq_one.1 h123
  obtain ⟨e0, e3⟩ := IntOp.andi_eq_one.1 h12
  exact ⟨all_real x0 _ _ _ _ e0, all_real x3 _ _ _ _ e3, all_real x4 _ _ _ _ e4, all_real x5 _ _ _ _ e5,
    all_real x6 _ _ _ _ e6⟩

/-! ## The hidden layer and the gathered rows -/

/-- h = max (x · W + b) 0 of real x, W, b is real entry by entry. -/
theorem h_real (x0 : (⟨S50000x256, .f32⟩ : BufTy).Contents (Elt Ideal)) (x3 : (⟨S256x64, .f32⟩ : BufTy).Contents (Elt Ideal))
    (x4 : (⟨S64, .f32⟩ : BufTy).Contents (Elt Ideal))
    (h0 : ∀ j, ∃ a : ℝ, x0 j = (a : EReal)) (h3 : ∀ j, ∃ a : ℝ, x3 j = (a : EReal)) (h4 : ∀ j, ∃ a : ℝ, x4 j = (a : EReal)) :
    ∀ j, ∃ a : ℝ, val_main_v4 (F := Ideal) x0 x3 x4 j = (a : EReal) := by
  intro j
  rw [val_main_v4_apply, val_main_v3_apply, val_main_v0_apply, val_main_v2_apply, val_main_v1_apply,
    val_main_call0_v0_apply, val_main_call0_cst_apply]
  obtain ⟨s, hs⟩ := sum_real Finset.univ (fun k : Fin 256 => x0 (lidx_main_v0 j k) * x3 (ridx_main_v0 j k))
    (fun k _ => by
      obtain ⟨a, ha⟩ := h0 (lidx_main_v0 j k)
      obtain ⟨b, hb⟩ := h3 (ridx_main_v0 j k)
      exact ⟨a * b, by rw [ha, hb, EReal.coe_mul]⟩)
  obtain ⟨b, hb⟩ := h4 (idx_main_v1 (idx_main_v2 j))
  rw [hs, hb, Ideal.ofBits_def, Ideal.ofBits_zero_f32, Ideal.addf_def, Ideal.maximumf_def, ← EReal.coe_add]
  exact ⟨max (s + b) 0, (EReal.coe_strictMono.monotone.map_max (a := s + b) (b := 0)).symm⟩

/-- The constant ½ is a real. -/
theorem half_real : ∃ a : ℝ, Ideal.ofBits .f32 0x3F000000#32 = (a : EReal) :=
  ⟨1 / 2, by simp [Ideal.ofBits, Ideal.ieee, -EReal.coe_mul]; norm_num⟩

/-- e = (h[row] + h[col]) · ½ is real entry by entry once h is, whatever the indices: a row gather reads a row of h. -/
theorem e_real (x0 : (⟨S50000x256, .f32⟩ : BufTy).Contents (Elt Ideal)) (x1 : (⟨S2x800000, .i32⟩ : BufTy).Contents (Elt Ideal))
    (x3 : (⟨S256x64, .f32⟩ : BufTy).Contents (Elt Ideal)) (x4 : (⟨S64, .f32⟩ : BufTy).Contents (Elt Ideal))
    (hh : ∀ j, ∃ a : ℝ, val_main_v4 (F := Ideal) x0 x3 x4 j = (a : EReal)) :
    ∀ j, ∃ a : ℝ, val_main_v25 (F := Ideal) x0 x1 x3 x4 j = (a : EReal) := by
  intro j
  obtain ⟨r, c, rfl⟩ : ∃ (r : Fin 800000) (c : Fin 64), j = ix2 r c := ⟨j 0, j 1, eq_ix2 j⟩
  have g1 : ∃ a : ℝ, val_main_v15 (F := Ideal) x0 x1 x3 x4 (ix2 r c) = (a : EReal) := by
    unfold val_main_v15
    rw [Cert.RowTake.gather_rows (by norm_num) gather_S50000x64_S800000x1_S800000x64_1_0_n_n_0_1_164 rfl rfl rfl rfl rfl]
    exact hh _
  have g2 : ∃ a : ℝ, val_main_v22 (F := Ideal) x0 x1 x3 x4 (ix2 r c) = (a : EReal) := by
    unfold val_main_v22
    rw [Cert.RowTake.gather_rows (by norm_num) gather_S50000x64_S800000x1_S800000x64_1_0_n_n_0_1_164 rfl rfl rfl rfl rfl]
    exact hh _
  obtain ⟨a, ha⟩ := g1
  obtain ⟨b, hb⟩ := g2
  obtain ⟨t, ht⟩ := half_real
  rw [val_main_v25_apply, val_main_v23_apply, val_main_v24_apply, val_main_cst_apply, ha, hb, Ideal.ofBits_def, ht,
    Ideal.addf_def, Ideal.mulf_def, ← EReal.coe_add, ← EReal.coe_mul]
  exact ⟨(a + b) * t, rfl⟩

end Cert.Fin

end
-- ==== Proof.Algebra.lean ====
/- Pure mathematics on the extended reals for the batch-normalisation certificate: the float
   literals the two programs spell, and the identity between the one-pass form (variance as
   E[e²] − mean², scale and shift folded) and the textbook two-pass form. -/
import Idealize.ShloMosaic.PureOps.Ideal
import Mathlib.Algebra.BigOperators.Ring.Finset
import Mathlib.Algebra.Order.BigOperators.Ring.Finset
import Mathlib.Analysis.SpecialFunctions.Pow.Real
import Mathlib.Data.EReal.Inv
import Mathlib.Tactic.FieldSimp
import Mathlib.Tactic.Ring
import Mathlib.Tactic.Positivity
import Mathlib.Tactic.NormNum

noncomputable section

namespace Cert.Alg

open Idealize.ShloMosaic
open scoped BigOperators

/-! ### The literals -/

/-- `800000.0`: exponent field 146, significand field 0x435000, so (2²³ + 4411392) · 2⁻⁴ = 800000. -/
theorem ofBits_N : Ideal.ofBits .f32 0x49435000#32 = ((800000 : ℝ) : EReal) := by
  simp [Ideal.ofBits, Ideal.ieee, -EReal.coe_mul]; norm_num

/-- The variance guard: a positive normal number (exponent field 110), about 1e-5. -/
theorem ofBits_eps : ∃ ε : ℝ, 0 < ε ∧ Ideal.ofBits .f32 0x3727C5AC#32 = (ε : EReal) := by
  refine ⟨((2 ^ 23 + 0x27C5AC : ℕ) : ℝ) * (2 : ℝ) ^ ((110 : ℤ) - 127 - 23), by positivity, ?_⟩
  simp [Ideal.ofBits, Ideal.ieee, -EReal.coe_mul]

/-- `0.5`: a finite number is all that is used of it. -/
theorem ofBits_half : ∃ a : ℝ, Ideal.ofBits .f32 0x3F000000#32 = (a : EReal) := by
  refine ⟨((2 ^ 23 + 0 : ℕ) : ℝ) * (2 : ℝ) ^ ((126 : ℤ) - 127 - 23), ?_⟩
  simp [Ideal.ofBits, Ideal.ieee, -EReal.coe_mul]

/-- `+0.0` denotes zero. -/
theorem ofBits_zero : Ideal.ofBits .f32 0x00000000#32 = 0 := by
  simp [Ideal.ofBits, Ideal.ieee]

/-! ### Finite sums of reals inside the extended reals -/

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ### The variance identity over the reals -/

/-- The mean of the squares minus the square of the mean is the mean of the squared deviations,
    when the divisor is the number of terms. -/
theorem var_identity {ι : Type*} [Fintype ι] (e : ι → ℝ) (n : ℝ)
    (hn : (Fintype.card ι : ℝ) = n) (hn0 : n ≠ 0) :
    (∑ i, e i * e i) * (1 / n) - (∑ i, e i) * (1 / n) * ((∑ i, e i) * (1 / n))
      = (∑ i, (e i - (∑ j, e j) * (1 / n)) * (e i - (∑ j, e j) * (1 / n))) * (1 / n) := by
  have h : ∀ μ : ℝ, ∑ i, (e i - μ) * (e i - μ)
      = (∑ i, e i * e i) - 2 * μ * (∑ i, e i) + n * (μ * μ) := by
    intro μ
    have h1 : ∀ i, (e i - μ) * (e i - μ) = e i * e i - 2 * μ * e i + μ * μ := fun i => by ring
    simp only [h1, Finset.sum_add_distrib, Finset.sum_sub_distrib, ← Finset.mul_sum,
      Finset.sum_const, Finset.card_univ, nsmul_eq_mul, hn]
    ring
  rw [h]
  field_simp
  ring

/-- The mean of squared deviations is nonnegative when the divisor is positive. -/
theorem var_nonneg {ι : Type*} [Fintype ι] (e : ι → ℝ) (μ n : ℝ) (hn : 0 < n) :
    0 ≤ (∑ i, (e i - μ) * (e i - μ)) * (1 / n) :=
  mul_nonneg (Finset.sum_nonneg fun i _ => mul_self_nonneg _) (by positivity)

/-- The reciprocal square root of a positive real is the real one. -/
theorem rsqrt_of_pos {x : ℝ} (hx : 0 < x) :
    Ideal.rsqrt (x : EReal) = (((Real.sqrt x)⁻¹ : ℝ) : EReal) := by
  rw [Ideal.rsqrt_coe, if_neg (not_lt.mpr hx.le), if_neg hx.ne']

/-! ### The two forms of batch normalisation -/

/-- The identity for a general finite index and a positive real divisor equal to the number of
    terms: both variances are the same positive-after-guard real, so both reciprocal square roots
    are the same real, and the rest is the distributive law. -/
theorem bn_eq_gen {ι : Type*} [Fintype ι] (e : ι → ℝ) (g b : ℝ) (i0 : ι) (n ε : ℝ)
    (hn : (Fintype.card ι : ℝ) = n) (hn0 : 0 < n) (hε : 0 < ε) :
    (e i0 : EReal) * ((g : EReal) * Ideal.rsqrt ((Ideal.div (∑ r, ((e r : ℝ) : EReal) * ((e r : ℝ) : EReal)) (n : EReal) - Ideal.div (∑ r, ((e r : ℝ) : EReal)) (n : EReal) * Ideal.div (∑ r, ((e r : ℝ) : EReal)) (n : EReal)) + (ε : EReal)))
        + ((b : EReal) - Ideal.div (∑ r, ((e r : ℝ) : EReal)) (n : EReal) * ((g : EReal) * Ideal.rsqrt ((Ideal.div (∑ r, ((e r : ℝ) : EReal) * ((e r : ℝ) : EReal)) (n : EReal) - Ideal.div (∑ r, ((e r : ℝ) : EReal)) (n : EReal) * Ideal.div (∑ r, ((e r : ℝ) : EReal)) (n : EReal)) + (ε : EReal))))
      = (((e i0 : EReal) - Ideal.div (∑ r, ((e r : ℝ) : EReal)) (n : EReal))
            * Ideal.rsqrt (Ideal.div (∑ r, (((e r : ℝ) : EReal) - Ideal.div (∑ r', ((e r' : ℝ) : EReal)) (n : EReal)) * (((e r : ℝ) : EReal) - Ideal.div (∑ r', ((e r' : ℝ) : EReal)) (n : EReal))) (n : EReal) + (ε : EReal)))
          * (g : EReal) + (b : EReal) := by
  have hS1 : (∑ r, ((e r : ℝ) : EReal)) = ((∑ r, e r : ℝ) : EReal) := (coe_sum _ _).symm
  have hS2 : (∑ r, ((e r : ℝ) : EReal) * ((e r : ℝ) : EReal)) = ((∑ r, e r * e r : ℝ) : EReal) := by
    rw [coe_sum]; simp only [EReal.coe_mul]
  have hμ : Ideal.div (∑ r, ((e r : ℝ) : EReal)) (n : EReal) = (((∑ r, e r) * (1 / n) : ℝ) : EReal) := by
    rw [hS1, Ideal.div_coe hn0.ne', EReal.coe_mul]
  have hD : (∑ r, (((e r : ℝ) : EReal) - (((∑ r', e r') * (1 / n) : ℝ) : EReal)) * (((e r : ℝ) : EReal) - (((∑ r', e r') * (1 / n) : ℝ) : EReal)))
      = ((∑ r, (e r - (∑ r', e r') * (1 / n)) * (e r - (∑ r', e r') * (1 / n)) : ℝ) : EReal) := by
    rw [coe_sum]; simp only [EReal.coe_mul, EReal.coe_sub]
  have hV := var_identity e n hn hn0.ne'
  have hpos : 0 < (∑ r, (e r - (∑ r', e r') * (1 / n)) * (e r - (∑ r', e r') * (1 / n))) * (1 / n) + ε :=
    add_pos_of_nonneg_of_pos (var_nonneg e _ n hn0) hε
  rw [hμ, hD, hS2, Ideal.div_coe hn0.ne', Ideal.div_coe hn0.ne']
  simp only [← EReal.coe_mul, ← EReal.coe_sub, ← EReal.coe_add]
  rw [hV, rsqrt_of_pos hpos]
  simp only [← EReal.coe_mul, ← EReal.coe_sub, ← EReal.coe_add]
  congr 1
  ring

/-- batch normalisation with the variance as E[e²] − mean² and the scale and shift folded, against the textbook form -/
theorem bn_eq (e : Fin 800000 → ℝ) (g b : ℝ) (r0 : Fin 800000) (N eps z : EReal)
    (hN : N = ((800000 : ℝ) : EReal)) (heps : ∃ ε : ℝ, 0 < ε ∧ eps = (ε : EReal)) (hz : z = 0) :
    (e r0 : EReal) * ((g : EReal) * Ideal.rsqrt ((Ideal.div (∑ r, ((e r : ℝ) : EReal) * ((e r : ℝ) : EReal)) N - Ideal.div (∑ r, ((e r : ℝ) : EReal)) N * Ideal.div (∑ r, ((e r : ℝ) : EReal)) N) + eps))
        + ((b : EReal) - Ideal.div (∑ r, ((e r : ℝ) : EReal)) N * ((g : EReal) * Ideal.rsqrt ((Ideal.div (∑ r, ((e r : ℝ) : EReal) * ((e r : ℝ) : EReal)) N - Ideal.div (∑ r, ((e r : ℝ) : EReal)) N * Ideal.div (∑ r, ((e r : ℝ) : EReal)) N) + eps)))
      = (((e r0 : EReal) - Ideal.div (z + ∑ r, ((e r : ℝ) : EReal)) N)
            * Ideal.rsqrt (Ideal.div (z + ∑ r, (((e r : ℝ) : EReal) - Ideal.div (z + ∑ r', ((e r' : ℝ) : EReal)) N) * (((e r : ℝ) : EReal) - Ideal.div (z + ∑ r', ((e r' : ℝ) : EReal)) N)) N + eps))
          * (g : EReal) + (b : EReal) := by
  obtain ⟨ε, hε, rfl⟩ := heps
  subst hN hz
  simp only [zero_add]
  exact bn_eq_gen e g b r0 800000 ε (by simp) (by norm_num) hε

end Cert.Alg

end
-- ==== Proof.Value.lean ====
/-
  The kernel's result is the reference's, at the ideal instance, under finite inputs.

  Reading the run boundary by boundary: the first region leaves  h = max (x·W + b) 0, which is the reference's h entry by
  entry; the second stretch applies to h and the index rows the very operations the reference applies, so it leaves the
  reference's e; the second region leaves the column sums S of e and Q of e·e; the third stretch makes
  scale = γ·rsqrt(Q/N − (S/N)² + ε) and shift = β − (S/N)·scale; the third region leaves e·scale + shift.  The reference
  returns ((e − μ)·rsqrt(σ² + ε))·γ + β with μ = (0 + ∑e)/N and σ² = (0 + ∑(e − μ)²)/N.  Every entry of e is a real number
  (the inputs are finite and a row gather reads rows of h, whatever the indices), N is the number of rows and ε > 0, so the
  two are the same real number.
-/
import proofs.«136777_j53730040873189_1_alg».proof.Defs
import proofs.«136777_j53730040873189_1_alg».proof.Proof.KernelIdeal.Run
import proofs.«136777_j53730040873189_1_alg».proof.Proof.KernelIdeal.Glue
import proofs.«136777_j53730040873189_1_alg».proof.Proof.KernelIdeal.KVal0
import proofs.«136777_j53730040873189_1_alg».proof.Proof.KernelIdeal.KVal1
import proofs.«136777_j53730040873189_1_alg».proof.Proof.KernelIdeal.KVal2
import proofs.«136777_j53730040873189_1_alg».proof.Proof.RefRead
import proofs.«136777_j53730040873189_1_alg».proof.Proof.Finite
import proofs.«136777_j53730040873189_1_alg».proof.Proof.Algebra

set_option maxRecDepth 16384

noncomputable section

namespace Cert.KernelIdeal.Val

open Cert.KernelIdeal Cert.KernelIdeal.Gen Cert.KernelIdeal.Frame Cert.KernelIdeal.Glue
open Idealize.ShloMosaic Idealize.ShloMosaic.TcCoe Idealize.SL.Sem Idealize.ShloMosaic.StableHlo Idealize.ShloMosaic.ValueIdx

variable (m : (ℓ : Loc nD τ sig) → Buf (Elt Ideal) ℓ)

/-! ## An argument's buffer at each boundary is its launch contents -/

theorem En1_arg (c : Dev nD) (b : Ref sig .tc) (h0 : b ∉ hostOps0_W) : En1 m c b = m ((c : Thread nD τ).loc b) :=
  keep0 (Bd0 m c) b h0
theorem Bd2_arg (c : Dev nD) (b : Ref sig .tc) (h0 : b ∉ hostOps0_W) (hr : ∀ w, Pipeline.arrRef spec0 w ≠ b) :
    Bd2 m c (Proc.devRef .tc b) = m ((c : Thread nD τ).loc b) :=
  (Bd2_of_ne m c b hr).trans (keep0 (Bd0 m c) b h0)
theorem Bd4_arg (c : Dev nD) (b : Ref sig .tc) (h0 : b ∉ hostOps0_W) (h1 : b ∉ hostOps1_W)
    (hr0 : ∀ w, Pipeline.arrRef spec0 w ≠ b) (hr1 : ∀ w, Pipeline.arrRef spec1 w ≠ b) :
    Bd4 m c (Proc.devRef .tc b) = m ((c : Thread nD τ).loc b) :=
  (Bd4_of_ne m c b hr1).trans ((keep1 (Bd2 m c) b h1).trans (Bd2_arg m c b h0 hr0))

/-! ## h and e -/

/-- The first region's output is the reference's h. -/
theorem h_eq (c : Dev nD) :
    Bd2 m c (Proc.devRef .tc main_v1)
      = Cert.ReferenceIdeal.Read.val_main_v4 (F := Ideal) (m ((c.tc : Thread nD τ).loc main_arg0)) (m ((c.tc : Thread nD τ).loc main_arg3)) (m ((c.tc : Thread nD τ).loc main_arg4)) := by
  refine (Bd2_arr m c 3).trans ?_
  rw [arr0_eq]
  funext j
  obtain ⟨p, q, rfl⟩ : ∃ (p : Fin 50000) (q : Fin 64), j = ix2 p q := ⟨j 0, j 1, eq_ix2 j⟩
  rw [reluAffine_apply, Cert.ReferenceIdeal.RefValue.h_apply, En1_arg m c main_arg0 (by decide), En1_arg m c main_arg3 (by decide),
    v0_apply (Bd0 m c) (m ((c.tc : Thread nD τ).loc main_arg4)) rfl (En1 m c main_v0) rfl q]

/-- The second stretch leaves the reference's e. -/
theorem e_eq' (c : Dev nD) :
    Bd3 m c (Proc.devRef .tc main_v22)
      = Cert.ReferenceIdeal.Read.val_main_v25 (F := Ideal) (m ((c.tc : Thread nD τ).loc main_arg0)) (m ((c.tc : Thread nD τ).loc main_arg1)) (m ((c.tc : Thread nD τ).loc main_arg3)) (m ((c.tc : Thread nD τ).loc main_arg4)) :=
  e_eq (Bd2 m c) _ _ _ _ (h_eq m c) (Bd2_arg m c main_arg1 (by decide) (by decide))

/-! ## The sums, the scale and the shift -/

/-- The reference's e of the launch contents. -/
abbrev eRef (c : Dev nD) : S800000x64.Idx → EReal :=
  Cert.ReferenceIdeal.Read.val_main_v25 (F := Ideal) (m ((c.tc : Thread nD τ).loc main_arg0)) (m ((c.tc : Thread nD τ).loc main_arg1)) (m ((c.tc : Thread nD τ).loc main_arg3)) (m ((c.tc : Thread nD τ).loc main_arg4))

theorem arrIn_eq (c : Dev nD) : arrIn (En3 m) c = eRef m c := e_eq' m c

/-- The second region's first row: the column sums of e. -/
theorem S_apply (c : Dev nD) (q : Fin 64) : sumOut (En3 m) c (ix2 (0 : Fin 1) q) = ∑ r : Fin 800000, eRef m c (ix2 r q) := by
  rw [sum_apply, arrIn_eq]
/-- Its second row: the column sums of e·e. -/
theorem Q_apply (c : Dev nD) (q : Fin 64) :
    sqOut (En3 m) c (ix2 (0 : Fin 1) q) = ∑ r : Fin 800000, eRef m c (ix2 r q) * eRef m c (ix2 r q) := by
  rw [sq_apply, arrIn_eq]

/-- e reaches the third region unchanged. -/
theorem e5 (c : Dev nD) : En5 m c main_v22 = eRef m c :=
  (keep2 (Bd4 m c) main_v22 (by decide)).trans ((Bd4_in m c 0 rfl).trans (e_eq' m c))

/-- The scale row at column q. -/
theorem scale_at (c : Dev nD) (q : Fin 64) (X : S1x64.Idx → EReal) (hX : En5 m c main_v41 = X) (g : S64.Idx → EReal) (hg : (m ((c.tc : Thread nD τ).loc main_arg5)) = g) :
    X (ix2 (0 : Fin 1) q) = g (ix1 q) * Ideal.rsqrt ((Ideal.div (sqOut (En3 m) c (ix2 (0 : Fin 1) q)) (Ideal.ofBits .f32 0x49435000#32) - Ideal.div (sumOut (En3 m) c (ix2 (0 : Fin 1) q)) (Ideal.ofBits .f32 0x49435000#32) * Ideal.div (sumOut (En3 m) c (ix2 (0 : Fin 1) q)) (Ideal.ofBits .f32 0x49435000#32)) + Ideal.ofBits .f32 0x3727C5AC#32) :=
  scale_apply (Bd4 m c) g (sumOut (En3 m) c) (sqOut (En3 m) c)
    ((Bd4_arg m c main_arg5 (by decide) (by decide) (by decide) (by decide)).trans hg) (Bd4_arr m c 1) (Bd4_arr m c 2) X hX q
/-- The shift row at column q. -/
theorem shift_at (c : Dev nD) (q : Fin 64) (X : S1x64.Idx → EReal) (hX : En5 m c main_v42 = X) (g b : S64.Idx → EReal)
    (hg : (m ((c.tc : Thread nD τ).loc main_arg5)) = g) (hb : (m ((c.tc : Thread nD τ).loc main_arg6)) = b) :
    X (ix2 (0 : Fin 1) q) = b (ix1 q) - Ideal.div (sumOut (En3 m) c (ix2 (0 : Fin 1) q)) (Ideal.ofBits .f32 0x49435000#32)
      * (g (ix1 q) * Ideal.rsqrt ((Ideal.div (sqOut (En3 m) c (ix2 (0 : Fin 1) q)) (Ideal.ofBits .f32 0x49435000#32) - Ideal.div (sumOut (En3 m) c (ix2 (0 : Fin 1) q)) (Ideal.ofBits .f32 0x49435000#32) * Ideal.div (sumOut (En3 m) c (ix2 (0 : Fin 1) q)) (Ideal.ofBits .f32 0x49435000#32)) + Ideal.ofBits .f32 0x3727C5AC#32)) :=
  shift_apply (Bd4 m c) g b (sumOut (En3 m) c) (sqOut (En3 m) c)
    ((Bd4_arg m c main_arg5 (by decide) (by decide) (by decide) (by decide)).trans hg)
    ((Bd4_arg m c main_arg6 (by decide) (by decide) (by decide) (by decide)).trans hb) (Bd4_arr m c 1) (Bd4_arr m c 2) X hX q

/-! ## The result -/

/-- THE VALUE: under finite inputs the array the third region leaves is the reference's result of the launch contents. -/
theorem kernel_value [hPre_finite_inputs : Cert.Pre_finite_inputs.Facts] (hpre : Cert.Pre_KernelIdeal m) (c : Dev nD) :
    (dat2 (F := Ideal) (En5 m) c).arrAt 3 cfg2.N
      = Cert.ReferenceIdeal.Read.val_main_v50 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  obtain ⟨r0, r3, r4, r5, r6⟩ := Cert.Fin.inputs_real _ _ _ _ _ _ _ (hpre c)
  have he := Cert.Fin.e_real _ (m ((c.tc : Thread nD τ).loc main_arg1)) _ _ (Cert.Fin.h_real _ _ _ r0 r3 r4)
  rw [arr2_eq]
  funext j
  obtain ⟨r, q, rfl⟩ : ∃ (r : Fin 800000) (q : Fin 64), j = ix2 r q := ⟨j 0, j 1, eq_ix2 j⟩
  show affineOf (En5 m c main_v22) (En5 m c main_v41) (En5 m c main_v42) (ix2 r q) = _
  rw [affineOf_apply, Cert.ReferenceIdeal.RefValue.out_apply, e5,
    scale_at m c q _ rfl _ rfl, shift_at m c q _ rfl _ _ rfl rfl, S_apply, Q_apply]
  choose ε hε using fun k : Fin 800000 => he (ix2 k q)
  obtain ⟨g, hg⟩ := r5 (ix1 q)
  obtain ⟨b, hb⟩ := r6 (ix1 q)
  simp only [eRef, hε, hg, hb]
  exact Cert.Alg.bn_eq ε g b r _ _ _ Cert.Alg.ofBits_N Cert.Alg.ofBits_eps Cert.Alg.ofBits_zero

end Cert.KernelIdeal.Val

end
-- ==== Proof.lean ====
/-
  The five claims of this certificate.

  The program is three kernel regions among three host stretches: a linear layer with a clamp at zero, rows gathered at two
  index rows and averaged on the host, a region accumulating the column sums of e and of e·e over forty blocks, the batch
  normalisation's scale and shift computed on the host, and a region applying them.

  FRAMES.  The word-level program and its idealization run as the same six segments; each region's body is certified at every
  grid point (the middle region by its three cases: first point, middle points, last point, its two scratch rows tracked
  through the invariant), and no segment writes an argument.  The reference is a straight line of host operations.
  PRESERVES.  The ideal pass rewrote nothing.
  ALGEBRAIC.  At the ideal instance the last region's array is the reference's result of the same arguments: the variance as
  E[e²] − mean² is the mean of the squared deviations, and e·(γ·r) + (β − μ·γ·r) = ((e − μ)·r)·γ + β, once every entry of e is a real
  number, which the finite inputs give.
-/
import proofs.«136777_j53730040873189_1_alg».proof.Defs
import proofs.«136777_j53730040873189_1_alg».proof.Proof.Gen.Kernel
import proofs.«136777_j53730040873189_1_alg».proof.Proof.Gen.KernelIdeal
import proofs.«136777_j53730040873189_1_alg».proof.Proof.Gen.ReferenceIdeal
import proofs.«136777_j53730040873189_1_alg».proof.Proof.Gen.Pre_finite_inputs
import proofs.«136777_j53730040873189_1_alg».proof.Proof.Gen.ReferenceIdeal.Run
import proofs.«136777_j53730040873189_1_alg».proof.Proof.Gen.ReferenceIdeal.Read
import proofs.«136777_j53730040873189_1_alg».proof.Proof.Kernel.Run
import proofs.«136777_j53730040873189_1_alg».proof.Proof.KernelIdeal.Run
import proofs.«136777_j53730040873189_1_alg».proof.Proof.Value
import Idealize.ShloMosaic.Adequacy
import Idealize.ShloMosaic.Init

noncomputable section

namespace Cert.Proof

open Idealize.ShloMosaic Idealize.SL.Sem

/-- The word-level program runs and leaves its arguments as launched. -/
theorem frame_k : Cert.frame_Kernel := fun m ρ _ => Cert.Kernel.Frame.frame (F := Bits) m ρ
/-- So does its idealization. -/
theorem frame_ki : Cert.frame_KernelIdeal := fun m ρ _ => Cert.KernelIdeal.Frame.frame (F := Ideal) m ρ
/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs run from memories that agree on the arguments, and end with the same result. -/
theorem algebraic : Cert.algebraic_KernelIdeal_ReferenceIdeal := by
  intro m ρ m' ρ' hpre hagree
  refine ⟨fun c => (Cert.KernelIdeal.Frame.dat2 (F := Ideal) (Cert.KernelIdeal.Frame.En5 m) c).arrAt 3 Cert.KernelIdeal.cfg2.N,
    Cert.KernelIdeal.Frame.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.2.1, (hagree c).2.2.2.2.1,
    (hagree c).2.2.2.2.2.1, (hagree c).2.2.2.2.2.2]
  exact (Cert.KernelIdeal.Val.kernel_value m hpre c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
